-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S8192x64 : Shape := ⟨2, ![8192, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S8192x64 : S_.BroadcastsInDim S8192x64 (![] : Fin 0 → Fin S8192x64.rank)
  reducesTo_S8192x64_S_d0_1 : S8192x64.ReducesTo [0, 1] S_

variable [Facts]

def fn_part5 {F : FTy → Type} [FloatOps F] (main_arg18 : FVec F S8192x64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S8192x64 .f32 := Host.absf main_arg18
  let main_cst_34 : FVec F S_ .f32 := constant S_ .f32 0x7F800000#32
  let main_v90 : FVec F S8192x64 .f32 := broadcastInDim S8192x64 ![] bcast_S_S8192x64 main_cst_34
  let main_v91 : IVec S8192x64 1 := cmpf .olt main_v89 main_v90
  let main_c_35 : IVec S_ 1 := constantI S_ 1 1#1
  let main_v92 : IVec S_ 1 := (fun x v => Host.reduce IntOp.andi x v reducesTo_S8192x64_S_d0_1 h_S_) main_v91 main_c_35
  let main_v93 : IVec S_ 1 := andi main_v88 main_v92
  main_v93

def fn_part4 {F : FTy → Type} [FloatOps F] (main_arg14 : FVec F S64x64 .f32) (main_arg15 : FVec F S64 .f32) (main_arg16 : FVec F S64x64 .f32) (main_arg17 : FVec F S64 .f32) (main_arg18 : FVec F S8192x64 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S64 .f32) (main_arg12 : FVec F S64x512 .f32) (main_arg13 : FVec F S512 .f32) (main_arg14 : FVec F S64x64 .f32) (main_arg15 : FVec F S64 .f32) (main_arg16 : FVec F S64x64 .f32) (main_arg17 : FVec F S64 .f32) (main_arg18 : FVec F S8192x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x512 .f32 := Host.absf main_arg12
  let main_cst_22 : FVec F S_ .f32 := constant S_ .f32 0x7F800000#32
  let main_v60 : FVec F S64x512 .f32 := broadcastInDim S64x512 ![] bcast_S_S64x512 main_cst_22
  let main_v61 : IVec S64x512 1 := cmpf .olt main_v59 main_v60
  let main_c_23 : IVec S_ 1 := constantI S_ 1 1#1
  let main_v62 : IVec S_ 1 := (fun x v => Host.reduce IntOp.andi x v reducesTo_S64x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_v63 main_v67

def fn_part2 {F : FTy → Type} [FloatOps F] (main_arg7 : FVec F S64 .f32) (main_arg8 : FVec F S128x64 .f32) (main_arg9 : FVec F S64 .f32) (main_arg10 : FVec F S64x64 .f32) (main_arg11 : FVec F S64 .f32) (main_arg12 : FVec F S64x512 .f32) (main_arg13 : FVec F S512 .f32) (main_arg14 : FVec F S64x64 .f32) (main_arg15 : FVec F S64 .f32) (main_arg16 : FVec F S64x64 .f32) (main_arg17 : FVec F S64 .f32) (main_arg18 : FVec F S8192x64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_v48 main_v49 main_v50

def fn_part1 {F : FTy → Type} [FloatOps F] (main_arg4 : FVec F S128x128 .f32) (main_arg5 : FVec F S128 .f32) (main_arg6 : FVec F S128x64 .f32) (main_arg7 : FVec F S64 .f32) (main_arg8 : FVec F S128x64 .f32) (main_arg9 : FVec F S64 .f32) (main_arg10 : FVec F S64x64 .f32) (main_arg11 : FVec F S64 .f32) (main_arg12 : FVec F S64x512 .f32) (main_arg13 : FVec F S512 .f32) (main_arg14 : FVec F S64x64 .f32) (main_arg15 : FVec F S64 .f32) (main_arg16 : FVec F S64x64 .f32) (main_arg17 : FVec F S64 .f32) (main_arg18 : FVec F S8192x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x512 .f32) (main_arg1 : FVec F S8192x8192 .f32) (main_arg2 : FVec F S512x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) (main_arg10 : FVec F S64x64 .f32) (main_arg11 : FVec F S64 .f32) (main_arg12 : FVec F S64x512 .f32) (main_arg13 : FVec F S512 .f32) (main_arg14 : FVec F S64x64 .f32) (main_arg15 : FVec F S64 .f32) (main_arg16 : FVec F S64x64 .f32) (main_arg17 : FVec F S64 .f32) (main_arg18 : FVec F S8192x64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x512 : Shape := ⟨2, ![8192, 512]⟩
abbrev S8192x8192 : Shape := ⟨2, ![8192, 8192]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S8192x64 : Shape := ⟨2, ![8192, 64]⟩
abbrev S8192x128 : Shape := ⟨2, ![8192, 128]⟩
abbrev S1024x512 : Shape := ⟨2, ![1024, 512]⟩
abbrev S1024x128 : Shape := ⟨2, ![1024, 128]⟩
abbrev S1x128 : Shape := ⟨2, ![1, 128]⟩
abbrev S2048x1024 : Shape := ⟨2, ![2048, 1024]⟩
abbrev S2048x128 : Shape := ⟨2, ![2048, 128]⟩
abbrev S1x64 : Shape := ⟨2, ![1, 64]⟩
abbrev S1024x64 : Shape := ⟨2, ![1024, 64]⟩
abbrev S1x512 : Shape := ⟨2, ![1, 512]⟩
abbrev S1024x1024 : Shape := ⟨2, ![1024, 1024]⟩

abbrev nBuf : Space → Nat
  | .hbm => 35
  | .vmem => 58
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x512, .f32⟩
  | .hbm, ⟨13, _⟩ => ⟨S512, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S8192x64, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S1x128, .f32⟩
  | .hbm, ⟨24, _⟩ => ⟨S8192x128, .f32⟩
  | .hbm, ⟨25, _⟩ => ⟨S1x64, .f32⟩
  | .hbm, ⟨26, _⟩ => ⟨S1x64, .f32⟩
  | .hbm, ⟨27, _⟩ => ⟨S8192x64, .f32⟩
  | .hbm, ⟨28, _⟩ => ⟨S1x64, .f32⟩
  | .hbm, ⟨29, _⟩ => ⟨S1x512, .f32⟩
  | .hbm, ⟨30, _⟩ => ⟨S8192x512, .f32⟩
  | .hbm, ⟨31, _⟩ => ⟨S1x64, .f32⟩
  | .hbm, ⟨32, _⟩ => ⟨S1x64, .f32⟩
  | .hbm, ⟨33, _⟩ => ⟨S8192x64, .f32⟩
  | .hbm, ⟨34, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S1024x128, .f32⟩
  | .local _ .vmem, ⟨4, _⟩ => ⟨S1024x128, .f32⟩
  | .local _ .vmem, ⟨5, _⟩ => ⟨S2048x1024, .f32⟩
  | .local _ .vmem, ⟨6, _⟩ => ⟨S2048x1024, .f32⟩
  | .local _ .vmem, ⟨7, _⟩ => ⟨S1024x128, .f32⟩
  | .local _ .vmem, ⟨8, _⟩ => ⟨S1024x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S1024x128, .f32⟩
  | .local _ .vmem, ⟨14, _⟩ => ⟨S1024x128, .f32⟩
  | .local _ .vmem, ⟨15, _⟩ => ⟨S128x128, .f32⟩
  | .local _ .vmem, ⟨16, _⟩ => ⟨S1024x128, .f32⟩
  | .local _ .vmem, ⟨17, _⟩ => ⟨S1024x128, .f32⟩
  | .local _ .vmem, ⟨18, _⟩ => ⟨S2048x1024, .f32⟩
  | .local _ .vmem, ⟨19, _⟩ => ⟨S2048x1024, .f32⟩
  | .local _ .vmem, ⟨20, _⟩ => ⟨S1024x128, .f32⟩
  | .local _ .vmem, ⟨21, _⟩ => ⟨S1024x128, .f32⟩
  | .local _ .vmem, ⟨22, _⟩ => ⟨S1x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S1024x128, .f32⟩
  | .local _ .vmem, ⟨27, _⟩ => ⟨S1024x128, .f32⟩
  | .local _ .vmem, ⟨28, _⟩ => ⟨S128x64, .f32⟩
  | .local _ .vmem, ⟨29, _⟩ => ⟨S1x64, .f32⟩
  | .local _ .vmem, ⟨30, _⟩ => ⟨S128x64, .f32⟩
  | .local _ .vmem, ⟨31, _⟩ => ⟨S1x64, .f32⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | .local _ .vmem, ⟨36, _⟩ => ⟨S1024x64, .f32⟩
  | .local _ .vmem, ⟨37, _⟩ => ⟨S1024x64, .f32⟩
  | .local _ .vmem, ⟨38, _⟩ => ⟨S64x64, .f32⟩
  | .local _ .vmem, ⟨39, _⟩ => ⟨S1x64, .f32⟩
  | .local _ .vmem, ⟨40, _⟩ => ⟨S64x512, .f32⟩
  | .local _ .vmem, ⟨41, _⟩ => ⟨S1x512, .f32⟩
  | .local _ .vmem, ⟨42, _⟩ => ⟨S1024x512, .f32⟩
  | .local _ .vmem, ⟨43, _⟩ => ⟨S1024x512, .f32⟩
  | .local _ .vmem, ⟨44, _⟩ => ⟨S1024x64, .f32⟩
  | .local _ .vmem, ⟨45, _⟩ => ⟨S1024x64, .f32⟩
  | .local _ .vmem, ⟨46, _⟩ => ⟨S64x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S1024x64, .f32⟩
  | .local _ .vmem, ⟨51, _⟩ => ⟨S1024x64, .f32⟩
  | .local _ .vmem, ⟨52, _⟩ => ⟨S1024x64, .f32⟩
  | .local _ .vmem, ⟨53, _⟩ => ⟨S1024x64, .f32⟩
  | .local _ .vmem, ⟨54, _⟩ => ⟨S1024x64, .f32⟩
  | .local _ .vmem, ⟨55, _⟩ => ⟨S1024x64, .f32⟩
  | .local _ .vmem, ⟨56, _⟩ => ⟨S1024x1024, .f32⟩
  | .local _ .vmem, ⟨57, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg5_1 : Ref sig .tc := ⟨.vmem, 33, rfl⟩
abbrev cc4_stg6_0 : Ref sig .tc := ⟨.vmem, 34, rfl⟩
abbrev cc4_stg6_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg5_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem5_1 : DmaSem sig := 31
abbrev cc4_sem6_0 : DmaSem sig := 32
abbrev cc4_sem6_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem2_1 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1024x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1024x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1024x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1024x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨2, ![8, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S512_S1x512 : S512.ShapeCasts S1x512
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x1024_S1024x1024_0_0 : ∀ a, (![0, 0] : Fin 2 → Nat) a + S1024x1024.size a ≤ S1024x1024.size a
  h_S1024x1024 : 0 < S1024x1024.numel
  dot_S1024x512_S512x128_S1024x128_1_0_0_1_n_n_wf : DotDims.WF S1024x512 S512x128 S1024x128 [1] [0] [0] [1] [] []
  dot_S2048x1024_S1024x128_S2048x128_1_0_0_1_n_n_wf : DotDims.WF S2048x1024 S1024x128 S2048x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S64x512_S1024x512_1_0_0_1_n_n_wf : DotDims.WF S1024x64 S64x512 S1024x512 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x8192.size a
  hwx3_0 : ∀ i : grid3.Coords, EltTy.bits .f32 = 32 ∨ (Rect.block (s := S8192x8192) S2048x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S8192x128.size a
  hwx3_3 : ∀ i : grid3.Coords, EltTy.bits .f32 = 32 ∨ (Rect.block (s := S8192x128) S2048x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .f32 = 32 ∨ (Rect.block (s := S8192x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x64.size a ≤ S8192x64.size a
  hwx4_5 : ∀ i : grid4.Coords, EltTy.bits .f32 = 32 ∨ (Rect.block (s := S8192x64) S1024x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1024x64.size a ≤ S8192x64.size a
  hwx4_6 : ∀ i : grid4.Coords, EltTy.bits .f32 = 32 ∨ (Rect.block (s := S8192x64) S1024x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x64.size a ≤ S8192x64.size a
  hwx5_0 : ∀ i : grid5.Coords, EltTy.bits .f32 = 32 ∨ (Rect.block (s := S8192x64) S1024x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x512.size a ≤ S64x512.size a
  hwx5_3 : ∀ i : grid5.Coords, EltTy.bits .f32 = 32 ∨ (Rect.block (s := S64x512) S64x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x512.size a ≤ S8192x512.size a
  hwx5_5 : ∀ i : grid5.Coords, EltTy.bits .f32 = 32 ∨ (Rect.block (s := S8192x512) S1024x512.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S8192x64.size a
  hwx6_0 : ∀ i : grid6.Coords, EltTy.bits .f32 = 32 ∨ (Rect.block (s := S8192x64) S1024x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x64.size a ≤ S8192x64.size a
  hwx6_5 : ∀ i : grid6.Coords, EltTy.bits .f32 = 32 ∨ (Rect.block (s := S8192x64) S1024x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x64.size a ≤ S8192x64.size a
  hwx7_0 : ∀ i : grid7.Coords, EltTy.bits .f32 = 32 ∨ (Rect.block (s := S8192x64) S1024x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x64.size a ≤ S8192x64.size a
  hwx7_1 : ∀ i : grid7.Coords, EltTy.bits .f32 = 32 ∨ (Rect.block (s := S8192x64) S1024x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1024.size a ≤ S8192x8192.size a
  hwx7_2 : ∀ i : grid7.Coords, EltTy.bits .f32 = 32 ∨ (Rect.block (s := S8192x8192) S1024x1024.size (cc7_transform_2 i) (hinb7_2 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v2) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v5) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v6) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v7) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg18) S1024x64.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v8) S1024x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v8) S1024x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v9) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S64x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v10) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v11) S1024x512.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v8) S1024x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v12) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v13) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v14) S1024x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v14) S1024x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S1024x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v15) S1024x1024.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S8192x64 : Shape := ⟨2, ![8192, 64]⟩
abbrev S8192x128 : Shape := ⟨2, ![8192, 128]⟩
abbrev S1x128 : Shape := ⟨2, ![1, 128]⟩
abbrev S_ : Shape := ⟨0, ![]⟩
abbrev S1x64 : Shape := ⟨2, ![1, 64]⟩
abbrev S1x512 : Shape := ⟨2, ![1, 512]⟩
abbrev S64x8192 : Shape := ⟨2, ![64, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x512, .f32⟩
  | .hbm, ⟨13, _⟩ => ⟨S512, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S8192x64, .f32⟩
  | .hbm, ⟨19, _⟩ => ⟨S8192x128, .f32⟩
  | .hbm, ⟨20, _⟩ => ⟨S8192x128, .f32⟩
  | .hbm, ⟨21, _⟩ => ⟨S1x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S1x128, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S8192x64, .f32⟩
  | .hbm, ⟨36, _⟩ => ⟨S1x64, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S1x64, .f32⟩
  | .hbm, ⟨41, _⟩ => ⟨S8192x64, .f32⟩
  | .hbm, ⟨42, _⟩ => ⟨S8192x64, .f32⟩
  | .hbm, ⟨43, _⟩ => ⟨S_, .f32⟩
  | .hbm, ⟨44, _⟩ => ⟨S8192x64, .f32⟩
  | .hbm, ⟨45, _⟩ => ⟨S8192x64, .f32⟩
  | .hbm, ⟨46, _⟩ => ⟨S8192x64, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S1x64, .f32⟩
  | .hbm, ⟨51, _⟩ => ⟨S8192x64, .f32⟩
  | .hbm, ⟨52, _⟩ => ⟨S8192x64, .f32⟩
  | .hbm, ⟨53, _⟩ => ⟨S_, .f32⟩
  | .hbm, ⟨54, _⟩ => ⟨S8192x64, .f32⟩
  | .hbm, ⟨55, _⟩ => ⟨S8192x64, .f32⟩
  | .hbm, ⟨56, _⟩ => ⟨S8192x512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S8192x64, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S_, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S1x64, .f32⟩
  | .hbm, ⟨69, _⟩ => ⟨S8192x64, .f32⟩
  | .hbm, ⟨70, _⟩ => ⟨S8192x64, .f32⟩
  | .hbm, ⟨71, _⟩ => ⟨S64x8192, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_cst : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_cst : Ref sig .tc := ⟨.hbm, 32, rfl⟩
abbrev main_call1_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call2_cst : Ref sig .tc := ⟨.hbm, 53, rfl⟩
abbrev main_call2_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call3_cst : Ref sig .tc := ⟨.hbm, 64, rfl⟩
abbrev main_call3_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_0 : Ref sig .tc := ⟨.hbm, 75, rfl⟩
abbrev main_v47 : Ref sig .tc := ⟨.hbm, 76, rfl⟩
abbrev main_v48 : Ref sig .tc := ⟨.hbm, 77, rfl⟩
abbrev main_cst_1 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x64_S64x8192_1_0 : S8192x64.Transposes [1, 0] S64x8192
  bcast_S_S8192x8192 : S_.BroadcastsInDim S8192x8192 (![] : Fin 0 → Fin S8192x8192.rank)
  dot_S8192x512_S512x128_S8192x128_1_0_0_1_n_n_wf : DotDims.WF S8192x512 S512x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  dot_S8192x64_S64x64_S8192x64_1_0_0_1_n_n_wf : DotDims.WF S8192x64 S64x64 S8192x64 [1] [0] [0] [1] [] []
  dot_S8192x64_S64x512_S8192x512_1_0_0_1_n_n_wf : DotDims.WF S8192x64 S64x512 S8192x512 [1] [0] [0] [1] [] []
  dot_S8192x64_S64x8192_S8192x8192_1_0_0_1_n_n_wf : DotDims.WF S8192x64 S64x8192 S8192x8192 [1] [0] [0] [1] [] []

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x512_S8192x512_1_0_0_1_n_n : DotDims S8192x64 S64x512 S8192x512 where
  lhsContracting := [1]
  rhsContracting := [0]
  lhsNonContracting := [0]
  rhsNonContracting := [1]
  lhsBatch := []
  rhsBatch := []
  wf := dot_S8192x64_S64x512_S8192x512_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.R2.lean ====
/-
  Region 2 of the kernel program: the second dense product  h · W₂  (h : 8192×128, W₂ : 128×128), run over a grid of
  8 points.  Point t stages rows 1024·t … 1024·t+1023 of h (window 0), the whole of W₂ (window 1, fetched once) and
  writes back rows 1024·t … of the result (window 2).  The body stores ONE whole block: the product of the two staged
  blocks into a zero accumulator.  Everything here is stated at any entry contents V of the core's buffers and at any
  float instance.
-/
import proofs.«167749_j9328668967790_1_alg».proof.Proof.Gen.Kernel.Launch
import proofs.«167749_j9328668967790_1_alg».proof.Proof.Gen.Kernel.Skeleton
import proofs.«167749_j9328668967790_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or the
    index map stood still since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_x : Rect S1024x128 := Rect.unit (s := S1024x128) ![0, 0] S1024x128.size inb_S1024x128_S1024x128_0_0
abbrev r2_w : Rect S128x128 := Rect.unit (s := S128x128) ![0, 0] S128x128.size inb_S128x128_S128x128_0_0
abbrev r2_o : Rect S1024x128 := Rect.unit (s := S1024x128) ![0, 0] S1024x128.size inb_S1024x128_S1024x128_0_0

/-- The result block after the body: its one store, the product of the two loaded blocks. -/
def out2_2 (x0 : Vec F S1024x128 .f32) (x1 : Vec F S128x128 .f32) : Vec F S1024x128 .f32 :=
  View.canon [⟨r2_o, k2_pay1 (View.ld x0 r2_x) (View.ld x1 r2_w)⟩]

theorem cover2_2 (p0 : Vec F S1024x128 .f32) (y : S1024x128.Idx) :
    ∃ pc ∈ ([⟨r2_o, p0⟩] : List (View.Piece (Elt F) S1024x128 .f32)), y ∈ pc.1.set :=
  View.cover_of_tiled [⟨r2_o, p0⟩] S1024x128.size (by rfl) y

set_option maxHeartbeats 1000000 in
/-- The body on whole staging memrefs: inputs kept, the result block left at `out2_2` of the inputs. -/
theorem sound_kernel2 (c : Dev nD) (E : Set ℕ) (i : grid2.Coords)
    (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c: arrays as found; after the body each input buffer at its block, the
    result buffer at the product of the two input blocks; the invariant is the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.R3.lean ====
/-
  Region 3 of the kernel program: the second graph-convolution layer (the same kernel as region 1, on other arrays)  relu(adj · h + b)  (adj : 8192×8192, h : 8192×128,
  b : 1×128), run over a grid of 4 × 8 points (i, k).  Point (i, k) stages block (i, k) of adj (2048×1024, window 0),
  rows 1024·k … of h (window 1), the bias (window 2, fetched once) and owns rows 2048·i … of the result (window 3,
  written back at k = 7 only).  A scratch accumulator of 2048×128 is carried from point to point: zeroed at k = 0,
  at every point increased by the product of the two staged blocks, and at k = 7 the body stores
  max(acc + bias, 0) into the result block.  Everything here is stated at any entry contents V of the core's
  buffers and at any float instance.
-/
import proofs.«167749_j9328668967790_1_alg».proof.Proof.Gen.Kernel.Launch
import proofs.«167749_j9328668967790_1_alg».proof.Proof.Gen.Kernel.Skeleton
import proofs.«167749_j9328668967790_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetched it or the
    index map stood still since the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, in closed form over the grid -/

/-- "k = 0": the accumulator is zeroed first. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- "k = 7": the result block is finalized and stored. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-- The result window is idle exactly off k = 7, and never written back there. -/
theorem idleAt3_3 : ∀ t : Fin cfg3.N, ¬cond3_1 (grid3.coords t) → cfg3.idle 3 (grid3.coords t) = true := by decide +kernel
theorem liveAt3_3 : ∀ t : Fin cfg3.N, cond3_1 (grid3.coords t) → cfg3.idle 3 (grid3.coords t) = false := by decide +kernel
theorem noFlush3_3 (t : Fin cfg3.N) (h : ¬cond3_1 (grid3.coords t)) : (cfg3.win 3).flush t = false := by
  rw [Bool.eq_false_iff]; exact fun hf => h ((hcond3_1 t).mpr ((flush3_3 t).mp hf))
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

/-- The offsets of every load and store of the body are zero: each goes through its whole buffer. -/
theorem hz3 : (![0, 0] : Fin 2 → Nat) = fun _ => 0 := by funext a; fin_cases a <;> rfl

/-- The scratch accumulator, as a memref. -/
abbrev scM3 : Memref sig .tc .vmem S2048x128 .f32 := Memref.whole cc3_scratch0

/-! ## The body on whole staging memrefs, case by case -/

set_option maxHeartbeats 1000000 in
/-- k = 0: the accumulator is zeroed, then increased by the product of the two blocks; the result block untouched. -/
theorem sound_kernel3_A (c : Dev nD) (E : Set ℕ) (i : grid3.Coords) (hc0 : cond3_0 i) (hc1 : ¬cond3_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (a : Vec F S2048x128 .f32) (K : PUnit → sProp 𝕄) :
    iprop(owns (c : Thread nD τ) arg2 fullShare x0 ∗ owns (c : Thread nD τ) arg3 fullShare x1 ∗ owns (c : Thread nD τ) arg6 fullShare a
        ∗ (iprop(owns (c : Thread nD τ) arg2 fullShare x0 ∗ owns (c : Thread nD τ) arg3 fullShare x1 ∗ owns (c : Thread nD τ) arg6 fullShare (k3_pay2 x0 x1 k3_pay1)) -∗ K ⟨⟩))
      ⊢ wp frame (wpE (defs₀ (F := F)) Variants.none c none) E (cc3__gcn_kernel i arg2 harg2 arg3 harg3 arg4 harg4 arg5 harg5 arg6 harg6) K := by
  simp only [cc3__gcn_kernel_eq_skeleton]; unfold cc3__gcn_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [View.read_writes_eq_canon _ _ _ (fun y => ⟨_, List.mem_cons_self, View.mem_set_unit_zero hz3 inb_S2048x128_S2048x128_0_0 y⟩), View.canon_cons_unit_zero hz3]
  simp only [View.readAt_eq_ld, View.ld_unit_zero (S := S2048x1024) hz3, View.ld_unit_zero (S := S1024x128) hz3, View.ld_unit_zero (S := S2048x128) hz3, View.ld_unit_zero (S := S1x128) hz3, View.readCov_unit_zero (S := S2048x128) _ hz3]

set_option maxHeartbeats 1000000 in
/-- 0 < k < 7: the accumulator is increased by the product of the two blocks; the result block untouched. -/
theorem sound_kernel3_B (c : Dev nD) (E : Set ℕ) (i : grid3.Coords) (hc0 : ¬cond3_0 i) (hc1 : ¬cond3_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (a : Vec F S2048x128 .f32) (K : PUnit → sProp 𝕄) :
    iprop(owns (c : Thread nD τ) arg2 fullShare x0 ∗ owns (c : Thread nD τ) arg3 fullShare x1 ∗ owns (c : Thread nD τ) arg6 fullShare a
        ∗ (iprop(owns (c : Thread nD τ) arg2 fullShare x0 ∗ owns (c : Thread nD τ) arg3 fullShare x1 ∗ owns (c : Thread nD τ) arg6 fullShare (k3_pay2 x0 x1 a)) -∗ K ⟨⟩))
      ⊢ wp frame (wpE (defs₀ (F := F)) Variants.none c none) E (cc3__gcn_kernel i arg2 harg2 arg3 harg3 arg4 harg4 arg5 harg5 arg6 harg6) K := by
  simp only [cc3__gcn_kernel_eq_skeleton]; unfold cc3__gcn_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [View.read_writes_eq_canon _ _ _ (fun y => ⟨_, List.mem_cons_self, View.mem_set_unit_zero hz3 inb_S2048x128_S2048x128_0_0 y⟩), View.canon_cons_unit_zero hz3]
  simp only [View.readAt_eq_ld, View.ld_unit_zero (S := S2048x1024) hz3, View.ld_unit_zero (S := S1024x128) hz3, View.ld_unit_zero (S := S2048x128) hz3, View.ld_unit_zero (S := S1x128) hz3, View.readCov_unit_zero (S := S2048x128) _ hz3]

set_option maxHeartbeats 1000000 in
/-- k = 7: the accumulator is increased by the product of the two blocks, and the result block is left at
    max(accumulator + bias, 0). -/
theorem sound_kernel3_C (c : Dev nD) (E : Set ℕ) (i : grid3.Coords) (hc0 : ¬cond3_0 i) (hc1 : cond3_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (x2 : Vec F S1x128 .f32) (a : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2 ∗ owns (c : Thread nD τ) arg5 fullShare (k3_pay3 (k3_pay2 x0 x1 a) x2)
            ∗ owns (c : Thread nD τ) arg6 fullShare (k3_pay2 x0 x1 a)) -∗ K ⟨⟩))
      ⊢ wp frame (wpE (defs₀ (F := F)) Variants.none c none) E (cc3__gcn_kernel i arg2 harg2 arg3 harg3 arg4 harg4 arg5 harg5 arg6 harg6) K := by
  simp only [cc3__gcn_kernel_eq_skeleton]; unfold cc3__gcn_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [View.read_writes_eq_canon _ _ _ (fun y => ⟨_, List.mem_cons_self, View.mem_set_unit_zero hz3 inb_S2048x128_S2048x128_0_0 y⟩), View.canon_cons_unit_zero hz3]
    simp only [View.readAt_eq_ld, View.ld_unit_zero (S := S2048x1024) hz3, View.ld_unit_zero (S := S1024x128) hz3, View.ld_unit_zero (S := S2048x128) hz3, View.ld_unit_zero (S := S1x128) hz3, View.readCov_unit_zero (S := S2048x128) _ hz3]
  iexists _; isplitr
  swap; · iexact H6
  ipureintro
  sl_unfold_run_names
  rw [View.read_writes_eq_canon _ _ _ (fun y => ⟨_, List.mem_cons_self, View.mem_set_unit_zero hz3 inb_S2048x128_S2048x128_0_0 y⟩), View.canon_cons_unit_zero hz3]
  simp only [View.readAt_eq_ld, View.ld_unit_zero (S := S2048x1024) hz3, View.ld_unit_zero (S := S1024x128) hz3, View.ld_unit_zero (S := S2048x128) hz3, View.ld_unit_zero (S := S1x128) hz3, View.readCov_unit_zero (S := S2048x128) _ hz3]

/-! ## The accumulator, point by point -/

/-- What the scratch accumulator holds after the first n points: zeroed at the points with k = 0, then increased
    at every point by the product of that point's two blocks.  (Before the first point it holds anything; the
    value given here at 0 is never consulted.) -/
def acc3 (c : Dev nD) : ℕ → Vec F S2048x128 .f32
  | 0 => k3_pay1
  | n + 1 => if h : n < cfg3.N then
      k3_pay2 (iblk3 V c 0 ⟨n, h⟩) (iblk3 V c 1 ⟨n, h⟩) (if n % 8 = 0 then k3_pay1 else acc3 c n)
    else k3_pay1

theorem acc3_succ (c : Dev nD) (t : Fin cfg3.N) :
    acc3 V c (t.val + 1) = k3_pay2 (iblk3 V c 0 t) (iblk3 V c 1 t) (if t.val % 8 = 0 then k3_pay1 else acc3 V c t.val) := by
  rw [acc3, dif_pos t.isLt]
/-- At a point with k = 0 the accumulator restarts from zero. -/
theorem acc3_reset (c : Dev nD) (t : Fin cfg3.N) (h : t.val % 8 = 0) :
    acc3 V c (t.val + 1) = k3_pay2 (iblk3 V c 0 t) (iblk3 V c 1 t) k3_pay1 := by
  rw [acc3_succ, if_pos h]
/-- At any other point it continues from what the point before left. -/
theorem acc3_step (c : Dev nD) (t : Fin cfg3.N) (h : t.val % 8 ≠ 0) :
    acc3 V c (t.val + 1) = k3_pay2 (iblk3 V c 0 t) (iblk3 V c 1 t) (acc3 V c t.val) := by
  rw [acc3_succ, if_neg h]

/-! ## The invariant: the scoped rest with the accumulator named -/

/-- Before the first point: the generator register and the scoped rest, the accumulator at anything.  Afterwards:
    the accumulator at what the points so far left in it, the remaining scoped buffers unopened, the register. -/
def Phi3 (c : Dev nD) : ℕ → sProp 𝕄
  | 0 => iprop((∃ r, prngReg c r) ∗ Pipeline.scopedRest (Ix := Unit) (Name := ℕ) (U := UR sig nD τ) (Lvl := ℕ) (Val := Elt F) spec3 c)
  | n + 1 => iprop(owns (c : Thread nD τ) scM3 fullShare (acc3 V c (n + 1)) ∗ Pipeline.scopedRestBut (Ix := Unit) (Name := ℕ) (U := UR sig nD τ) (Lvl := ℕ) (Val := Elt F) spec3 c [cc3_scratch0] ∗ (∃ r, prngReg c r))

theorem Phi3_zero (c : Dev nD) : Phi3 V c 0 = iprop((∃ r, prngReg c r) ∗ Pipeline.scopedRest (Ix := Unit) (Name := ℕ) (U := UR sig nD τ) (Lvl := ℕ) (Val := Elt F) spec3 c) := rfl
theorem Phi3_succ (c : Dev nD) (n : ℕ) :
    Phi3 V c (n + 1) = iprop(owns (c : Thread nD τ) scM3 fullShare (acc3 V c (n + 1)) ∗ Pipeline.scopedRestBut (Ix := Unit) (Name := ℕ) (U := UR sig nD τ) (Lvl := ℕ) (Val := Elt F) spec3 c [cc3_scratch0] ∗ (∃ r, prngReg c r)) := rfl

/-- The scoped rest with the accumulator as a memref owned at some contents. -/
theorem scoped3_eq (c : Dev nD) :
    (Pipeline.scopedRest (Ix := Unit) (Name := ℕ) (U := UR sig nD τ) (Lvl := ℕ) (Val := Elt F) spec3 c : sProp 𝕄) = iprop((∃ d, owns (c : Thread nD τ) scM3 fullShare d) ∗ Pipeline.scopedRestBut (Ix := Unit) (Name := ℕ) (U := UR sig nD τ) (Lvl := ℕ) (Val := Elt F) spec3 c [cc3_scratch0]) := by
  rw [scopedRest3_split]; simp only [scM3, owns_whole]; try rfl

/-- The invariant opened: the accumulator at some contents, which after the first point are the named ones. -/
theorem Phi3_open (c : Dev nD) (n : ℕ) :
    Phi3 V c n ⊢ iprop(∃ a, ⌜n ≠ 0 → a = acc3 V c n⌝ ∗ owns (c : Thread nD τ) scM3 fullShare a ∗ Pipeline.scopedRestBut (Ix := Unit) (Name := ℕ) (U := UR sig nD τ) (Lvl := ℕ) (Val := Elt F) spec3 c [cc3_scratch0] ∗ (∃ r, prngReg c r)) := by
  cases n with
  | zero =>
    rw [Phi3_zero, scoped3_eq]
    iintro ⟨Hg, ⟨%a, Ha⟩, Hr⟩
    iexists a; isplitr; · ipureintro; exact fun h => absurd rfl h
    isplitl [Ha]; · iexact Ha
    isplitl [Hr]; · iexact Hr
    iexact Hg
  | succ n =>
    rw [Phi3_succ]
    iintro ⟨Ha, Hr, Hg⟩
    iexists _; isplitr; · ipureintro; exact fun _ => rfl
    isplitl [Ha]; · iexact Ha
    isplitl [Hr]; · iexact Hr
    iexact Hg

/-! ## The pipeline's proof data -/

/-- The proof data of pipeline 3 on core c: arrays as found; after the body each input buffer at its block, the
    result buffer at max(accumulator + bias, 0) of the accumulator the point leaves (consulted only where the point
    stores and writes back the result block, k = 7); the invariant names the accumulator. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c (t.val + 1)) (iblk3 V c 2 t)
  Φ t := Phi3 V c t.val
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c (t.val + 1)) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem Phi3_castSucc (c : Dev nD) (t : Fin cfg3.N) : (dat3 V c).Φ t.castSucc = Phi3 V c t.val := by
  dsimp only [dat3]; simp only [Fin.coe_castSucc]
theorem Phi3_at_succ (c : Dev nD) (t : Fin cfg3.N) : (dat3 V c).Φ t.succ = Phi3 V c (t.val + 1) := by
  dsimp only [dat3]; simp only [Fin.val_succ]

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point: the inputs' buffers hold their blocks; the closed forms of the two conditions say which of
    the three cases the point is in; the invariant hands the body the accumulator (named after the first point,
    and at a point with k = 0 its contents do not matter) and takes it back at this point's contents; off k = 7 the
    result buffer is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl, Phi3_castSucc, Phi3_at_succ, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  have hN : t.val < 32 := lt_of_lt_of_eq t.isLt (show cfg3.N = 32 from N_3)
  iintro ⟨HΦ, Ho, ⟨%d0, H0⟩, ⟨%d1, H1⟩, ⟨%d2, H2⟩, ⟨%d3, H3⟩⟩
  ihave HΦ' := (Phi3_open V c t.val) $$ HΦ
  icases HΦ' with ⟨%a, %ha, Ha, Hr, Hg⟩
  by_cases h0 : t.val % 8 = 0
  · have hc0 : cond3_0 (grid3.coords t) := (hcond3_0 t).mpr h0
    have hc1 : ¬cond3_1 (grid3.coords t) := fun h => by have := (hcond3_1 t).mp h; omega
    rw [Dat.leavesExact_idle (dat3 V c) 3 t (idleAt3_3 t hc1) (noFlush3_3 t hc1), acc3_reset V c t h0]
    iapply (sound_kernel3_A c Set.univ _ hc0 hc1 _ _ _ _ _ _ _ _ _ _ (iblk3 V c 0 t) (iblk3 V c 1 t) a _)
    isplitl [H0]; · iexact H0
    isplitl [H1]; · iexact H1
    isplitl [Ha]; · iexact Ha
    iintro ⟨H0, H1, Ha⟩
    isplitl [Ha Hr Hg]
    · isplitl [Ha]; · iexact Ha
      isplitl [Hr]; · iexact Hr
      iexact Hg
    isplitl [Ho]; · iexact Ho
    isplitl [H0]; · iexact H0
    isplitl [H1]; · iexact H1
    isplitl [H2]; · iexact H2
    iexists _; iexact H3
  · have hc0 : ¬cond3_0 (grid3.coords t) := fun h => h0 ((hcond3_0 t).mp h)
    have hz : t.val ≠ 0 := fun h => h0 (by rw [h])
    obtain rfl := ha hz
    rw [acc3_step V c t h0]
    by_cases h1 : t.val % 8 = 7
    · have hc1 : cond3_1 (grid3.coords t) := (hcond3_1 t).mpr h1
      rw [show (dat3 V c).leavesExact 3 t = owns (c : Thread nD τ) (st3_3 t) fullShare ((dat3 V c).after 3 t) from by
        unfold Dat.leavesExact; rw [liveAt3_3 t hc1], after3_3, acc3_step V c t h0]
      iapply (sound_kernel3_C c Set.univ _ hc0 hc1 _ _ _ _ _ _ _ _ _ _ (iblk3 V c 0 t) (iblk3 V c 1 t) (iblk3 V c 2 t) (acc3 V c t.val) _)
      isplitl [H0]; · iexact H0
      isplitl [H1]; · iexact H1
      isplitl [H2]; · iexact H2
      isplitl [H3]; · iexists _; iexact H3
      isplitl [Ha]; · iexact Ha
      iintro ⟨H0, H1, H2, H3, Ha⟩
      isplitl [Ha Hr Hg]
      · isplitl [Ha]; · iexact Ha
        isplitl [Hr]; · iexact Hr
        iexact Hg
      isplitl [Ho]; · iexact Ho
      isplitl [H0]; · iexact H0
      isplitl [H1]; · iexact H1
      isplitl [H2]; · iexact H2
      iexact H3
    · have hc1 : ¬cond3_1 (grid3.coords t) := fun h => h1 ((hcond3_1 t).mp h)
      rw [Dat.leavesExact_idle (dat3 V c) 3 t (idleAt3_3 t hc1) (noFlush3_3 t hc1)]
      iapply (sound_kernel3_B c Set.univ _ hc0 hc1 _ _ _ _ _ _ _ _ _ _ (iblk3 V c 0 t) (iblk3 V c 1 t) (acc3 V c t.val) _)
      isplitl [H0]; · iexact H0
      isplitl [H1]; · iexact H1
      isplitl [Ha]; · iexact Ha
      iintro ⟨H0, H1, Ha⟩
      isplitl [Ha Hr Hg]
      · isplitl [Ha]; · iexact Ha
        isplitl [Hr]; · iexact Hr
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Phi3 V c 0 from rfl, Phi3_zero]
  try exact Idealize.SL.BI.Entails.refl _

/-- After the last point the invariant gives the scoped rest back: the accumulator's contents are forgotten. -/
theorem hout3 (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Phi3 V c (31 + 1) from rfl, Phi3_succ, scoped3_eq]
  iintro ⟨Ha, Hr, Hg⟩
  isplitl [Hg]; · iexact Hg
  isplitl [Ha]; · iexists _; iexact Ha
  iexact Hr

end Region3

end Cert.Kernel.Hand

end
-- ==== Proof.K.R6.lean ====
/-
  Region 6 of the kernel program: the second decoder head, a two-layer perceptron  relu(z · W₁ + b₁) · W₂ + b₂
  (z : 8192×64, W₁ : 64×64, b₁ : 1×64, W₂ : 64×64, b₂ : 1×64), run over a grid of 8 points.  Point t stages rows
  1024·t … 1024·t+1023 of z (window 0), the whole of W₁, b₁, W₂, b₂ (windows 1 to 4, each fetched once) and writes
  back rows 1024·t … of the result (window 5).  The body stores ONE whole block: the second layer applied to the
  rectified first layer of the staged blocks.  Everything here is stated at any entry contents V of the core's
  buffers and at any float instance.
-/
import proofs.«167749_j9328668967790_1_alg».proof.Proof.Gen.Kernel.Launch
import proofs.«167749_j9328668967790_1_alg».proof.Proof.Gen.Kernel.Skeleton
import proofs.«167749_j9328668967790_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether the point fetched it or the
    index map stood still since the fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The whole-block rectangles the body loads and stores through. -/
abbrev r6_z : Rect S1024x64 := Rect.unit (s := S1024x64) ![0, 0] S1024x64.size inb_S1024x64_S1024x64_0_0
abbrev r6_w1 : Rect S64x64 := Rect.unit (s := S64x64) ![0, 0] S64x64.size inb_S64x64_S64x64_0_0
abbrev r6_b1 : Rect S1x64 := Rect.unit (s := S1x64) ![0, 0] S1x64.size inb_S1x64_S1x64_0_0
abbrev r6_w2 : Rect S64x64 := Rect.unit (s := S64x64) ![0, 0] S64x64.size inb_S64x64_S64x64_0_0
abbrev r6_b2 : Rect S1x64 := Rect.unit (s := S1x64) ![0, 0] S1x64.size inb_S1x64_S1x64_0_0
abbrev r6_o : Rect S1024x64 := Rect.unit (s := S1024x64) ![0, 0] S1024x64.size inb_S1024x64_S1024x64_0_0

/-- The result block after the body: its one store, the second layer applied to the rectified first layer. -/
def out6_5 (x0 : Vec F S1024x64 .f32) (x1 : Vec F S64x64 .f32) (x2 : Vec F S1x64 .f32) (x3 : Vec F S64x64 .f32) (x4 : Vec F S1x64 .f32) : Vec F S1024x64 .f32 :=
  View.canon [⟨r6_o, k6_pay1 (View.ld x0 r6_z) (View.ld x1 r6_w1) (View.ld x2 r6_b1) (View.ld x3 r6_w2) (View.ld x4 r6_b2)⟩]

theorem cover6_5 (p0 : Vec F S1024x64 .f32) (y : S1024x64.Idx) :
    ∃ pc ∈ ([⟨r6_o, p0⟩] : List (View.Piece (Elt F) S1024x64 .f32)), y ∈ pc.1.set :=
  View.cover_of_tiled [⟨r6_o, p0⟩] S1024x64.size (by rfl) y

set_option maxHeartbeats 1000000 in
/-- The body on whole staging memrefs: inputs kept, the result block left at `out6_5` of the inputs. -/
theorem sound_kernel6 (c : Dev nD) (E : Set ℕ) (i : grid6.Coords)
    (arg1 : Memref sig .tc .vmem S1024x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S1024x64 .f32) (harg6 : arg6.IsWhole)
    (x0 : Vec F S1024x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E (cc6__decoder_kernel i arg1 harg1 arg2 harg2 arg3 harg3 arg4 harg4 arg5 harg5 arg6 harg6) K := by
  simp only [cc6__decoder_kernel_eq_skeleton]; unfold cc6__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The proof data of pipeline 6 on core c: arrays as found; after the body each input buffer at its block, the
    result buffer at the body's store of the five input blocks; the invariant is the scoped rest and the generator
    register. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Region6

end Cert.Kernel.Hand

end
-- ==== Proof.KI.R0.lean ====
/-
  Region 0 of the kernel program: the first dense product  x · W₁  (x : 8192×512, W₁ : 512×128), run over a grid of
  8 points.  Point t stages rows 1024·t … 1024·t+1023 of x (window 0), the whole of W₁ (window 1, fetched once) and
  writes back rows 1024·t … of the result (window 2).  The body stores ONE whole block: the product of the two staged
  blocks into a zero accumulator.  Everything here is stated at any entry contents V of the core's buffers and at any
  float instance.
-/
import proofs.«167749_j9328668967790_1_alg».proof.Proof.Gen.KernelIdeal.Launch
import proofs.«167749_j9328668967790_1_alg».proof.Proof.Gen.KernelIdeal.Skeleton
import proofs.«167749_j9328668967790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    index map stood still since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S1024x512 := Rect.unit (s := S1024x512) ![0, 0] S1024x512.size inb_S1024x512_S1024x512_0_0
abbrev r0_w : Rect S512x128 := Rect.unit (s := S512x128) ![0, 0] S512x128.size inb_S512x128_S512x128_0_0
abbrev r0_o : Rect S1024x128 := Rect.unit (s := S1024x128) ![0, 0] S1024x128.size inb_S1024x128_S1024x128_0_0

/-- The result block after the body: its one store, the product of the two loaded blocks. -/
def out0_2 (x0 : Vec F S1024x512 .f32) (x1 : Vec F S512x128 .f32) : Vec F S1024x128 .f32 :=
  View.canon [⟨r0_o, k0_pay1 (View.ld x0 r0_x) (View.ld x1 r0_w)⟩]

theorem cover0_2 (p0 : Vec F S1024x128 .f32) (y : S1024x128.Idx) :
    ∃ pc ∈ ([⟨r0_o, p0⟩] : List (View.Piece (Elt F) S1024x128 .f32)), y ∈ pc.1.set :=
  View.cover_of_tiled [⟨r0_o, p0⟩] S1024x128.size (by rfl) y

set_option maxHeartbeats 1000000 in
/-- The body on whole staging memrefs: inputs kept, the result block left at `out0_2` of the inputs. -/
theorem sound_kernel0 (c : Dev nD) (E : Set ℕ) (i : grid0.Coords)
    (arg1 : Memref sig .tc .vmem S1024x512 .f32) (harg1 : arg1.IsWhole) (arg2 : Memref sig .tc .vmem S512x128 .f32) (harg2 : arg2.IsWhole)
    (arg3 : Memref sig .tc .vmem S1024x128 .f32) (harg3 : arg3.IsWhole)
    (x0 : Vec F S1024x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: arrays as found; after the body each input buffer at its block, the
    result buffer at the product of the two input blocks; the invariant is the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1.lean ====
/-
  Region 1 of the kernel program: one graph-convolution layer  relu(adj · h + b)  (adj : 8192×8192, h : 8192×128,
  b : 1×128), run over a grid of 4 × 8 points (i, k).  Point (i, k) stages block (i, k) of adj (2048×1024, window 0),
  rows 1024·k … of h (window 1), the bias (window 2, fetched once) and owns rows 2048·i … of the result (window 3,
  written back at k = 7 only).  A scratch accumulator of 2048×128 is carried from point to point: zeroed at k = 0,
  at every point increased by the product of the two staged blocks, and at k = 7 the body stores
  max(acc + bias, 0) into the result block.  Everything here is stated at any entry contents V of the core's
  buffers and at any float instance.
-/
import proofs.«167749_j9328668967790_1_alg».proof.Proof.Gen.KernelIdeal.Launch
import proofs.«167749_j9328668967790_1_alg».proof.Proof.Gen.KernelIdeal.Skeleton
import proofs.«167749_j9328668967790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the
    index map stood still since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- "k = 0": the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "k = 7": the result block is finalized and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The result window is idle exactly off k = 7, and never written back there. -/
theorem idleAt1_3 : ∀ t : Fin cfg1.N, ¬cond1_1 (grid1.coords t) → cfg1.idle 3 (grid1.coords t) = true := by decide +kernel
theorem liveAt1_3 : ∀ t : Fin cfg1.N, cond1_1 (grid1.coords t) → cfg1.idle 3 (grid1.coords t) = false := by decide +kernel
theorem noFlush1_3 (t : Fin cfg1.N) (h : ¬cond1_1 (grid1.coords t)) : (cfg1.win 3).flush t = false := by
  rw [Bool.eq_false_iff]; exact fun hf => h ((hcond1_1 t).mpr ((flush1_3 t).mp hf))
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- The offsets of every load and store of the body are zero: each goes through its whole buffer. -/
theorem hz1 : (![0, 0] : Fin 2 → Nat) = fun _ => 0 := by funext a; fin_cases a <;> rfl

/-- The scratch accumulator, as a memref. -/
abbrev scM1 : Memref sig .tc .vmem S2048x128 .f32 := Memref.whole cc1_scratch0

/-! ## The body on whole staging memrefs, case by case -/

set_option maxHeartbeats 1000000 in
/-- k = 0: the accumulator is zeroed, then increased by the product of the two blocks; the result block untouched. -/
theorem sound_kernel1_A (c : Dev nD) (E : Set ℕ) (i : grid1.Coords) (hc0 : cond1_0 i) (hc1 : ¬cond1_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (a : Vec F S2048x128 .f32) (K : PUnit → sProp 𝕄) :
    iprop(owns (c : Thread nD τ) arg2 fullShare x0 ∗ owns (c : Thread nD τ) arg3 fullShare x1 ∗ owns (c : Thread nD τ) arg6 fullShare a
        ∗ (iprop(owns (c : Thread nD τ) arg2 fullShare x0 ∗ owns (c : Thread nD τ) arg3 fullShare x1 ∗ owns (c : Thread nD τ) arg6 fullShare (k1_pay2 x0 x1 k1_pay1)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [View.read_writes_eq_canon _ _ _ (fun y => ⟨_, List.mem_cons_self, View.mem_set_unit_zero hz1 inb_S2048x128_S2048x128_0_0 y⟩), View.canon_cons_unit_zero hz1]
  simp only [View.readAt_eq_ld, View.ld_unit_zero (S := S2048x1024) hz1, View.ld_unit_zero (S := S1024x128) hz1, View.ld_unit_zero (S := S2048x128) hz1, View.ld_unit_zero (S := S1x128) hz1, View.readCov_unit_zero (S := S2048x128) _ hz1]

set_option maxHeartbeats 1000000 in
/-- 0 < k < 7: the accumulator is increased by the product of the two blocks; the result block untouched. -/
theorem sound_kernel1_B (c : Dev nD) (E : Set ℕ) (i : grid1.Coords) (hc0 : ¬cond1_0 i) (hc1 : ¬cond1_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (a : Vec F S2048x128 .f32) (K : PUnit → sProp 𝕄) :
    iprop(owns (c : Thread nD τ) arg2 fullShare x0 ∗ owns (c : Thread nD τ) arg3 fullShare x1 ∗ owns (c : Thread nD τ) arg6 fullShare a
        ∗ (iprop(owns (c : Thread nD τ) arg2 fullShare x0 ∗ owns (c : Thread nD τ) arg3 fullShare x1 ∗ owns (c : Thread nD τ) arg6 fullShare (k1_pay2 x0 x1 a)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [View.read_writes_eq_canon _ _ _ (fun y => ⟨_, List.mem_cons_self, View.mem_set_unit_zero hz1 inb_S2048x128_S2048x128_0_0 y⟩), View.canon_cons_unit_zero hz1]
  simp only [View.readAt_eq_ld, View.ld_unit_zero (S := S2048x1024) hz1, View.ld_unit_zero (S := S1024x128) hz1, View.ld_unit_zero (S := S2048x128) hz1, View.ld_unit_zero (S := S1x128) hz1, View.readCov_unit_zero (S := S2048x128) _ hz1]

set_option maxHeartbeats 1000000 in
/-- k = 7: the accumulator is increased by the product of the two blocks, and the result block is left at
    max(accumulator + bias, 0). -/
theorem sound_kernel1_C (c : Dev nD) (E : Set ℕ) (i : grid1.Coords) (hc0 : ¬cond1_0 i) (hc1 : cond1_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (x2 : Vec F S1x128 .f32) (a : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 a) x2)
            ∗ owns (c : Thread nD τ) arg6 fullShare (k1_pay2 x0 x1 a)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [View.read_writes_eq_canon _ _ _ (fun y => ⟨_, List.mem_cons_self, View.mem_set_unit_zero hz1 inb_S2048x128_S2048x128_0_0 y⟩), View.canon_cons_unit_zero hz1]
    simp only [View.readAt_eq_ld, View.ld_unit_zero (S := S2048x1024) hz1, View.ld_unit_zero (S := S1024x128) hz1, View.ld_unit_zero (S := S2048x128) hz1, View.ld_unit_zero (S := S1x128) hz1, View.readCov_unit_zero (S := S2048x128) _ hz1]
  iexists _; isplitr
  swap; · iexact H6
  ipureintro
  sl_unfold_run_names
  rw [View.read_writes_eq_canon _ _ _ (fun y => ⟨_, List.mem_cons_self, View.mem_set_unit_zero hz1 inb_S2048x128_S2048x128_0_0 y⟩), View.canon_cons_unit_zero hz1]
  simp only [View.readAt_eq_ld, View.ld_unit_zero (S := S2048x1024) hz1, View.ld_unit_zero (S := S1024x128) hz1, View.ld_unit_zero (S := S2048x128) hz1, View.ld_unit_zero (S := S1x128) hz1, View.readCov_unit_zero (S := S2048x128) _ hz1]

/-! ## The accumulator, point by point -/

/-- What the scratch accumulator holds after the first n points: zeroed at the points with k = 0, then increased
    at every point by the product of that point's two blocks.  (Before the first point it holds anything; the
    value given here at 0 is never consulted.) -/
def acc1 (c : Dev nD) : ℕ → Vec F S2048x128 .f32
  | 0 => k1_pay1
  | n + 1 => if h : n < cfg1.N then
      k1_pay2 (iblk1 V c 0 ⟨n, h⟩) (iblk1 V c 1 ⟨n, h⟩) (if n % 8 = 0 then k1_pay1 else acc1 c n)
    else k1_pay1

theorem acc1_succ (c : Dev nD) (t : Fin cfg1.N) :
    acc1 V c (t.val + 1) = k1_pay2 (iblk1 V c 0 t) (iblk1 V c 1 t) (if t.val % 8 = 0 then k1_pay1 else acc1 V c t.val) := by
  rw [acc1, dif_pos t.isLt]
/-- At a point with k = 0 the accumulator restarts from zero. -/
theorem acc1_reset (c : Dev nD) (t : Fin cfg1.N) (h : t.val % 8 = 0) :
    acc1 V c (t.val + 1) = k1_pay2 (iblk1 V c 0 t) (iblk1 V c 1 t) k1_pay1 := by
  rw [acc1_succ, if_pos h]
/-- At any other point it continues from what the point before left. -/
theorem acc1_step (c : Dev nD) (t : Fin cfg1.N) (h : t.val % 8 ≠ 0) :
    acc1 V c (t.val + 1) = k1_pay2 (iblk1 V c 0 t) (iblk1 V c 1 t) (acc1 V c t.val) := by
  rw [acc1_succ, if_neg h]

/-! ## The invariant: the scoped rest with the accumulator named -/

/-- Before the first point: the generator register and the scoped rest, the accumulator at anything.  Afterwards:
    the accumulator at what the points so far left in it, the remaining scoped buffers unopened, the register. -/
def Phi1 (c : Dev nD) : ℕ → sProp 𝕄
  | 0 => iprop((∃ r, prngReg c r) ∗ Pipeline.scopedRest (Ix := Unit) (Name := ℕ) (U := UR sig nD τ) (Lvl := ℕ) (Val := Elt F) spec1 c)
  | n + 1 => iprop(owns (c : Thread nD τ) scM1 fullShare (acc1 V c (n + 1)) ∗ Pipeline.scopedRestBut (Ix := Unit) (Name := ℕ) (U := UR sig nD τ) (Lvl := ℕ) (Val := Elt F) spec1 c [cc1_scratch0] ∗ (∃ r, prngReg c r))

theorem Phi1_zero (c : Dev nD) : Phi1 V c 0 = iprop((∃ r, prngReg c r) ∗ Pipeline.scopedRest (Ix := Unit) (Name := ℕ) (U := UR sig nD τ) (Lvl := ℕ) (Val := Elt F) spec1 c) := rfl
theorem Phi1_succ (c : Dev nD) (n : ℕ) :
    Phi1 V c (n + 1) = iprop(owns (c : Thread nD τ) scM1 fullShare (acc1 V c (n + 1)) ∗ Pipeline.scopedRestBut (Ix := Unit) (Name := ℕ) (U := UR sig nD τ) (Lvl := ℕ) (Val := Elt F) spec1 c [cc1_scratch0] ∗ (∃ r, prngReg c r)) := rfl

/-- The scoped rest with the accumulator as a memref owned at some contents. -/
theorem scoped1_eq (c : Dev nD) :
    (Pipeline.scopedRest (Ix := Unit) (Name := ℕ) (U := UR sig nD τ) (Lvl := ℕ) (Val := Elt F) spec1 c : sProp 𝕄) = iprop((∃ d, owns (c : Thread nD τ) scM1 fullShare d) ∗ Pipeline.scopedRestBut (Ix := Unit) (Name := ℕ) (U := UR sig nD τ) (Lvl := ℕ) (Val := Elt F) spec1 c [cc1_scratch0]) := by
  rw [scopedRest1_split]; simp only [scM1, owns_whole]; try rfl

/-- The invariant opened: the accumulator at some contents, which after the first point are the named ones. -/
theorem Phi1_open (c : Dev nD) (n : ℕ) :
    Phi1 V c n ⊢ iprop(∃ a, ⌜n ≠ 0 → a = acc1 V c n⌝ ∗ owns (c : Thread nD τ) scM1 fullShare a ∗ Pipeline.scopedRestBut (Ix := Unit) (Name := ℕ) (U := UR sig nD τ) (Lvl := ℕ) (Val := Elt F) spec1 c [cc1_scratch0] ∗ (∃ r, prngReg c r)) := by
  cases n with
  | zero =>
    rw [Phi1_zero, scoped1_eq]
    iintro ⟨Hg, ⟨%a, Ha⟩, Hr⟩
    iexists a; isplitr; · ipureintro; exact fun h => absurd rfl h
    isplitl [Ha]; · iexact Ha
    isplitl [Hr]; · iexact Hr
    iexact Hg
  | succ n =>
    rw [Phi1_succ]
    iintro ⟨Ha, Hr, Hg⟩
    iexists _; isplitr; · ipureintro; exact fun _ => rfl
    isplitl [Ha]; · iexact Ha
    isplitl [Hr]; · iexact Hr
    iexact Hg

/-! ## The pipeline's proof data -/

/-- The proof data of pipeline 1 on core c: arrays as found; after the body each input buffer at its block, the
    result buffer at max(accumulator + bias, 0) of the accumulator the point leaves (consulted only where the point
    stores and writes back the result block, k = 7); the invariant names the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c (t.val + 1)) (iblk1 V c 2 t)
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c (t.val + 1)) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi1_castSucc (c : Dev nD) (t : Fin cfg1.N) : (dat1 V c).Φ t.castSucc = Phi1 V c t.val := by
  dsimp only [dat1]; simp only [Fin.coe_castSucc]
theorem Phi1_at_succ (c : Dev nD) (t : Fin cfg1.N) : (dat1 V c).Φ t.succ = Phi1 V c (t.val + 1) := by
  dsimp only [dat1]; simp only [Fin.val_succ]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' buffers hold their blocks; the closed forms of the two conditions say which of
    the three cases the point is in; the invariant hands the body the accumulator (named after the first point,
    and at a point with k = 0 its contents do not matter) and takes it back at this point's contents; off k = 7 the
    result buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl, Phi1_castSucc, Phi1_at_succ, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 32 := lt_of_lt_of_eq t.isLt (show cfg1.N = 32 from N_1)
  iintro ⟨HΦ, Ho, ⟨%d0, H0⟩, ⟨%d1, H1⟩, ⟨%d2, H2⟩, ⟨%d3, H3⟩⟩
  ihave HΦ' := (Phi1_open V c t.val) $$ HΦ
  icases HΦ' with ⟨%a, %ha, Ha, Hr, Hg⟩
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1), acc1_reset V c t h0]
    iapply (sound_kernel1_A c Set.univ _ hc0 hc1 _ _ _ _ _ _ _ _ _ _ (iblk1 V c 0 t) (iblk1 V c 1 t) a _)
    isplitl [H0]; · iexact H0
    isplitl [H1]; · iexact H1
    isplitl [Ha]; · iexact Ha
    iintro ⟨H0, H1, Ha⟩
    isplitl [Ha Hr Hg]
    · isplitl [Ha]; · iexact Ha
      isplitl [Hr]; · iexact Hr
      iexact Hg
    isplitl [Ho]; · iexact Ho
    isplitl [H0]; · iexact H0
    isplitl [H1]; · iexact H1
    isplitl [H2]; · iexact H2
    iexists _; iexact H3
  · have hc0 : ¬cond1_0 (grid1.coords t) := fun h => h0 ((hcond1_0 t).mp h)
    have hz : t.val ≠ 0 := fun h => h0 (by rw [h])
    obtain rfl := ha hz
    rw [acc1_step V c t h0]
    by_cases h1 : t.val % 8 = 7
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, acc1_step V c t h0]
      iapply (sound_kernel1_C c Set.univ _ hc0 hc1 _ _ _ _ _ _ _ _ _ _ (iblk1 V c 0 t) (iblk1 V c 1 t) (iblk1 V c 2 t) (acc1 V c t.val) _)
      isplitl [H0]; · iexact H0
      isplitl [H1]; · iexact H1
      isplitl [H2]; · iexact H2
      isplitl [H3]; · iexists _; iexact H3
      isplitl [Ha]; · iexact Ha
      iintro ⟨H0, H1, H2, H3, Ha⟩
      isplitl [Ha Hr Hg]
      · isplitl [Ha]; · iexact Ha
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iapply (sound_kernel1_B c Set.univ _ hc0 hc1 _ _ _ _ _ _ _ _ _ _ (iblk1 V c 0 t) (iblk1 V c 1 t) (acc1 V c t.val) _)
      isplitl [H0]; · iexact H0
      isplitl [H1]; · iexact H1
      isplitl [Ha]; · iexact Ha
      iintro ⟨H0, H1, Ha⟩
      isplitl [Ha Hr Hg]
      · isplitl [Ha]; · iexact Ha
        isplitl [Hr]; · iexact Hr
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Phi1 V c 0 from rfl, Phi1_zero]
  try exact Idealize.SL.BI.Entails.refl _

/-- After the last point the invariant gives the scoped rest back: the accumulator's contents are forgotten. -/
theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c (31 + 1) from rfl, Phi1_succ, scoped1_eq]
  iintro ⟨Ha, Hr, Hg⟩
  isplitl [Hg]; · iexact Hg
  isplitl [Ha]; · iexists _; iexact Ha
  iexact Hr

end Region1

end Cert.KernelIdeal.Hand

end
-- ==== Proof.KI.R2.lean ====
/-
  Region 2 of the kernel program: the second dense product  h · W₂  (h : 8192×128, W₂ : 128×128), run over a grid of
  8 points.  Point t stages rows 1024·t … 1024·t+1023 of h (window 0), the whole of W₂ (window 1, fetched once) and
  writes back rows 1024·t … of the result (window 2).  The body stores ONE whole block: the product of the two staged
  blocks into a zero accumulator.  Everything here is stated at any entry contents V of the core's buffers and at any
  float instance.
-/
import proofs.«167749_j9328668967790_1_alg».proof.Proof.Gen.KernelIdeal.Launch
import proofs.«167749_j9328668967790_1_alg».proof.Proof.Gen.KernelIdeal.Skeleton
import proofs.«167749_j9328668967790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or the
    index map stood still since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_x : Rect S1024x128 := Rect.unit (s := S1024x128) ![0, 0] S1024x128.size inb_S1024x128_S1024x128_0_0
abbrev r2_w : Rect S128x128 := Rect.unit (s := S128x128) ![0, 0] S128x128.size inb_S128x128_S128x128_0_0
abbrev r2_o : Rect S1024x128 := Rect.unit (s := S1024x128) ![0, 0] S1024x128.size inb_S1024x128_S1024x128_0_0

/-- The result block after the body: its one store, the product of the two loaded blocks. -/
def out2_2 (x0 : Vec F S1024x128 .f32) (x1 : Vec F S128x128 .f32) : Vec F S1024x128 .f32 :=
  View.canon [⟨r2_o, k2_pay1 (View.ld x0 r2_x) (View.ld x1 r2_w)⟩]

theorem cover2_2 (p0 : Vec F S1024x128 .f32) (y : S1024x128.Idx) :
    ∃ pc ∈ ([⟨r2_o, p0⟩] : List (View.Piece (Elt F) S1024x128 .f32)), y ∈ pc.1.set :=
  View.cover_of_tiled [⟨r2_o, p0⟩] S1024x128.size (by rfl) y

set_option maxHeartbeats 1000000 in
/-- The body on whole staging memrefs: inputs kept, the result block left at `out2_2` of the inputs. -/
theorem sound_kernel2 (c : Dev nD) (E : Set ℕ) (i : grid2.Coords)
    (arg1 : Memref sig .tc .vmem S1024x128 .f32) (harg1 : arg1.IsWhole) (arg2 : Memref sig .tc .vmem S128x128 .f32) (harg2 : arg2.IsWhole)
    (arg3 : Memref sig .tc .vmem S1024x128 .f32) (harg3 : arg3.IsWhole)
    (x0 : Vec F S1024x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__mm_kernel i arg1 harg1 arg2 harg2 arg3 harg3) K := by
  simp only [cc2__mm_kernel_eq_skeleton]; unfold cc2__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c: arrays as found; after the body each input buffer at its block, the
    result buffer at the product of the two input blocks; the invariant is the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.R3.lean ====
/-
  Region 3 of the kernel program: the second graph-convolution layer (the same kernel as region 1, on other arrays)  relu(adj · h + b)  (adj : 8192×8192, h : 8192×128,
  b : 1×128), run over a grid of 4 × 8 points (i, k).  Point (i, k) stages block (i, k) of adj (2048×1024, window 0),
  rows 1024·k … of h (window 1), the bias (window 2, fetched once) and owns rows 2048·i … of the result (window 3,
  written back at k = 7 only).  A scratch accumulator of 2048×128 is carried from point to point: zeroed at k = 0,
  at every point increased by the product of the two staged blocks, and at k = 7 the body stores
  max(acc + bias, 0) into the result block.  Everything here is stated at any entry contents V of the core's
  buffers and at any float instance.
-/
import proofs.«167749_j9328668967790_1_alg».proof.Proof.Gen.KernelIdeal.Launch
import proofs.«167749_j9328668967790_1_alg».proof.Proof.Gen.KernelIdeal.Skeleton
import proofs.«167749_j9328668967790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetched it or the
    index map stood still since the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body, in closed form over the grid -/

/-- "k = 0": the accumulator is zeroed first. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- "k = 7": the result block is finalized and stored. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

/-- The result window is idle exactly off k = 7, and never written back there. -/
theorem idleAt3_3 : ∀ t : Fin cfg3.N, ¬cond3_1 (grid3.coords t) → cfg3.idle 3 (grid3.coords t) = true := by decide +kernel
theorem liveAt3_3 : ∀ t : Fin cfg3.N, cond3_1 (grid3.coords t) → cfg3.idle 3 (grid3.coords t) = false := by decide +kernel
theorem noFlush3_3 (t : Fin cfg3.N) (h : ¬cond3_1 (grid3.coords t)) : (cfg3.win 3).flush t = false := by
  rw [Bool.eq_false_iff]; exact fun hf => h ((hcond3_1 t).mpr ((flush3_3 t).mp hf))
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

/-- The offsets of every load and store of the body are zero: each goes through its whole buffer. -/
theorem hz3 : (![0, 0] : Fin 2 → Nat) = fun _ => 0 := by funext a; fin_cases a <;> rfl

/-- The scratch accumulator, as a memref. -/
abbrev scM3 : Memref sig .tc .vmem S2048x128 .f32 := Memref.whole cc3_scratch0

/-! ## The body on whole staging memrefs, case by case -/

set_option maxHeartbeats 1000000 in
/-- k = 0: the accumulator is zeroed, then increased by the product of the two blocks; the result block untouched. -/
theorem sound_kernel3_A (c : Dev nD) (E : Set ℕ) (i : grid3.Coords) (hc0 : cond3_0 i) (hc1 : ¬cond3_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (a : Vec F S2048x128 .f32) (K : PUnit → sProp 𝕄) :
    iprop(owns (c : Thread nD τ) arg2 fullShare x0 ∗ owns (c : Thread nD τ) arg3 fullShare x1 ∗ owns (c : Thread nD τ) arg6 fullShare a
        ∗ (iprop(owns (c : Thread nD τ) arg2 fullShare x0 ∗ owns (c : Thread nD τ) arg3 fullShare x1 ∗ owns (c : Thread nD τ) arg6 fullShare (k3_pay2 x0 x1 k3_pay1)) -∗ K ⟨⟩))
      ⊢ wp frame (wpE (defs₀ (F := F)) Variants.none c none) E (cc3__gcn_kernel i arg2 harg2 arg3 harg3 arg4 harg4 arg5 harg5 arg6 harg6) K := by
  simp only [cc3__gcn_kernel_eq_skeleton]; unfold cc3__gcn_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [View.read_writes_eq_canon _ _ _ (fun y => ⟨_, List.mem_cons_self, View.mem_set_unit_zero hz3 inb_S2048x128_S2048x128_0_0 y⟩), View.canon_cons_unit_zero hz3]
  simp only [View.readAt_eq_ld, View.ld_unit_zero (S := S2048x1024) hz3, View.ld_unit_zero (S := S1024x128) hz3, View.ld_unit_zero (S := S2048x128) hz3, View.ld_unit_zero (S := S1x128) hz3, View.readCov_unit_zero (S := S2048x128) _ hz3]

set_option maxHeartbeats 1000000 in
/-- 0 < k < 7: the accumulator is increased by the product of the two blocks; the result block untouched. -/
theorem sound_kernel3_B (c : Dev nD) (E : Set ℕ) (i : grid3.Coords) (hc0 : ¬cond3_0 i) (hc1 : ¬cond3_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (a : Vec F S2048x128 .f32) (K : PUnit → sProp 𝕄) :
    iprop(owns (c : Thread nD τ) arg2 fullShare x0 ∗ owns (c : Thread nD τ) arg3 fullShare x1 ∗ owns (c : Thread nD τ) arg6 fullShare a
        ∗ (iprop(owns (c : Thread nD τ) arg2 fullShare x0 ∗ owns (c : Thread nD τ) arg3 fullShare x1 ∗ owns (c : Thread nD τ) arg6 fullShare (k3_pay2 x0 x1 a)) -∗ K ⟨⟩))
      ⊢ wp frame (wpE (defs₀ (F := F)) Variants.none c none) E (cc3__gcn_kernel i arg2 harg2 arg3 harg3 arg4 harg4 arg5 harg5 arg6 harg6) K := by
  simp only [cc3__gcn_kernel_eq_skeleton]; unfold cc3__gcn_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  rw [View.read_writes_eq_canon _ _ _ (fun y => ⟨_, List.mem_cons_self, View.mem_set_unit_zero hz3 inb_S2048x128_S2048x128_0_0 y⟩), View.canon_cons_unit_zero hz3]
  simp only [View.readAt_eq_ld, View.ld_unit_zero (S := S2048x1024) hz3, View.ld_unit_zero (S := S1024x128) hz3, View.ld_unit_zero (S := S2048x128) hz3, View.ld_unit_zero (S := S1x128) hz3, View.readCov_unit_zero (S := S2048x128) _ hz3]

set_option maxHeartbeats 1000000 in
/-- k = 7: the accumulator is increased by the product of the two blocks, and the result block is left at
    max(accumulator + bias, 0). -/
theorem sound_kernel3_C (c : Dev nD) (E : Set ℕ) (i : grid3.Coords) (hc0 : ¬cond3_0 i) (hc1 : cond3_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (x2 : Vec F S1x128 .f32) (a : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2 ∗ owns (c : Thread nD τ) arg5 fullShare (k3_pay3 (k3_pay2 x0 x1 a) x2)
            ∗ owns (c : Thread nD τ) arg6 fullShare (k3_pay2 x0 x1 a)) -∗ K ⟨⟩))
      ⊢ wp frame (wpE (defs₀ (F := F)) Variants.none c none) E (cc3__gcn_kernel i arg2 harg2 arg3 harg3 arg4 harg4 arg5 harg5 arg6 harg6) K := by
  simp only [cc3__gcn_kernel_eq_skeleton]; unfold cc3__gcn_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    rw [View.read_writes_eq_canon _ _ _ (fun y => ⟨_, List.mem_cons_self, View.mem_set_unit_zero hz3 inb_S2048x128_S2048x128_0_0 y⟩), View.canon_cons_unit_zero hz3]
    simp only [View.readAt_eq_ld, View.ld_unit_zero (S := S2048x1024) hz3, View.ld_unit_zero (S := S1024x128) hz3, View.ld_unit_zero (S := S2048x128) hz3, View.ld_unit_zero (S := S1x128) hz3, View.readCov_unit_zero (S := S2048x128) _ hz3]
  iexists _; isplitr
  swap; · iexact H6
  ipureintro
  sl_unfold_run_names
  rw [View.read_writes_eq_canon _ _ _ (fun y => ⟨_, List.mem_cons_self, View.mem_set_unit_zero hz3 inb_S2048x128_S2048x128_0_0 y⟩), View.canon_cons_unit_zero hz3]
  simp only [View.readAt_eq_ld, View.ld_unit_zero (S := S2048x1024) hz3, View.ld_unit_zero (S := S1024x128) hz3, View.ld_unit_zero (S := S2048x128) hz3, View.ld_unit_zero (S := S1x128) hz3, View.readCov_unit_zero (S := S2048x128) _ hz3]

/-! ## The accumulator, point by point -/

/-- What the scratch accumulator holds after the first n points: zeroed at the points with k = 0, then increased
    at every point by the product of that point's two blocks.  (Before the first point it holds anything; the
    value given here at 0 is never consulted.) -/
def acc3 (c : Dev nD) : ℕ → Vec F S2048x128 .f32
  | 0 => k3_pay1
  | n + 1 => if h : n < cfg3.N then
      k3_pay2 (iblk3 V c 0 ⟨n, h⟩) (iblk3 V c 1 ⟨n, h⟩) (if n % 8 = 0 then k3_pay1 else acc3 c n)
    else k3_pay1

theorem acc3_succ (c : Dev nD) (t : Fin cfg3.N) :
    acc3 V c (t.val + 1) = k3_pay2 (iblk3 V c 0 t) (iblk3 V c 1 t) (if t.val % 8 = 0 then k3_pay1 else acc3 V c t.val) := by
  rw [acc3, dif_pos t.isLt]
/-- At a point with k = 0 the accumulator restarts from zero. -/
theorem acc3_reset (c : Dev nD) (t : Fin cfg3.N) (h : t.val % 8 = 0) :
    acc3 V c (t.val + 1) = k3_pay2 (iblk3 V c 0 t) (iblk3 V c 1 t) k3_pay1 := by
  rw [acc3_succ, if_pos h]
/-- At any other point it continues from what the point before left. -/
theorem acc3_step (c : Dev nD) (t : Fin cfg3.N) (h : t.val % 8 ≠ 0) :
    acc3 V c (t.val + 1) = k3_pay2 (iblk3 V c 0 t) (iblk3 V c 1 t) (acc3 V c t.val) := by
  rw [acc3_succ, if_neg h]

/-! ## The invariant: the scoped rest with the accumulator named -/

/-- Before the first point: the generator register and the scoped rest, the accumulator at anything.  Afterwards:
    the accumulator at what the points so far left in it, the remaining scoped buffers unopened, the register. -/
def Phi3 (c : Dev nD) : ℕ → sProp 𝕄
  | 0 => iprop((∃ r, prngReg c r) ∗ Pipeline.scopedRest (Ix := Unit) (Name := ℕ) (U := UR sig nD τ) (Lvl := ℕ) (Val := Elt F) spec3 c)
  | n + 1 => iprop(owns (c : Thread nD τ) scM3 fullShare (acc3 V c (n + 1)) ∗ Pipeline.scopedRestBut (Ix := Unit) (Name := ℕ) (U := UR sig nD τ) (Lvl := ℕ) (Val := Elt F) spec3 c [cc3_scratch0] ∗ (∃ r, prngReg c r))

theorem Phi3_zero (c : Dev nD) : Phi3 V c 0 = iprop((∃ r, prngReg c r) ∗ Pipeline.scopedRest (Ix := Unit) (Name := ℕ) (U := UR sig nD τ) (Lvl := ℕ) (Val := Elt F) spec3 c) := rfl
theorem Phi3_succ (c : Dev nD) (n : ℕ) :
    Phi3 V c (n + 1) = iprop(owns (c : Thread nD τ) scM3 fullShare (acc3 V c (n + 1)) ∗ Pipeline.scopedRestBut (Ix := Unit) (Name := ℕ) (U := UR sig nD τ) (Lvl := ℕ) (Val := Elt F) spec3 c [cc3_scratch0] ∗ (∃ r, prngReg c r)) := rfl

/-- The scoped rest with the accumulator as a memref owned at some contents. -/
theorem scoped3_eq (c : Dev nD) :
    (Pipeline.scopedRest (Ix := Unit) (Name := ℕ) (U := UR sig nD τ) (Lvl := ℕ) (Val := Elt F) spec3 c : sProp 𝕄) = iprop((∃ d, owns (c : Thread nD τ) scM3 fullShare d) ∗ Pipeline.scopedRestBut (Ix := Unit) (Name := ℕ) (U := UR sig nD τ) (Lvl := ℕ) (Val := Elt F) spec3 c [cc3_scratch0]) := by
  rw [scopedRest3_split]; simp only [scM3, owns_whole]; try rfl

/-- The invariant opened: the accumulator at some contents, which after the first point are the named ones. -/
theorem Phi3_open (c : Dev nD) (n : ℕ) :
    Phi3 V c n ⊢ iprop(∃ a, ⌜n ≠ 0 → a = acc3 V c n⌝ ∗ owns (c : Thread nD τ) scM3 fullShare a ∗ Pipeline.scopedRestBut (Ix := Unit) (Name := ℕ) (U := UR sig nD τ) (Lvl := ℕ) (Val := Elt F) spec3 c [cc3_scratch0] ∗ (∃ r, prngReg c r)) := by
  cases n with
  | zero =>
    rw [Phi3_zero, scoped3_eq]
    iintro ⟨Hg, ⟨%a, Ha⟩, Hr⟩
    iexists a; isplitr; · ipureintro; exact fun h => absurd rfl h
    isplitl [Ha]; · iexact Ha
    isplitl [Hr]; · iexact Hr
    iexact Hg
  | succ n =>
    rw [Phi3_succ]
    iintro ⟨Ha, Hr, Hg⟩
    iexists _; isplitr; · ipureintro; exact fun _ => rfl
    isplitl [Ha]; · iexact Ha
    isplitl [Hr]; · iexact Hr
    iexact Hg

/-! ## The pipeline's proof data -/

/-- The proof data of pipeline 3 on core c: arrays as found; after the body each input buffer at its block, the
    result buffer at max(accumulator + bias, 0) of the accumulator the point leaves (consulted only where the point
    stores and writes back the result block, k = 7); the invariant names the accumulator. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c (t.val + 1)) (iblk3 V c 2 t)
  Φ t := Phi3 V c t.val
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c (t.val + 1)) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem Phi3_castSucc (c : Dev nD) (t : Fin cfg3.N) : (dat3 V c).Φ t.castSucc = Phi3 V c t.val := by
  dsimp only [dat3]; simp only [Fin.coe_castSucc]
theorem Phi3_at_succ (c : Dev nD) (t : Fin cfg3.N) : (dat3 V c).Φ t.succ = Phi3 V c (t.val + 1) := by
  dsimp only [dat3]; simp only [Fin.val_succ]

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4000000 in
/-- The body at any point: the inputs' buffers hold their blocks; the closed forms of the two conditions say which of
    the three cases the point is in; the invariant hands the body the accumulator (named after the first point,
    and at a point with k = 0 its contents do not matter) and takes it back at this point's contents; off k = 7 the
    result buffer is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl, Phi3_castSucc, Phi3_at_succ, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  have hN : t.val < 32 := lt_of_lt_of_eq t.isLt (show cfg3.N = 32 from N_3)
  iintro ⟨HΦ, Ho, ⟨%d0, H0⟩, ⟨%d1, H1⟩, ⟨%d2, H2⟩, ⟨%d3, H3⟩⟩
  ihave HΦ' := (Phi3_open V c t.val) $$ HΦ
  icases HΦ' with ⟨%a, %ha, Ha, Hr, Hg⟩
  by_cases h0 : t.val % 8 = 0
  · have hc0 : cond3_0 (grid3.coords t) := (hcond3_0 t).mpr h0
    have hc1 : ¬cond3_1 (grid3.coords t) := fun h => by have := (hcond3_1 t).mp h; omega
    rw [Dat.leavesExact_idle (dat3 V c) 3 t (idleAt3_3 t hc1) (noFlush3_3 t hc1), acc3_reset V c t h0]
    iapply (sound_kernel3_A c Set.univ _ hc0 hc1 _ _ _ _ _ _ _ _ _ _ (iblk3 V c 0 t) (iblk3 V c 1 t) a _)
    isplitl [H0]; · iexact H0
    isplitl [H1]; · iexact H1
    isplitl [Ha]; · iexact Ha
    iintro ⟨H0, H1, Ha⟩
    isplitl [Ha Hr Hg]
    · isplitl [Ha]; · iexact Ha
      isplitl [Hr]; · iexact Hr
      iexact Hg
    isplitl [Ho]; · iexact Ho
    isplitl [H0]; · iexact H0
    isplitl [H1]; · iexact H1
    isplitl [H2]; · iexact H2
    iexists _; iexact H3
  · have hc0 : ¬cond3_0 (grid3.coords t) := fun h => h0 ((hcond3_0 t).mp h)
    have hz : t.val ≠ 0 := fun h => h0 (by rw [h])
    obtain rfl := ha hz
    rw [acc3_step V c t h0]
    by_cases h1 : t.val % 8 = 7
    · have hc1 : cond3_1 (grid3.coords t) := (hcond3_1 t).mpr h1
      rw [show (dat3 V c).leavesExact 3 t = owns (c : Thread nD τ) (st3_3 t) fullShare ((dat3 V c).after 3 t) from by
        unfold Dat.leavesExact; rw [liveAt3_3 t hc1], after3_3, acc3_step V c t h0]
      iapply (sound_kernel3_C c Set.univ _ hc0 hc1 _ _ _ _ _ _ _ _ _ _ (iblk3 V c 0 t) (iblk3 V c 1 t) (iblk3 V c 2 t) (acc3 V c t.val) _)
      isplitl [H0]; · iexact H0
      isplitl [H1]; · iexact H1
      isplitl [H2]; · iexact H2
      isplitl [H3]; · iexists _; iexact H3
      isplitl [Ha]; · iexact Ha
      iintro ⟨H0, H1, H2, H3, Ha⟩
      isplitl [Ha Hr Hg]
      · isplitl [Ha]; · iexact Ha
        isplitl [Hr]; · iexact Hr
        iexact Hg
      isplitl [Ho]; · iexact Ho
      isplitl [H0]; · iexact H0
      isplitl [H1]; · iexact H1
      isplitl [H2]; · iexact H2
      iexact H3
    · have hc1 : ¬cond3_1 (grid3.coords t) := fun h => h1 ((hcond3_1 t).mp h)
      rw [Dat.leavesExact_idle (dat3 V c) 3 t (idleAt3_3 t hc1) (noFlush3_3 t hc1)]
      iapply (sound_kernel3_B c Set.univ _ hc0 hc1 _ _ _ _ _ _ _ _ _ _ (iblk3 V c 0 t) (iblk3 V c 1 t) (acc3 V c t.val) _)
      isplitl [H0]; · iexact H0
      isplitl [H1]; · iexact H1
      isplitl [Ha]; · iexact Ha
      iintro ⟨H0, H1, Ha⟩
      isplitl [Ha Hr Hg]
      · isplitl [Ha]; · iexact Ha
        isplitl [Hr]; · iexact Hr
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Phi3 V c 0 from rfl, Phi3_zero]
  try exact Idealize.SL.BI.Entails.refl _

/-- After the last point the invariant gives the scoped rest back: the accumulator's contents are forgotten. -/
theorem hout3 (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Phi3 V c (31 + 1) from rfl, Phi3_succ, scoped3_eq]
  iintro ⟨Ha, Hr, Hg⟩
  isplitl [Hg]; · iexact Hg
  isplitl [Ha]; · iexists _; iexact Ha
  iexact Hr

end Region3

end Cert.KernelIdeal.Hand

end
-- ==== Proof.KI.R4.lean ====
/-
  Region 4 of the kernel program: the reparametrisation  z = (h · W_μ + b_μ) + ε * exp(½ · (h · W_σ + b_σ))
  (h : 8192×128, W_μ, W_σ : 128×64, b_μ, b_σ : 1×64, ε : 8192×64), run over a grid of 8 points.  Point t stages rows
  1024·t … 1024·t+1023 of h (window 0) and of ε (window 5), the whole of W_μ, b_μ, W_σ, b_σ (windows 1–4, fetched
  once), and writes back rows 1024·t … of z (window 6).  The body stores ONE whole block.  Everything here is stated
  at any entry contents V of the core's buffers and at any float instance.
-/
import proofs.«167749_j9328668967790_1_alg».proof.Proof.Gen.KernelIdeal.Launch
import proofs.«167749_j9328668967790_1_alg».proof.Proof.Gen.KernelIdeal.Skeleton
import proofs.«167749_j9328668967790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the point fetched it or the
    index map stood still since the fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev r4_h : Rect S1024x128 := Rect.unit (s := S1024x128) ![0, 0] S1024x128.size inb_S1024x128_S1024x128_0_0
abbrev r4_w : Rect S128x64 := Rect.unit (s := S128x64) ![0, 0] S128x64.size inb_S128x64_S128x64_0_0
abbrev r4_b : Rect S1x64 := Rect.unit (s := S1x64) ![0, 0] S1x64.size inb_S1x64_S1x64_0_0
abbrev r4_o : Rect S1024x64 := Rect.unit (s := S1024x64) ![0, 0] S1024x64.size inb_S1024x64_S1024x64_0_0

/-- The result block after the body: its one store, the reparametrisation of the six loaded blocks. -/
def out4_6 (x0 : Vec F S1024x128 .f32) (x1 : Vec F S128x64 .f32) (x2 : Vec F S1x64 .f32) (x3 : Vec F S128x64 .f32) (x4 : Vec F S1x64 .f32)
    (x5 : Vec F S1024x64 .f32) : Vec F S1024x64 .f32 :=
  View.canon [⟨r4_o, k4_pay1 (View.ld x0 r4_h) (View.ld x1 r4_w) (View.ld x3 r4_w) (View.ld x2 r4_b) (View.ld x4 r4_b) (View.ld x5 r4_o)⟩]

theorem cover4_6 (p0 : Vec F S1024x64 .f32) (y : S1024x64.Idx) :
    ∃ pc ∈ ([⟨r4_o, p0⟩] : List (View.Piece (Elt F) S1024x64 .f32)), y ∈ pc.1.set :=
  View.cover_of_tiled [⟨r4_o, p0⟩] S1024x64.size (by rfl) y

set_option maxHeartbeats 2000000 in
/-- The body on whole staging memrefs: inputs kept, the result block left at `out4_6` of the inputs. -/
theorem sound_kernel4 (c : Dev nD) (E : Set ℕ) (i : grid4.Coords)
    (arg1 : Memref sig .tc .vmem S1024x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S1024x64 .f32) (harg6 : arg6.IsWhole)
    (arg7 : Memref sig .tc .vmem S1024x64 .f32) (harg7 : arg7.IsWhole)
    (x0 : Vec F S1024x128 .f32) (x1 : Vec F S128x64 .f32) (x2 : Vec F S1x64 .f32) (x3 : Vec F S128x64 .f32) (x4 : Vec F S1x64 .f32)
    (x5 : Vec F S1024x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__reparam_kernel i arg1 harg1 arg2 harg2 arg3 harg3 arg4 harg4 arg5 harg5 arg6 harg6 arg7 harg7) K := by
  simp only [cc4__reparam_kernel_eq_skeleton]; unfold cc4__reparam_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of pipeline 4 on core c: arrays as found; after the body each input buffer at its block, the
    result buffer at the reparametrisation of the six input blocks; the invariant is the scoped rest and the
    generator register. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.R5.lean ====
/-
  Region 5 of the kernel program: the first decoder head, a two-layer perceptron  relu(z · W₁ + b₁) · W₂ + b₂
  (z : 8192×64, W₁ : 64×64, b₁ : 1×64, W₂ : 64×512, b₂ : 1×512), run over a grid of 8 points.  Point t stages rows
  1024·t … 1024·t+1023 of z (window 0), the whole of W₁, b₁, W₂, b₂ (windows 1 to 4, each fetched once) and writes
  back rows 1024·t … of the result (window 5).  The body stores ONE whole block: the second layer applied to the
  rectified first layer of the staged blocks.  Everything here is stated at any entry contents V of the core's
  buffers and at any float instance.
-/
import proofs.«167749_j9328668967790_1_alg».proof.Proof.Gen.KernelIdeal.Launch
import proofs.«167749_j9328668967790_1_alg».proof.Proof.Gen.KernelIdeal.Skeleton
import proofs.«167749_j9328668967790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether the point fetched it or the
    index map stood still since the fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through. -/
abbrev r5_z : Rect S1024x64 := Rect.unit (s := S1024x64) ![0, 0] S1024x64.size inb_S1024x64_S1024x64_0_0
abbrev r5_w1 : Rect S64x64 := Rect.unit (s := S64x64) ![0, 0] S64x64.size inb_S64x64_S64x64_0_0
abbrev r5_b1 : Rect S1x64 := Rect.unit (s := S1x64) ![0, 0] S1x64.size inb_S1x64_S1x64_0_0
abbrev r5_w2 : Rect S64x512 := Rect.unit (s := S64x512) ![0, 0] S64x512.size inb_S64x512_S64x512_0_0
abbrev r5_b2 : Rect S1x512 := Rect.unit (s := S1x512) ![0, 0] S1x512.size inb_S1x512_S1x512_0_0
abbrev r5_o : Rect S1024x512 := Rect.unit (s := S1024x512) ![0, 0] S1024x512.size inb_S1024x512_S1024x512_0_0

/-- The result block after the body: its one store, the second layer applied to the rectified first layer. -/
def out5_5 (x0 : Vec F S1024x64 .f32) (x1 : Vec F S64x64 .f32) (x2 : Vec F S1x64 .f32) (x3 : Vec F S64x512 .f32) (x4 : Vec F S1x512 .f32) : Vec F S1024x512 .f32 :=
  View.canon [⟨r5_o, k5_pay1 (View.ld x0 r5_z) (View.ld x1 r5_w1) (View.ld x2 r5_b1) (View.ld x3 r5_w2) (View.ld x4 r5_b2)⟩]

theorem cover5_5 (p0 : Vec F S1024x512 .f32) (y : S1024x512.Idx) :
    ∃ pc ∈ ([⟨r5_o, p0⟩] : List (View.Piece (Elt F) S1024x512 .f32)), y ∈ pc.1.set :=
  View.cover_of_tiled [⟨r5_o, p0⟩] S1024x512.size (by rfl) y

set_option maxHeartbeats 1000000 in
/-- The body on whole staging memrefs: inputs kept, the result block left at `out5_5` of the inputs. -/
theorem sound_kernel5 (c : Dev nD) (E : Set ℕ) (i : grid5.Coords)
    (arg1 : Memref sig .tc .vmem S1024x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S64x512 .f32) (harg4 : arg4.IsWhole)
    (arg5 : Memref sig .tc .vmem S1x512 .f32) (harg5 : arg5.IsWhole)
    (arg6 : Memref sig .tc .vmem S1024x512 .f32) (harg6 : arg6.IsWhole)
    (x0 : Vec F S1024x64 .f32) (x1 : Vec F S64x64 .f32) (x2 : Vec F S1x64 .f32) (x3 : Vec F S64x512 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__decoder_kernel i arg1 harg1 arg2 harg2 arg3 harg3 arg4 harg4 arg5 harg5 arg6 harg6) K := by
  simp only [cc5__decoder_kernel_eq_skeleton]; unfold cc5__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core c: arrays as found; after the body each input buffer at its block, the
    result buffer at the body's store of the five input blocks; the invariant is the scoped rest and the generator
    register. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.R6.lean ====
/-
  Region 6 of the kernel program: the second decoder head, a two-layer perceptron  relu(z · W₁ + b₁) · W₂ + b₂
  (z : 8192×64, W₁ : 64×64, b₁ : 1×64, W₂ : 64×64, b₂ : 1×64), run over a grid of 8 points.  Point t stages rows
  1024·t … 1024·t+1023 of z (window 0), the whole of W₁, b₁, W₂, b₂ (windows 1 to 4, each fetched once) and writes
  back rows 1024·t … of the result (window 5).  The body stores ONE whole block: the second layer applied to the
  rectified first layer of the staged blocks.  Everything here is stated at any entry contents V of the core's
  buffers and at any float instance.
-/
import proofs.«167749_j9328668967790_1_alg».proof.Proof.Gen.KernelIdeal.Launch
import proofs.«167749_j9328668967790_1_alg».proof.Proof.Gen.KernelIdeal.Skeleton
import proofs.«167749_j9328668967790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, whether the point fetched it or the
    index map stood still since the fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The whole-block rectangles the body loads and stores through. -/
abbrev r6_z : Rect S1024x64 := Rect.unit (s := S1024x64) ![0, 0] S1024x64.size inb_S1024x64_S1024x64_0_0
abbrev r6_w1 : Rect S64x64 := Rect.unit (s := S64x64) ![0, 0] S64x64.size inb_S64x64_S64x64_0_0
abbrev r6_b1 : Rect S1x64 := Rect.unit (s := S1x64) ![0, 0] S1x64.size inb_S1x64_S1x64_0_0
abbrev r6_w2 : Rect S64x64 := Rect.unit (s := S64x64) ![0, 0] S64x64.size inb_S64x64_S64x64_0_0
abbrev r6_b2 : Rect S1x64 := Rect.unit (s := S1x64) ![0, 0] S1x64.size inb_S1x64_S1x64_0_0
abbrev r6_o : Rect S1024x64 := Rect.unit (s := S1024x64) ![0, 0] S1024x64.size inb_S1024x64_S1024x64_0_0

/-- The result block after the body: its one store, the second layer applied to the rectified first layer. -/
def out6_5 (x0 : Vec F S1024x64 .f32) (x1 : Vec F S64x64 .f32) (x2 : Vec F S1x64 .f32) (x3 : Vec F S64x64 .f32) (x4 : Vec F S1x64 .f32) : Vec F S1024x64 .f32 :=
  View.canon [⟨r6_o, k6_pay1 (View.ld x0 r6_z) (View.ld x1 r6_w1) (View.ld x2 r6_b1) (View.ld x3 r6_w2) (View.ld x4 r6_b2)⟩]

theorem cover6_5 (p0 : Vec F S1024x64 .f32) (y : S1024x64.Idx) :
    ∃ pc ∈ ([⟨r6_o, p0⟩] : List (View.Piece (Elt F) S1024x64 .f32)), y ∈ pc.1.set :=
  View.cover_of_tiled [⟨r6_o, p0⟩] S1024x64.size (by rfl) y

set_option maxHeartbeats 1000000 in
/-- The body on whole staging memrefs: inputs kept, the result block left at `out6_5` of the inputs. -/
theorem sound_kernel6 (c : Dev nD) (E : Set ℕ) (i : grid6.Coords)
    (arg1 : Memref sig .tc .vmem S1024x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S1024x64 .f32) (harg6 : arg6.IsWhole)
    (x0 : Vec F S1024x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E (cc6__decoder_kernel i arg1 harg1 arg2 harg2 arg3 harg3 arg4 harg4 arg5 harg5 arg6 harg6) K := by
  simp only [cc6__decoder_kernel_eq_skeleton]; unfold cc6__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The proof data of pipeline 6 on core c: arrays as found; after the body each input buffer at its block, the
    result buffer at the body's store of the five input blocks; the invariant is the scoped rest and the generator
    register. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Region6

end Cert.KernelIdeal.Hand

end
-- ==== Proof.KI.R7.lean ====
/-
  Region 7 of the kernel program: the last product  sigmoid(s · sᵀ)  (s : 8192×64), run over an 8×8 grid of 64
  points.  Point (i, j) stages rows 1024·i … of s (window 0, fetched when j = 0), rows 1024·j … of s (window 1,
  fetched at every point) and writes back the 1024×1024 block (i, j) of the result (window 2).  The body stores ONE
  whole block: the logistic of the product of the first staged block with the transpose of the second.  Both input
  windows read ONE array, so each holds half of its share.  Everything here is stated at any entry contents V of
  the core's buffers and at any float instance.
-/
import proofs.«167749_j9328668967790_1_alg».proof.Proof.Gen.KernelIdeal.Launch
import proofs.«167749_j9328668967790_1_alg».proof.Proof.Gen.KernelIdeal.Skeleton
import proofs.«167749_j9328668967790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7Arrays

theorem arrImg7 : Finset.univ.image (Pipeline.arrRef spec7) = {Pipeline.arrRef spec7 0, Pipeline.arrRef spec7 2} := by decide

theorem arrNe7 : Pipeline.arrRef spec7 0 ∉ ({Pipeline.arrRef spec7 2} : Finset (Ref sig .tc)) := by decide

/-- The core's unscoped buffers are the two buffers behind region 7's windows and the rest. -/
theorem unscopedBufs_split7 (c : Dev nD) (W : (b : Ref sig .tc) → Buf (Elt F) ((c : Thread nD τ).loc b)) :
    (unscopedBufs c W : sProp 𝕄) = iprop((Pipeline.arrBufs spec7 c W : sProp 𝕄) ∗ Pipeline.unscopedRest spec7 c W) :=
  Pipeline.unscopedBufs_split₀ (fun _ : Unit => cfg7) () winFacts₀7.arr_unscoped c W

/-- A buffer held whole in two halves of the full share is the buffer held whole at the full share. -/
theorem halves_sep {ℓ : Loc nD τ sig} (f : Buf (Elt F) ℓ) (R : sProp 𝕄) :
    iprop((ℓ ↦{fullShare.left} f) ∗ (ℓ ↦{fullShare.right} f) ∗ R) = iprop((ℓ ↦{fullShare} f) ∗ R) := by
  have d1 : iprop((ℓ ↦{fullShare.left} f) ∗ (ℓ ↦{fullShare.right} f) ∗ R) ⊢ iprop((ℓ ↦{fullShare} f) ∗ R) := by
    iintro ⟨Hl, Hr, H2⟩
    isplitl [Hl Hr]
    · iapply (pointsTo_share (PosShare.mem_left_op_right fullShare)).2
      isplitl [Hl] <;> iassumption
    · iexact H2
  have d2 : iprop((ℓ ↦{fullShare} f) ∗ R) ⊢ iprop((ℓ ↦{fullShare.left} f) ∗ (ℓ ↦{fullShare.right} f) ∗ R) := by
    iintro ⟨H, H2⟩
    ihave Hs := (pointsTo_share (PosShare.mem_left_op_right fullShare)).1 $$ [H]
    · iexact H
    icases Hs with ⟨Hl, Hr⟩
    isplitl [Hl]; · iexact Hl
    isplitl [Hr] <;> iassumption
  exact equiv_iff.mp ⟨d1, d2⟩

/-- The arrays of region 7 at contents read off a valuation W of the core's buffers ARE the two buffers behind its
    windows, whole at the full share: the array both input windows read is held half by each. -/
theorem arrays7_eq {c : Dev nD} (dat : Dat τ (Elt F) Unit ℕ (UR sig nD τ) ℕ cfg7 c)
    (hq0 : dat.q 0 = fullShare.left) (hq1 : dat.q 1 = fullShare.right)
    (W : (b : Ref sig .tc) → Buf (Elt F) ((c : Thread nD τ).loc b))
    (G : (w : Fin cfg7.W) → Buf (Elt F) ((cfg7.win w).arr.view.loc (c : Thread nD τ)))
    (hG : ∀ w, G w = W (Pipeline.arrRef spec7 w)) :
    dat.arrays G = (Pipeline.arrBufs spec7 c W : sProp 𝕄) := by
  have h0 : ((cfg7.win 0).arr.view.loc (c : Thread nD τ) ↦[(cfg7.win 0).arr.view.set]{dat.share 0} G 0 : sProp 𝕄)
      = (((c : Thread nD τ).loc (Pipeline.arrRef spec7 0)) ↦{fullShare.left} W (Pipeline.arrRef spec7 0)) := by
    rw [(arr_whole7 0).set_eq_univ, hG 0]; unfold Dat.share
    rw [if_neg (show ¬ ((cfg7.win 0).isOut = true) from Bool.false_ne_true), hq0]
  have h1 : ((cfg7.win 1).arr.view.loc (c : Thread nD τ) ↦[(cfg7.win 1).arr.view.set]{dat.share 1} G 1 : sProp 𝕄)
      = (((c : Thread nD τ).loc (Pipeline.arrRef spec7 0)) ↦{fullShare.right} W (Pipeline.arrRef spec7 0)) := by
    rw [(arr_whole7 1).set_eq_univ, hG 1]; unfold Dat.share
    rw [if_neg (show ¬ ((cfg7.win 1).isOut = true) from Bool.false_ne_true), hq1]
  have h2 : ((cfg7.win 2).arr.view.loc (c : Thread nD τ) ↦[(cfg7.win 2).arr.view.set]{dat.share 2} G 2 : sProp 𝕄)
      = (((c : Thread nD τ).loc (Pipeline.arrRef spec7 2)) ↦{fullShare} W (Pipeline.arrRef spec7 2)) := by
    rw [(arr_whole7 2).set_eq_univ, hG 2]; unfold Dat.share
    rw [if_pos (show (cfg7.win 2).isOut = true from rfl)]
  unfold Dat.arrays Pipeline.arrBufs
  rw [bigSep_W7, arrImg7, bigSep_insert arrNe7, bigSep_singleton, h0, h1, h2]
  exact halves_sep _ _

/-- ENTRY: the core's unscoped buffers at W are region 7's arrays at the datum's entry contents (read off W) and the
    unscoped rest. -/
theorem entry7_of {c : Dev nD} (dat : Dat τ (Elt F) Unit ℕ (UR sig nD τ) ℕ cfg7 c)
    (hq0 : dat.q 0 = fullShare.left) (hq1 : dat.q 1 = fullShare.right)
    (W : (b : Ref sig .tc) → Buf (Elt F) ((c : Thread nD τ).loc b)) (hA : ∀ w, dat.A w = W (Pipeline.arrRef spec7 w)) :
    (unscopedBufs c W : sProp 𝕄) ⊢ iprop(dat.arrays (dat.arrAt · 0) ∗ Pipeline.unscopedRest spec7 c W) := by
  rw [unscopedBufs_split7 c W, arrays7_eq dat hq0 hq1 W (dat.arrAt · 0) (fun w => (show dat.arrAt w 0 = dat.A w from rfl).trans (hA w))]

/-- EXIT: region 7's arrays at contents G and the unscoped rest at W are the core's unscoped buffers at any valuation
    W' that has the arrays at G and agrees with W off them. -/
theorem exit7_of {c : Dev nD} (dat : Dat τ (Elt F) Unit ℕ (UR sig nD τ) ℕ cfg7 c)
    (hq0 : dat.q 0 = fullShare.left) (hq1 : dat.q 1 = fullShare.right)
    (W W' : (b : Ref sig .tc) → Buf (Elt F) ((c : Thread nD τ).loc b))
    (G : (w : Fin cfg7.W) → Buf (Elt F) ((cfg7.win w).arr.view.loc (c : Thread nD τ)))
    (hG : ∀ w, G w = W' (Pipeline.arrRef spec7 w))
    (hrest : ∀ b, b ∉ Finset.univ.image (Pipeline.arrRef spec7) → W' b = W b) :
    iprop(dat.arrays G ∗ Pipeline.unscopedRest spec7 c W) ⊢ (unscopedBufs c W' : sProp 𝕄) := by
  rw [unscopedBufs_split7 c W', arrays7_eq dat hq0 hq1 W' G hG]
  refine sep_mono .rfl (Entails.of_eq ?_)
  unfold Pipeline.unscopedRest
  exact bigSep_congr fun b hb => by rw [hrest b (Finset.mem_sdiff.mp hb).2]

end Region7Arrays

section Region7
variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, whether the point fetched it or the
    index map stood still since the fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The whole-block rectangles the body loads and stores through. -/
abbrev r7_x : Rect S1024x64 := Rect.unit (s := S1024x64) ![0, 0] S1024x64.size inb_S1024x64_S1024x64_0_0
abbrev r7_o : Rect S1024x1024 := Rect.unit (s := S1024x1024) ![0, 0] S1024x1024.size inb_S1024x1024_S1024x1024_0_0

/-- The result block after the body: its one store, the logistic of the first loaded block times the transpose of
    the second. -/
def out7_2 (x0 x1 : Vec F S1024x64 .f32) : Vec F S1024x1024 .f32 :=
  View.canon [⟨r7_o, k7_pay1 (View.ld x0 r7_x) (View.ld x1 r7_x)⟩]

theorem cover7_2 (p0 : Vec F S1024x1024 .f32) (y : S1024x1024.Idx) :
    ∃ pc ∈ ([⟨r7_o, p0⟩] : List (View.Piece (Elt F) S1024x1024 .f32)), y ∈ pc.1.set :=
  View.cover_of_tiled [⟨r7_o, p0⟩] S1024x1024.size (by rfl) y

set_option maxHeartbeats 1000000 in
/-- The body on whole staging memrefs: inputs kept, the result block left at `out7_2` of the inputs. -/
theorem sound_kernel7 (c : Dev nD) (E : Set ℕ) (i : grid7.Coords)
    (arg2 : Memref sig .tc .vmem S1024x64 .f32) (harg2 : arg2.IsWhole) (arg3 : Memref sig .tc .vmem S1024x64 .f32) (harg3 : arg3.IsWhole)
    (arg4 : Memref sig .tc .vmem S1024x1024 .f32) (harg4 : arg4.IsWhole)
    (x0 x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out7_2 x0 x1)) -∗ K ⟨⟩))
      ⊢ wp frame (wpE (defs₀ (F := F)) Variants.none c none) E (cc7__sig_kernel i arg2 harg2 arg3 harg3 arg4 harg4) K := by
  simp only [cc7__sig_kernel_eq_skeleton]; unfold cc7__sig_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The proof data of pipeline 7 on core c: arrays as found; after the body each input buffer at its block, the
    result buffer at the logistic of the product; the invariant is the scoped rest and the generator register.  The
    two input windows read one array: the first holds the left half of its share, the second the right half. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q w := match w with
    | ⟨0, _⟩ => fullShare.left
    | ⟨1, _⟩ => fullShare.right
    | ⟨2, _⟩ => fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

/-- ENTRY for the datum of region 7: the core's unscoped buffers at V are its arrays at their entry contents and
    the unscoped rest. -/
theorem entry7 (c : Dev nD) :
    (unscopedBufs c (V c) : sProp 𝕄) ⊢ iprop((dat7 V c).arrays ((dat7 V c).arrAt · 0) ∗ Pipeline.unscopedRest spec7 c (V c)) :=
  entry7_of (dat7 V c) (by dsimp only [dat7]) (by dsimp only [dat7]) (V c) (A_eq7 V c)

/-- EXIT for the datum of region 7: its arrays at their final contents and the unscoped rest at V are the core's
    unscoped buffers at any valuation that has the arrays at those contents and agrees with V off them. -/
theorem exit7 (c : Dev nD) (V' : (b : Ref sig .tc) → Buf (Elt F) ((c : Thread nD τ).loc b))
    (hF : ∀ w, (dat7 V c).arrAt w cfg7.N = V' (Pipeline.arrRef spec7 w))
    (hrest : ∀ b, b ∉ Finset.univ.image (Pipeline.arrRef spec7) → V' b = V c b) :
    iprop((dat7 V c).arrays ((dat7 V c).arrAt · cfg7.N) ∗ Pipeline.unscopedRest spec7 c (V c)) ⊢ (unscopedBufs c V' : sProp 𝕄) :=
  exit7_of (dat7 V c) (by dsimp only [dat7]) (by dsimp only [dat7]) (V c) V' _ hF hrest

end Region7

end Cert.KernelIdeal.Hand

end
-- ==== Proof.KI.Run.lean ====
/-
  The run of the kernel program: @main is eight kernel regions with five short stretches of host reshapes between
  them.  The contents of the core's buffers are followed from the launch memory through every item: a host stretch
  applies its operations, a region leaves each of its arrays at what its write-backs fold to and touches nothing
  else.  Every weakly fair execution terminates, faults nowhere, and ends with every buffer at the last of these
  contents; the frame (the arguments end as launched) and the two results are read off that.
-/
import proofs.«167749_j9328668967790_1_alg».proof.Proof.KI.R0
import proofs.«167749_j9328668967790_1_alg».proof.Proof.KI.R1
import proofs.«167749_j9328668967790_1_alg».proof.Proof.KI.R2
import proofs.«167749_j9328668967790_1_alg».proof.Proof.KI.R3
import proofs.«167749_j9328668967790_1_alg».proof.Proof.KI.R4
import proofs.«167749_j9328668967790_1_alg».proof.Proof.KI.R5
import proofs.«167749_j9328668967790_1_alg».proof.Proof.KI.R6
import proofs.«167749_j9328668967790_1_alg».proof.Proof.KI.R7
import proofs.«167749_j9328668967790_1_alg».proof.Proof.Gen.KernelIdeal.Regions
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary between two items of @main -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After region 0: its arrays at what the pipeline leaves (an input as entered, the output's write-backs folded),
    every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the host stretch `hostOps1`. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1: its arrays at what the pipeline leaves (an input as entered, the output's write-backs folded),
    every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After region 2: its arrays at what the pipeline leaves (an input as entered, the output's write-backs folded),
    every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)
/-- After the host stretch `hostOps3`. -/
abbrev W5 : Dev nD → Valuation τ sig (Elt F) := fun c => StableHlo.after hostOps3 (W4 m c)
abbrev V5 : (c : Dev nD) → (b : Ref sig .tc) → Buf (Elt F) ((c : Thread nD τ).loc b) := fun c b => W5 m c b
/-- After region 3: its arrays at what the pipeline leaves (an input as entered, the output's write-backs folded),
    every other buffer as entered. -/
def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
abbrev V6 : (c : Dev nD) → (b : Ref sig .tc) → Buf (Elt F) ((c : Thread nD τ).loc b) := fun c b => W6 m c b
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)
/-- After the host stretch `hostOps4`. -/
abbrev W7 : Dev nD → Valuation τ sig (Elt F) := fun c => StableHlo.after hostOps4 (W6 m c)
abbrev V7 : (c : Dev nD) → (b : Ref sig .tc) → Buf (Elt F) ((c : Thread nD τ).loc b) := fun c b => W7 m c b
/-- After region 4: its arrays at what the pipeline leaves (an input as entered, the output's write-backs folded),
    every other buffer as entered. -/
def W8 (c : Dev nD) : Valuation τ sig (Elt F) :=
  Pipeline.withArrays spec4 c (W7 m c) fun w => (dat4 (V7 m) c).arrAt w cfg4.N
theorem W8_arr (c : Dev nD) (w : Fin cfg4.W) :
    W8 m c (Proc.devRef .tc (Pipeline.arrRef spec4 w)) = (dat4 (V7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
abbrev V8 : (c : Dev nD) → (b : Ref sig .tc) → Buf (Elt F) ((c : Thread nD τ).loc b) := fun c b => W8 m c b
theorem hF4 (c : Dev nD) (w : Fin cfg4.W) : (dat4 (V7 m) c).arrAt w cfg4.N = V8 m c (Pipeline.arrRef spec4 w) :=
  (W8_arr m c w).symm
theorem hrest4 (c : Dev nD) : ∀ b, b ∉ Finset.univ.image (Pipeline.arrRef spec4) → V8 m c b = V7 m c b :=
  fun b hb => W8_of_ne m c b fun w e => hb (Finset.mem_image.mpr ⟨w, Finset.mem_univ _, e⟩)
/-- After the host stretch `hostOps5`. -/
abbrev W9 : Dev nD → Valuation τ sig (Elt F) := fun c => StableHlo.after hostOps5 (W8 m c)
abbrev V9 : (c : Dev nD) → (b : Ref sig .tc) → Buf (Elt F) ((c : Thread nD τ).loc b) := fun c b => W9 m c b
/-- After region 5: its arrays at what the pipeline leaves (an input as entered, the output's write-backs folded),
    every other buffer as entered. -/
def W10 (c : Dev nD) : Valuation τ sig (Elt F) :=
  Pipeline.withArrays spec5 c (W9 m c) fun w => (dat5 (V9 m) c).arrAt w cfg5.N
theorem W10_arr (c : Dev nD) (w : Fin cfg5.W) :
    W10 m c (Proc.devRef .tc (Pipeline.arrRef spec5 w)) = (dat5 (V9 m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
abbrev V10 : (c : Dev nD) → (b : Ref sig .tc) → Buf (Elt F) ((c : Thread nD τ).loc b) := fun c b => W10 m c b
theorem hF5 (c : Dev nD) (w : Fin cfg5.W) : (dat5 (V9 m) c).arrAt w cfg5.N = V10 m c (Pipeline.arrRef spec5 w) :=
  (W10_arr m c w).symm
theorem hrest5 (c : Dev nD) : ∀ b, b ∉ Finset.univ.image (Pipeline.arrRef spec5) → V10 m c b = V9 m c b :=
  fun b hb => W10_of_ne m c b fun w e => hb (Finset.mem_image.mpr ⟨w, Finset.mem_univ _, e⟩)
/-- After the host stretch `hostOps6`. -/
abbrev W11 : Dev nD → Valuation τ sig (Elt F) := fun c => StableHlo.after hostOps6 (W10 m c)
abbrev V11 : (c : Dev nD) → (b : Ref sig .tc) → Buf (Elt F) ((c : Thread nD τ).loc b) := fun c b => W11 m c b
/-- After region 6: its arrays at what the pipeline leaves (an input as entered, the output's write-backs folded),
    every other buffer as entered. -/
def W12 (c : Dev nD) : Valuation τ sig (Elt F) :=
  Pipeline.withArrays spec6 c (W11 m c) fun w => (dat6 (V11 m) c).arrAt w cfg6.N
theorem W12_arr (c : Dev nD) (w : Fin cfg6.W) :
    W12 m c (Proc.devRef .tc (Pipeline.arrRef spec6 w)) = (dat6 (V11 m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m c (Proc.devRef .tc b) = W11 m c (Proc.devRef .tc b) := by
  unfold W12; exact Pipeline.withArrays_of_ne spec6 c _ _ b hb
abbrev V12 : (c : Dev nD) → (b : Ref sig .tc) → Buf (Elt F) ((c : Thread nD τ).loc b) := fun c b => W12 m c b
theorem hF6 (c : Dev nD) (w : Fin cfg6.W) : (dat6 (V11 m) c).arrAt w cfg6.N = V12 m c (Pipeline.arrRef spec6 w) :=
  (W12_arr m c w).symm
theorem hrest6 (c : Dev nD) : ∀ b, b ∉ Finset.univ.image (Pipeline.arrRef spec6) → V12 m c b = V11 m c b :=
  fun b hb => W12_of_ne m c b fun w e => hb (Finset.mem_image.mpr ⟨w, Finset.mem_univ _, e⟩)
/-- After region 7, whose two input windows read one array: only the result array changes. -/
def W13 (c : Dev nD) : Valuation τ sig (Elt F) :=
  Function.update (W12 m c) (Proc.devRef .tc main_v15) ((dat7 (V12 m) c).arrAt 2 cfg7.N)
theorem W13_out (c : Dev nD) : W13 m c (Proc.devRef .tc main_v15) = (dat7 (V12 m) c).arrAt 2 cfg7.N := by
  unfold W13; exact Function.update_self ..
theorem W13_of_ne (c : Dev nD) (b : Ref sig .tc) (hb : b ≠ main_v15) :
    W13 m c (Proc.devRef .tc b) = W12 m c (Proc.devRef .tc b) := by
  unfold W13; exact Function.update_of_ne (StableHlo.devRef_ne_of_ne hb) ..
abbrev V13 : (c : Dev nD) → (b : Ref sig .tc) → Buf (Elt F) ((c : Thread nD τ).loc b) := fun c b => W13 m c b
theorem hF7 (c : Dev nD) (w : Fin cfg7.W) : (dat7 (V12 m) c).arrAt w cfg7.N = V13 m c (Pipeline.arrRef spec7 w) := by
  match w with
  | ⟨0, _⟩ => exact (((dat7 (V12 m) c).arrAt_in 0 rfl _).trans (A_eq7 (V12 m) c 0)).trans (W13_of_ne m c main_v14 (by decide)).symm
  | ⟨1, _⟩ => exact (((dat7 (V12 m) c).arrAt_in 1 rfl _).trans (A_eq7 (V12 m) c 1)).trans (W13_of_ne m c main_v14 (by decide)).symm
  | ⟨2, _⟩ => exact (W13_out m c).symm
theorem hrest7 (c : Dev nD) : ∀ b, b ∉ Finset.univ.image (Pipeline.arrRef spec7) → V13 m c b = V12 m c b :=
  fun b hb => W13_of_ne m c b fun e => hb (Finset.mem_image.mpr ⟨2, Finset.mem_univ _, e.symm⟩)

/-! ## The proof data of every pipeline, each at its region's entry contents -/

def pdats : (p : Fin 8) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
  | ⟨3, _⟩ => fun c => dat3 (V5 m) c
  | ⟨4, _⟩ => fun c => dat4 (V7 m) c
  | ⟨5, _⟩ => fun c => dat5 (V9 m) c
  | ⟨6, _⟩ => fun c => dat6 (V11 m) c
  | ⟨7, _⟩ => fun c => dat7 (V12 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over every unscoped buffer, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at the contents before it, left at those after it;
    its arrays split out of the unscoped buffers and put back at the exit contents; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those after it;
    its arrays split out of the unscoped buffers and put back at the exit contents; nothing owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    iintro ⟨Hp, -, Hr⟩
    iapply (hin1 (V2 m) c)
    isplitl [Hp]; · iexact Hp
    iexact Hr
  hout c := by
    rw [Pipeline.ownSems0_none, show (pdats m 1 c).Φ (Fin.last _) = (dat1 (V2 m) c).Φ (Fin.last cfg1.N) from rfl]
    iintro Hphi
    ihave H := (hout1 (V2 m) c) $$ Hphi
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those after it;
    its arrays split out of the unscoped buffers and put back at the exit contents; nothing owed; no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at those after it;
    its arrays split out of the unscoped buffers and put back at the exit contents; nothing owed; no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V5 m) c).Φ 0 from rfl]
    iintro ⟨Hp, -, Hr⟩
    iapply (hin3 (V5 m) c)
    isplitl [Hp]; · iexact Hp
    iexact Hr
  hout c := by
    rw [Pipeline.ownSems0_none, show (pdats m 3 c).Φ (Fin.last _) = (dat3 (V5 m) c).Φ (Fin.last cfg3.N) from rfl]
    iintro Hphi
    ihave H := (hout3 (V5 m) c) $$ Hphi
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at those after it;
    its arrays split out of the unscoped buffers and put back at the exit contents; nothing owed; no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec4 c (V7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V7 m c) (V8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at those after it;
    its arrays split out of the unscoped buffers and put back at the exit contents; nothing owed; no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m) c).loose
  hwaits := Pipeline.hwaits_of_owed_zero _ _ _ _ L lv 5 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec5 c (V9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V9 m c) (V10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents before it, left at those after it;
    its arrays split out of the unscoped buffers and put back at the exit contents; nothing owed; no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m) c).loose
  hwaits := Pipeline.hwaits_of_owed_zero _ _ _ _ L lv 6 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec6 c (V11 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V11 m c) (V12 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the contents before it, left at those after it;
    its arrays split out of the unscoped buffers and put back at the exit contents; nothing owed; no semaphore of its own. -/
def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (V12 m) c).loose
  hwaits := Pipeline.hwaits_of_owed_zero _ _ _ _ L lv 7 fun _ _ => rfl
  pre c := iprop(StableHlo.held (c : Thread nD τ) (Pipeline.ucRefs τ sig) (W12 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V12 m c)
  hentry c := by
    rw [Pipeline.ownSems0_none]
    have hsplit := entry7 (V12 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin : iprop((pdats m 7 c).arrays ((pdats m 7 c).arrAt · cfg7.N)
          ∗ Pipeline.unscopedRest (Ix := Unit) (Name := ℕ) (U := UR sig nD τ) (Lvl := ℕ) spec7 c (V12 m c))
        ⊢ (unscopedBufs c (V13 m c) : sProp 𝕄) := exit7 (V12 m) c (V13 m c) (hF7 m c) (hrest7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m),
    .host (hseg hostOps3 hostOps3_sub hostOps3_fresh (W4 m)),
    .region (reg3 m),
    .host (hseg hostOps4 hostOps4_sub hostOps4_fresh (W6 m)),
    .region (reg4 m),
    .host (hseg hostOps5 hostOps5_sub hostOps5_fresh (W8 m)),
    .region (reg5 m),
    .host (hseg hostOps6 hostOps6_sub hostOps6_fresh (W10 m)),
    .region (reg6 m),
    .region (reg7 m) ]
/-- @main is the run of the segments. -/
theorem main_run (c : Dev nD) : main (F := F) c = Pipeline.Seg.run (segs m) := (main_chain c).trans (by chain_rfl)

variable (ρ : Dev nD → PrngReg)

set_option backward.isDefEq.respectTransparency.types false in
/-- Every weakly fair execution of @main from memory `m` with zero counters terminates, nothing faulting, and every
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

end Cert.KernelIdeal.Hand

end
-- ==== Proof.KI.Keep.lean ====
/-
  What each item of @main leaves untouched.  A region changes only its result array: an input array comes back as
  it was entered (its window is never written back), and a buffer that is none of the region's arrays bypasses it.
  A host stretch changes only the buffers its operations write.  So a buffer no item writes holds its launch contents
  at every boundary.
-/
import proofs.«167749_j9328668967790_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-! ## A region keeps every buffer but its result array -/

theorem W1_keep (c : Dev nD) (b : Ref sig .tc) (hb : b ≠ main_v0) : W1 m c (Proc.devRef .tc b) = W0 m c (Proc.devRef .tc b) := by
  by_cases h : ∀ w, Pipeline.arrRef spec0 w ≠ b
  · exact W1_of_ne m c b h
  · obtain ⟨w, hw⟩ := not_forall.mp h
    have hw' : Pipeline.arrRef spec0 w = b := not_not.mp hw
    subst hw'
    match w with
    | ⟨0, _⟩ => exact (W1_arr m c 0).trans (((dat0 (V0 m) c).arrAt_in 0 rfl _).trans (A_eq0 (V0 m) c 0))
    | ⟨1, _⟩ => exact (W1_arr m c 1).trans (((dat0 (V0 m) c).arrAt_in 1 rfl _).trans (A_eq0 (V0 m) c 1))
    | ⟨2, _⟩ => exact absurd rfl hb

theorem W3_keep (c : Dev nD) (b : Ref sig .tc) (hb : b ≠ main_v2) : W3 m c (Proc.devRef .tc b) = W2 m c (Proc.devRef .tc b) := by
  by_cases h : ∀ w, Pipeline.arrRef spec1 w ≠ b
  · exact W3_of_ne m c b h
  · obtain ⟨w, hw⟩ := not_forall.mp h
    have hw' : Pipeline.arrRef spec1 w = b := not_not.mp hw
    subst hw'
    match w with
    | ⟨0, _⟩ => exact (W3_arr m c 0).trans (((dat1 (V2 m) c).arrAt_in 0 rfl _).trans (A_eq1 (V2 m) c 0))
    | ⟨1, _⟩ => exact (W3_arr m c 1).trans (((dat1 (V2 m) c).arrAt_in 1 rfl _).trans (A_eq1 (V2 m) c 1))
    | ⟨2, _⟩ => exact (W3_arr m c 2).trans (((dat1 (V2 m) c).arrAt_in 2 rfl _).trans (A_eq1 (V2 m) c 2))
    | ⟨3, _⟩ => exact absurd rfl hb

theorem W4_keep (c : Dev nD) (b : Ref sig .tc) (hb : b ≠ main_v3) : W4 m c (Proc.devRef .tc b) = W3 m c (Proc.devRef .tc b) := by
  by_cases h : ∀ w, Pipeline.arrRef spec2 w ≠ b
  · exact W4_of_ne m c b h
  · obtain ⟨w, hw⟩ := not_forall.mp h
    have hw' : Pipeline.arrRef spec2 w = b := not_not.mp hw
    subst hw'
    match w with
    | ⟨0, _⟩ => exact (W4_arr m c 0).trans (((dat2 (V3 m) c).arrAt_in 0 rfl _).trans (A_eq2 (V3 m) c 0))
    | ⟨1, _⟩ => exact (W4_arr m c 1).trans (((dat2 (V3 m) c).arrAt_in 1 rfl _).trans (A_eq2 (V3 m) c 1))
    | ⟨2, _⟩ => exact absurd rfl hb

theorem W6_keep (c : Dev nD) (b : Ref sig .tc) (hb : b ≠ main_v5) : W6 m c (Proc.devRef .tc b) = W5 m c (Proc.devRef .tc b) := by
  by_cases h : ∀ w, Pipeline.arrRef spec3 w ≠ b
  · exact W6_of_ne m c b h
  · obtain ⟨w, hw⟩ := not_forall.mp h
    have hw' : Pipeline.arrRef spec3 w = b := not_not.mp hw
    subst hw'
    match w with
    | ⟨0, _⟩ => exact (W6_arr m c 0).trans (((dat3 (V5 m) c).arrAt_in 0 rfl _).trans (A_eq3 (V5 m) c 0))
    | ⟨1, _⟩ => exact (W6_arr m c 1).trans (((dat3 (V5 m) c).arrAt_in 1 rfl _).trans (A_eq3 (V5 m) c 1))
    | ⟨2, _⟩ => exact (W6_arr m c 2).trans (((dat3 (V5 m) c).arrAt_in 2 rfl _).trans (A_eq3 (V5 m) c 2))
    | ⟨3, _⟩ => exact absurd rfl hb

theorem W8_keep (c : Dev nD) (b : Ref sig .tc) (hb : b ≠ main_v8) : W8 m c (Proc.devRef .tc b) = W7 m c (Proc.devRef .tc b) := by
  by_cases h : ∀ w, Pipeline.arrRef spec4 w ≠ b
  · exact W8_of_ne m c b h
  · obtain ⟨w, hw⟩ := not_forall.mp h
    have hw' : Pipeline.arrRef spec4 w = b := not_not.mp hw
    subst hw'
    match w with
    | ⟨0, _⟩ => exact (W8_arr m c 0).trans (((dat4 (V7 m) c).arrAt_in 0 rfl _).trans (A_eq4 (V7 m) c 0))
    | ⟨1, _⟩ => exact (W8_arr m c 1).trans (((dat4 (V7 m) c).arrAt_in 1 rfl _).trans (A_eq4 (V7 m) c 1))
    | ⟨2, _⟩ => exact (W8_arr m c 2).trans (((dat4 (V7 m) c).arrAt_in 2 rfl _).trans (A_eq4 (V7 m) c 2))
    | ⟨3, _⟩ => exact (W8_arr m c 3).trans (((dat4 (V7 m) c).arrAt_in 3 rfl _).trans (A_eq4 (V7 m) c 3))
    | ⟨4, _⟩ => exact (W8_arr m c 4).trans (((dat4 (V7 m) c).arrAt_in 4 rfl _).trans (A_eq4 (V7 m) c 4))
    | ⟨5, _⟩ => exact (W8_arr m c 5).trans (((dat4 (V7 m) c).arrAt_in 5 rfl _).trans (A_eq4 (V7 m) c 5))
    | ⟨6, _⟩ => exact absurd rfl hb

theorem W10_keep (c : Dev nD) (b : Ref sig .tc) (hb : b ≠ main_v11) : W10 m c (Proc.devRef .tc b) = W9 m c (Proc.devRef .tc b) := by
  by_cases h : ∀ w, Pipeline.arrRef spec5 w ≠ b
  · exact W10_of_ne m c b h
  · obtain ⟨w, hw⟩ := not_forall.mp h
    have hw' : Pipeline.arrRef spec5 w = b := not_not.mp hw
    subst hw'
    match w with
    | ⟨0, _⟩ => exact (W10_arr m c 0).trans (((dat5 (V9 m) c).arrAt_in 0 rfl _).trans (A_eq5 (V9 m) c 0))
    | ⟨1, _⟩ => exact (W10_arr m c 1).trans (((dat5 (V9 m) c).arrAt_in 1 rfl _).trans (A_eq5 (V9 m) c 1))
    | ⟨2, _⟩ => exact (W10_arr m c 2).trans (((dat5 (V9 m) c).arrAt_in 2 rfl _).trans (A_eq5 (V9 m) c 2))
    | ⟨3, _⟩ => exact (W10_arr m c 3).trans (((dat5 (V9 m) c).arrAt_in 3 rfl _).trans (A_eq5 (V9 m) c 3))
    | ⟨4, _⟩ => exact (W10_arr m c 4).trans (((dat5 (V9 m) c).arrAt_in 4 rfl _).trans (A_eq5 (V9 m) c 4))
    | ⟨5, _⟩ => exact absurd rfl hb

theorem W12_keep (c : Dev nD) (b : Ref sig .tc) (hb : b ≠ main_v14) : W12 m c (Proc.devRef .tc b) = W11 m c (Proc.devRef .tc b) := by
  by_cases h : ∀ w, Pipeline.arrRef spec6 w ≠ b
  · exact W12_of_ne m c b h
  · obtain ⟨w, hw⟩ := not_forall.mp h
    have hw' : Pipeline.arrRef spec6 w = b := not_not.mp hw
    subst hw'
    match w with
    | ⟨0, _⟩ => exact (W12_arr m c 0).trans (((dat6 (V11 m) c).arrAt_in 0 rfl _).trans (A_eq6 (V11 m) c 0))
    | ⟨1, _⟩ => exact (W12_arr m c 1).trans (((dat6 (V11 m) c).arrAt_in 1 rfl _).trans (A_eq6 (V11 m) c 1))
    | ⟨2, _⟩ => exact (W12_arr m c 2).trans (((dat6 (V11 m) c).arrAt_in 2 rfl _).trans (A_eq6 (V11 m) c 2))
    | ⟨3, _⟩ => exact (W12_arr m c 3).trans (((dat6 (V11 m) c).arrAt_in 3 rfl _).trans (A_eq6 (V11 m) c 3))
    | ⟨4, _⟩ => exact (W12_arr m c 4).trans (((dat6 (V11 m) c).arrAt_in 4 rfl _).trans (A_eq6 (V11 m) c 4))
    | ⟨5, _⟩ => exact absurd rfl hb

theorem W13_keep (c : Dev nD) (b : Ref sig .tc) (hb : b ≠ main_v15) : W13 m c (Proc.devRef .tc b) = W12 m c (Proc.devRef .tc b) :=
  W13_of_ne m c b hb

/-! ## A host stretch keeps every buffer it does not write -/

theorem W2_keep (c : Dev nD) (b : Ref sig .tc) (hb : b ∉ hostOps1_W) : W2 m c (Proc.devRef .tc b) = W1 m c (Proc.devRef .tc b) :=
  StableHlo.after_of_writes_sub hostOps1 _ hostOps1_writes hb

theorem W5_keep (c : Dev nD) (b : Ref sig .tc) (hb : b ∉ hostOps3_W) : W5 m c (Proc.devRef .tc b) = W4 m c (Proc.devRef .tc b) :=
  StableHlo.after_of_writes_sub hostOps3 _ hostOps3_writes hb

theorem W7_keep (c : Dev nD) (b : Ref sig .tc) (hb : b ∉ hostOps4_W) : W7 m c (Proc.devRef .tc b) = W6 m c (Proc.devRef .tc b) :=
  StableHlo.after_of_writes_sub hostOps4 _ hostOps4_writes hb

theorem W9_keep (c : Dev nD) (b : Ref sig .tc) (hb : b ∉ hostOps5_W) : W9 m c (Proc.devRef .tc b) = W8 m c (Proc.devRef .tc b) :=
  StableHlo.after_of_writes_sub hostOps5 _ hostOps5_writes hb

theorem W11_keep (c : Dev nD) (b : Ref sig .tc) (hb : b ∉ hostOps6_W) : W11 m c (Proc.devRef .tc b) = W10 m c (Proc.devRef .tc b) :=
  StableHlo.after_of_writes_sub hostOps6 _ hostOps6_writes hb

/-! ## A buffer no item writes holds its launch contents at every boundary -/

/-- Every buffer some item of @main writes. -/
abbrev written : List (Ref sig .tc) :=
  [main_v0, main_v1, main_v2, main_v3, main_v4, main_v5, main_v6, main_v7, main_v8, main_v9, main_v10, main_v11, main_v12, main_v13,
   main_v14, main_v15]

theorem W0_arg (c : Dev nD) (b : Ref sig .tc) (hb : b ∉ written) : W0 m c (Proc.devRef .tc b) = m ((c : Thread nD τ).loc b) := rfl
theorem W1_arg (c : Dev nD) (b : Ref sig .tc) (hb : b ∉ written) : W1 m c (Proc.devRef .tc b) = m ((c : Thread nD τ).loc b) :=
  (W1_keep m c b (fun e => hb (e ▸ (by decide : main_v0 ∈ written)))).trans (W0_arg m c b hb)
theorem W2_arg (c : Dev nD) (b : Ref sig .tc) (hb : b ∉ written) : W2 m c (Proc.devRef .tc b) = m ((c : Thread nD τ).loc b) :=
  (W2_keep m c b (fun h => hb ((by decide : ∀ x ∈ hostOps1_W, x ∈ written) b h))).trans (W1_arg m c b hb)
theorem W3_arg (c : Dev nD) (b : Ref sig .tc) (hb : b ∉ written) : W3 m c (Proc.devRef .tc b) = m ((c : Thread nD τ).loc b) :=
  (W3_keep m c b (fun e => hb (e ▸ (by decide : main_v2 ∈ written)))).trans (W2_arg m c b hb)
theorem W4_arg (c : Dev nD) (b : Ref sig .tc) (hb : b ∉ written) : W4 m c (Proc.devRef .tc b) = m ((c : Thread nD τ).loc b) :=
  (W4_keep m c b (fun e => hb (e ▸ (by decide : main_v3 ∈ written)))).trans (W3_arg m c b hb)
theorem W5_arg (c : Dev nD) (b : Ref sig .tc) (hb : b ∉ written) : W5 m c (Proc.devRef .tc b) = m ((c : Thread nD τ).loc b) :=
  (W5_keep m c b (fun h => hb ((by decide : ∀ x ∈ hostOps3_W, x ∈ written) b h))).trans (W4_arg m c b hb)
theorem W6_arg (c : Dev nD) (b : Ref sig .tc) (hb : b ∉ written) : W6 m c (Proc.devRef .tc b) = m ((c : Thread nD τ).loc b) :=
  (W6_keep m c b (fun e => hb (e ▸ (by decide : main_v5 ∈ written)))).trans (W5_arg m c b hb)
theorem W7_arg (c : Dev nD) (b : Ref sig .tc) (hb : b ∉ written) : W7 m c (Proc.devRef .tc b) = m ((c : Thread nD τ).loc b) :=
  (W7_keep m c b (fun h => hb ((by decide : ∀ x ∈ hostOps4_W, x ∈ written) b h))).trans (W6_arg m c b hb)
theorem W8_arg (c : Dev nD) (b : Ref sig .tc) (hb : b ∉ written) : W8 m c (Proc.devRef .tc b) = m ((c : Thread nD τ).loc b) :=
  (W8_keep m c b (fun e => hb (e ▸ (by decide : main_v8 ∈ written)))).trans (W7_arg m c b hb)
theorem W9_arg (c : Dev nD) (b : Ref sig .tc) (hb : b ∉ written) : W9 m c (Proc.devRef .tc b) = m ((c : Thread nD τ).loc b) :=
  (W9_keep m c b (fun h => hb ((by decide : ∀ x ∈ hostOps5_W, x ∈ written) b h))).trans (W8_arg m c b hb)
theorem W10_arg (c : Dev nD) (b : Ref sig .tc) (hb : b ∉ written) : W10 m c (Proc.devRef .tc b) = m ((c : Thread nD τ).loc b) :=
  (W10_keep m c b (fun e => hb (e ▸ (by decide : main_v11 ∈ written)))).trans (W9_arg m c b hb)
theorem W11_arg (c : Dev nD) (b : Ref sig .tc) (hb : b ∉ written) : W11 m c (Proc.devRef .tc b) = m ((c : Thread nD τ).loc b) :=
  (W11_keep m c b (fun h => hb ((by decide : ∀ x ∈ hostOps6_W, x ∈ written) b h))).trans (W10_arg m c b hb)
theorem W12_arg (c : Dev nD) (b : Ref sig .tc) (hb : b ∉ written) : W12 m c (Proc.devRef .tc b) = m ((c : Thread nD τ).loc b) :=
  (W12_keep m c b (fun e => hb (e ▸ (by decide : main_v14 ∈ written)))).trans (W11_arg m c b hb)
theorem W13_arg (c : Dev nD) (b : Ref sig .tc) (hb : b ∉ written) : W13 m c (Proc.devRef .tc b) = m ((c : Thread nD τ).loc b) :=
  (W13_keep m c b (fun e => hb (e ▸ (by decide : main_v15 ∈ written)))).trans (W12_arg m c b hb)

/-! ## The frame and the results, read off the last contents -/

variable (ρ : Dev nD → PrngReg)

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (W13_arg m c main_arg0 (by decide)),
      (h c _ (mem_uc main_arg1 (by decide))).trans (W13_arg m c main_arg1 (by decide)),
      (h c _ (mem_uc main_arg2 (by decide))).trans (W13_arg m c main_arg2 (by decide)),
      (h c _ (mem_uc main_arg3 (by decide))).trans (W13_arg m c main_arg3 (by decide)),
      (h c _ (mem_uc main_arg4 (by decide))).trans (W13_arg m c main_arg4 (by decide)),
      (h c _ (mem_uc main_arg5 (by decide))).trans (W13_arg m c main_arg5 (by decide)),
      (h c _ (mem_uc main_arg6 (by decide))).trans (W13_arg m c main_arg6 (by decide)),
      (h c _ (mem_uc main_arg7 (by decide))).trans (W13_arg m c main_arg7 (by decide)),
      (h c _ (mem_uc main_arg8 (by decide))).trans (W13_arg m c main_arg8 (by decide)),
      (h c _ (mem_uc main_arg9 (by decide))).trans (W13_arg m c main_arg9 (by decide)),
      (h c _ (mem_uc main_arg10 (by decide))).trans (W13_arg m c main_arg10 (by decide)),
      (h c _ (mem_uc main_arg11 (by decide))).trans (W13_arg m c main_arg11 (by decide)),
      (h c _ (mem_uc main_arg12 (by decide))).trans (W13_arg m c main_arg12 (by decide)),
      (h c _ (mem_uc main_arg13 (by decide))).trans (W13_arg m c main_arg13 (by decide)),
      (h c _ (mem_uc main_arg14 (by decide))).trans (W13_arg m c main_arg14 (by decide)),
      (h c _ (mem_uc main_arg15 (by decide))).trans (W13_arg m c main_arg15 (by decide)),
      (h c _ (mem_uc main_arg16 (by decide))).trans (W13_arg m c main_arg16 (by decide)),
      (h c _ (mem_uc main_arg17 (by decide))).trans (W13_arg m c main_arg17 (by decide)),
      (h c _ (mem_uc main_arg18 (by decide))).trans (W13_arg m c main_arg18 (by decide))⟩) (run_all m ρ)

/-- The same run with the two result arrays named: each ends at the last boundary's contents. -/
theorem run_out : θ_run defs (onTc (τ := τ) (main (F := F))) ⟨m, fun _ => 0, ρ⟩ (fun r => ∀ c : Dev nD,
      r.2.mem ((c.tc : Thread nD τ).loc main_v15) = W13 m c (Proc.devRef .tc main_v15)
      ∧ r.2.mem ((c.tc : Thread nD τ).loc main_v11) = W13 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c _ (mem_uc main_v15 (by decide)), h c _ (mem_uc main_v11 (by decide)),
      (h c _ (mem_uc main_arg0 (by decide))).trans (W13_arg m c main_arg0 (by decide)),
      (h c _ (mem_uc main_arg1 (by decide))).trans (W13_arg m c main_arg1 (by decide)),
      (h c _ (mem_uc main_arg2 (by decide))).trans (W13_arg m c main_arg2 (by decide)),
      (h c _ (mem_uc main_arg3 (by decide))).trans (W13_arg m c main_arg3 (by decide)),
      (h c _ (mem_uc main_arg4 (by decide))).trans (W13_arg m c main_arg4 (by decide)),
      (h c _ (mem_uc main_arg5 (by decide))).trans (W13_arg m c main_arg5 (by decide)),
      (h c _ (mem_uc main_arg6 (by decide))).trans (W13_arg m c main_arg6 (by decide)),
      (h c _ (mem_uc main_arg7 (by decide))).trans (W13_arg m c main_arg7 (by decide)),
      (h c _ (mem_uc main_arg8 (by decide))).trans (W13_arg m c main_arg8 (by decide)),
      (h c _ (mem_uc main_arg9 (by decide))).trans (W13_arg m c main_arg9 (by decide)),
      (h c _ (mem_uc main_arg10 (by decide))).trans (W13_arg m c main_arg10 (by decide)),
      (h c _ (mem_uc main_arg11 (by decide))).trans (W13_arg m c main_arg11 (by decide)),
      (h c _ (mem_uc main_arg12 (by decide))).trans (W13_arg m c main_arg12 (by decide)),
      (h c _ (mem_uc main_arg13 (by decide))).trans (W13_arg m c main_arg13 (by decide)),
      (h c _ (mem_uc main_arg14 (by decide))).trans (W13_arg m c main_arg14 (by decide)),
      (h c _ (mem_uc main_arg15 (by decide))).trans (W13_arg m c main_arg15 (by decide)),
      (h c _ (mem_uc main_arg16 (by decide))).trans (W13_arg m c main_arg16 (by decide)),
      (h c _ (mem_uc main_arg17 (by decide))).trans (W13_arg m c main_arg17 (by decide)),
      (h c _ (mem_uc main_arg18 (by decide))).trans (W13_arg m c main_arg18 (by decide))⟩) (run_all m ρ)

end Cert.KernelIdeal.Hand

end
-- ==== Proof.Stages.lean ====
/-
  The stages of the network as whole-array functions, spelt with the reference program's own host operations:
  a dense product, a graph-convolution layer  relu(adj · xw + b), the reparameterisation  μ + ε · exp(½ · logvar),
  a two-layer decoder  relu(z · W₁ + b₁) · W₂ + b₂, and the logistic of the Gram matrix  s · sᵀ.  Each kernel region
  is shown to compute one of these functions of the arrays it reads; composed in the program's order they spell the
  reference's result terms.
-/
import proofs.«167749_j9328668967790_1_alg».proof.Proof.Gen.ReferenceIdeal

noncomputable section

namespace Cert.Stage

open Cert.ReferenceIdeal Cert.ReferenceIdeal.Gen Idealize.ShloMosaic Idealize.SL.Sem

variable {F : FTy → Type} [FloatOps F]

/-- A bias vector as a one-row matrix. -/
def row128 (b : FVec F S128 .f32) : FVec F S1x128 .f32 := broadcastInDim S1x128 ![1] bcast_S128_S1x128_1 b
def row64 (b : FVec F S64 .f32) : FVec F S1x64 .f32 := broadcastInDim S1x64 ![1] bcast_S64_S1x64_1 b
def row512 (b : FVec F S512 .f32) : FVec F S1x512 .f32 := broadcastInDim S1x512 ![1] bcast_S512_S1x512_1 b

/-- x · W₁ : [8192,512] · [512,128]. -/
def mmA (x : FVec F S8192x512 .f32) (w : FVec F S512x128 .f32) : FVec F S8192x128 .f32 :=
  Host.dotGeneral dot_S8192x512_S512x128_S8192x128_1_0_0_1_n_n none x w

/-- h · W₂ : [8192,128] · [128,128]. -/
def mmB (h : FVec F S8192x128 .f32) (w : FVec F S128x128 .f32) : FVec F S8192x128 .f32 :=
  Host.dotGeneral dot_S8192x128_S128x128_S8192x128_1_0_0_1_n_n none h w

/-- relu(adj · xw + b), the bias a one-row matrix repeated down the rows. -/
def gcn (adj : FVec F S8192x8192 .f32) (xw : FVec F S8192x128 .f32) (b : FVec F S1x128 .f32) : FVec F S8192x128 .f32 :=
  maximumf (addf (Host.dotGeneral dot_S8192x8192_S8192x128_S8192x128_1_0_0_1_n_n none adj xw)
      (broadcastInDim S8192x128 ![0, 1] bcast_S1x128_S8192x128_0_1 b))
    (broadcastInDim S8192x128 ![] bcast_S_S8192x128 (constant S_ .f32 0x00000000#32))

/-- (h · W_μ + b_μ) + ε · exp(½ · (h · W_lv + b_lv)). -/
def reparam (h : FVec F S8192x128 .f32) (muW : FVec F S128x64 .f32) (mub : FVec F S1x64 .f32)
    (lvW : FVec F S128x64 .f32) (lvb : FVec F S1x64 .f32) (eps : FVec F S8192x64 .f32) : FVec F S8192x64 .f32 :=
  addf (addf (Host.dotGeneral dot_S8192x128_S128x64_S8192x64_1_0_0_1_n_n none h muW)
      (broadcastInDim S8192x64 ![0, 1] bcast_S1x64_S8192x64_0_1 mub))
    (mulf eps (Host.exp (mulf (broadcastInDim S8192x64 ![] bcast_S_S8192x64 (constant S_ .f32 0x3F000000#32))
      (addf (Host.dotGeneral dot_S8192x128_S128x64_S8192x64_1_0_0_1_n_n none h lvW)
        (broadcastInDim S8192x64 ![0, 1] bcast_S1x64_S8192x64_0_1 lvb)))))

/-- The hidden layer of a decoder: relu(z · W₁ + b₁). -/
def hidden (z : FVec F S8192x64 .f32) (w1 : FVec F S64x64 .f32) (b1 : FVec F S1x64 .f32) : FVec F S8192x64 .f32 :=
  maximumf (addf (Host.dotGeneral dot_S8192x64_S64x64_S8192x64_1_0_0_1_n_n none z w1)
      (broadcastInDim S8192x64 ![0, 1] bcast_S1x64_S8192x64_0_1 b1))
    (broadcastInDim S8192x64 ![] bcast_S_S8192x64 (constant S_ .f32 0x00000000#32))

/-- The attribute decoder: relu(z · W₁ + b₁) · W₂ + b₂ with W₂ : [64,512]. -/
def decA (z : FVec F S8192x64 .f32) (w1 : FVec F S64x64 .f32) (b1 : FVec F S1x64 .f32)
    (w2 : FVec F S64x512 .f32) (b2 : FVec F S1x512 .f32) : FVec F S8192x512 .f32 :=
  addf (Host.dotGeneral dot_S8192x64_S64x512_S8192x512_1_0_0_1_n_n none (hidden z w1 b1) w2)
    (broadcastInDim S8192x512 ![0, 1] bcast_S1x512_S8192x512_0_1 b2)

/-- The structure decoder: relu(z · W₁ + b₁) · W₂ + b₂ with W₂ : [64,64]. -/
def decB (z : FVec F S8192x64 .f32) (w1 : FVec F S64x64 .f32) (b1 : FVec F S1x64 .f32)
    (w2 : FVec F S64x64 .f32) (b2 : FVec F S1x64 .f32) : FVec F S8192x64 .f32 :=
  addf (Host.dotGeneral dot_S8192x64_S64x64_S8192x64_1_0_0_1_n_n none (hidden z w1 b1) w2)
    (broadcastInDim S8192x64 ![0, 1] bcast_S1x64_S8192x64_0_1 b2)

/-- 1 / (1 + exp(−(s · sᵀ))). -/
def sig (s : FVec F S8192x64 .f32) : FVec F S8192x8192 .f32 :=
  Host.divf (broadcastInDim S8192x8192 ![] bcast_S_S8192x8192 (constant S_ .f32 0x3F800000#32))
    (addf (broadcastInDim S8192x8192 ![] bcast_S_S8192x8192 (constant S_ .f32 0x3F800000#32))
      (Host.exp (Host.negf (Host.dotGeneral dot_S8192x64_S64x8192_S8192x8192_1_0_0_1_n_n none s
        (transpose S64x8192 [1, 0] s transposes_S8192x64_S64x8192_1_0)))))

/-- The latent code z of the encoder, from the argument arrays. -/
def latent (x : FVec F S8192x512 .f32) (adj : FVec F S8192x8192 .f32) (w1 : FVec F S512x128 .f32) (b1 : FVec F S128 .f32)
    (w2 : FVec F S128x128 .f32) (b2 : FVec F S128 .f32) (muW : FVec F S128x64 .f32) (mub : FVec F S64 .f32)
    (lvW : FVec F S128x64 .f32) (lvb : FVec F S64 .f32) (eps : FVec F S8192x64 .f32) : FVec F S8192x64 .f32 :=
  reparam (gcn adj (mmB (gcn adj (mmA x w1) (row128 b1)) w2) (row128 b2)) muW (row64 mub) lvW (row64 lvb) eps

end Cert.Stage

end
-- ==== Proof.KI.Val0.lean ====
/-
  The value of region 0: after its eight points the result array holds the dense product  x · W₁  of the two arrays
  the region reads, element (r, c) being  ∑ₖ x(r, k) · W₁(k, c).  Point t's block is rows 1024·t … 1024·t + 1023 of
  that product: the staged x block holds those rows of x, the staged W₁ block is all of W₁, and at the ideal values the
  change of format is the identity and the product into the zero accumulator is the plain sum over k.  The eight row
  blocks tile the array.
-/
import proofs.«167749_j9328668967790_1_alg».proof.Proof.KI.R0
import proofs.«167749_j9328668967790_1_alg».proof.Proof.Stages
import proofs.«167749_j9328668967790_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

section Value0

/-- Row r, column k of a left operand; row k, column c of a right operand. -/
abbrev lb0 (j : S1024x128.Idx) (k : Fin 512) : S1024x512.Idx := fun a => match a with
  | ⟨0, _⟩ => ⟨(j 0).val, (j 0).isLt⟩
  | ⟨1, _⟩ => ⟨k.val, k.isLt⟩
abbrev rb0 (j : S1024x128.Idx) (k : Fin 512) : S512x128.Idx := fun a => match a with
  | ⟨0, _⟩ => ⟨k.val, k.isLt⟩
  | ⟨1, _⟩ => ⟨(j 1).val, (j 1).isLt⟩

theorem lhs0_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem lhs0_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem rhs0_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem rhs0_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- The body's payload at an element: the sum over k of the products of row r of the left block and column c of the
    right block. -/
theorem pay0_apply (x0 : Vec Ideal S1024x512 .f32) (x1 : Vec Ideal S512x128 .f32) (j : S1024x128.Idx) :
    k0_pay1 (F := Ideal) x0 x1 j = ∑ k : Fin 512, x0 (lb0 j k) * x1 (rb0 j k) := by
  unfold k0_pay1
  refine (Ideal.matmul_constant_zero_apply dot_S1024x512_S512x128_S1024x128_1_0_0_1_n_n none _ _ j).trans ?_
  rw [← Equiv.sum_comp (ValueIdx.contrEquiv1 dot_S1024x512_S512x128_S1024x128_1_0_0_1_n_n 512 rfl rfl).symm]
  refine Finset.sum_congr rfl fun k _ => ?_
  have hk := ValueIdx.contrEquiv1_symm_val dot_S1024x512_S512x128_S1024x128_1_0_0_1_n_n 512 rfl rfl k
  have el : dot_S1024x512_S512x128_S1024x128_1_0_0_1_n_n.lhsIdx j ((ValueIdx.contrEquiv1 dot_S1024x512_S512x128_S1024x128_1_0_0_1_n_n 512 rfl rfl).symm k) = lb0 j k := funext fun a => Fin.ext (by
    match a with
    | ⟨0, _⟩ => exact lhs0_0 _ _
    | ⟨1, _⟩ => exact (lhs0_1 _ _).trans hk)
  have er : dot_S1024x512_S512x128_S1024x128_1_0_0_1_n_n.rhsIdx j ((ValueIdx.contrEquiv1 dot_S1024x512_S512x128_S1024x128_1_0_0_1_n_n 512 rfl rfl).symm k) = rb0 j k := funext fun a => Fin.ext (by
    match a with
    | ⟨0, _⟩ => exact (rhs0_0 _ _).trans hk
    | ⟨1, _⟩ => exact rhs0_1 _ _)
  rw [ValueIdx.truncf_apply, ValueIdx.truncf_apply, el, er]

theorem hz0 : (![0, 0] : Fin 2 → Nat) = fun _ => 0 := funext fun a => by fin_cases a <;> rfl

/-- The whole product: element (r, c) is the sum over k of x(r, k) · w(k, c). -/
abbrev G0 (x : Cert.ReferenceIdeal.S8192x512.Idx → Elt Ideal .f32) (w : Cert.ReferenceIdeal.S512x128.Idx → Elt Ideal .f32) :
    Cert.ReferenceIdeal.S8192x128.Idx → Elt Ideal .f32 :=
  fun i => ∑ k : Fin 512, x (Cert.ReferenceIdeal.Read.lidx_main_v0 i k) * w (Cert.ReferenceIdeal.Read.ridx_main_v0 i k)

/-- It is the reference's first dense product of the same two arrays. -/
theorem G0_eq (x : Cert.ReferenceIdeal.S8192x512.Idx → Elt Ideal .f32) (w : Cert.ReferenceIdeal.S512x128.Idx → Elt Ideal .f32) :
    G0 x w = Cert.Stage.mmA (F := Ideal) x w :=
  funext fun i => (Cert.ReferenceIdeal.Read.val_main_v0_apply x w i).symm

/-- The index maps over the grid: the x block and the result block are at row block t, the W₁ block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The staged x block at point t is rows 1024·t … of x. -/
theorem iblk0_0_apply (c : Dev nD) (t : Fin cfg0.N) (y : S1024x512.Idx) (i : S8192x512.Idx)
    (h0 : (i 0).val = t.val * 1024 + (y 0).val) (h1 : (i 1).val = (y 1).val) :
    (iblk0 V c 0 t : Vec Ideal S1024x512 .f32) y = (V c main_arg0 : S8192x512.Idx → Elt Ideal .f32) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 512 + 1 * (y 1).val = (i 1).val; rw [e1, h1]; omega

/-- The staged W₁ block at any point is W₁. -/
theorem iblk0_1_apply (c : Dev nD) (t : Fin cfg0.N) (y : S512x128.Idx) (i : S512x128.Idx)
    (h0 : (i 0).val = (y 0).val) (h1 : (i 1).val = (y 1).val) :
    (iblk0 V c 1 t : Vec Ideal S512x128 .f32) y = (V c main_arg2 : S512x128.Idx → Elt Ideal .f32) i := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t (0 : Fin 2) * 512 + 1 * (y 0).val = (i 0).val; rw [e2, h0]; omega
  | ⟨1, _⟩ => show win0_1.index t (1 : Fin 2) * 128 + 1 * (y 1).val = (i 1).val; rw [e3, h1]; omega

/-- What point t writes back is block t of the product of the two arrays as the region finds them. -/
theorem flushed0_eq (c : Dev nD) (t : Fin cfg0.N) :
    (dat0 (F := Ideal) V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz0]
  simp only [View.ld_unit_zero (S := S1024x512) hz0, View.ld_unit_zero (S := S512x128) hz0]
  obtain ⟨-, -, -, -, e4, e5⟩ := idx_facts0 t
  funext j
  show k0_pay1 (F := Ideal) (iblk0 V c 0 t) (iblk0 V c 1 t) j = G0 (V c main_arg0) (V c main_arg2) (((cfg0.win 2).blk t).view.emb j)
  refine (pay0_apply _ _ j).trans ?_
  refine Finset.sum_congr rfl fun k _ => ?_
  refine congrArg₂ (· * ·) (iblk0_0_apply V c t _ _ ?_ ?_) (iblk0_1_apply V c t _ _ ?_ ?_)
  · show win0_2.index t (0 : Fin 2) * 1024 + 1 * (j 0).val = t.val * 1024 + (j 0).val; rw [e4]; omega
  · rfl
  · rfl
  · show win0_2.index t (1 : Fin 2) * 128 + 1 * (j 1).val = (j 1).val; rw [e5]; omega

/-- An index of the result array is in point t's block iff each coordinate is in the block's range on its axis. -/
theorem mem_blk0 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- Row r is in the block of point r / 1024: the eight row blocks tile the result array. -/
theorem cover0 (i : S8192x128.Idx) : ∃ t : Fin cfg0.N, (cfg0.win 2).flush t = true ∧ i ∈ ((cfg0.win 2).blk t).view.set := by
  have hi0 : (i 0).val < 8192 := ValueIdx.idx2_lt0 i
  have hi1 : (i 1).val < 128 := ValueIdx.idx2_lt1 i
  have hN : cfg0.N = 8 := N_0
  let t : Fin cfg0.N := ⟨(i 0).val / 1024, by rw [hN]; omega⟩
  obtain ⟨-, -, -, -, e4, e5⟩ := idx_facts0 t
  have ht : t.val = (i 0).val / 1024 := rfl
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 128 ≤ (i 1).val ∧ (i 1).val < win0_2.index t (1 : Fin 2) * 128 + 128; rw [e5]; omega

/-- The result array after region 0 is the reference's first dense product of the arrays the region reads. -/
theorem val0 (c : Dev nD) :
    (dat0 (F := Ideal) V c).arrAt 2 cfg0.N = Cert.Stage.mmA (F := Ideal) (V c main_arg0) (V c main_arg2) :=
  ((dat0 (F := Ideal) V c).arrAt_eq_of_cover 2 (G0 (V c main_arg0) (V c main_arg2)) (fun t _ => flushed0_eq V c t) cover0).trans
    (G0_eq (V c main_arg0) (V c main_arg2))

end Value0

end Cert.KernelIdeal.Hand

end
-- ==== Proof.KI.Cover1.lean ====
/-
  Region 1, from the blocks to the array: the result [8192,128] is written back in four row blocks of 2048 rows, block i
  at the last point of grid row i (point 8·i + 7) and at no other point.  Row r of the array lies in row block
  r / 2048; so if every written-back block is the matching block of ONE whole-array function G, the array ends holding G.
  Stated for any proof data of the pipeline and any float instance.
-/
import proofs.«167749_j9328668967790_1_alg».proof.Proof.Gen.KernelIdeal.Launch
import proofs.«167749_j9328668967790_1_alg».proof.Proof.Gen.KernelIdeal.Points
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

/-- The result window's index map over the grid: row block t / 8, the one column block. -/
theorem arrIdx1_3 : ∀ t : Fin cfg1.N, win1_3.index t (0 : Fin 2) = t.val / 8 ∧ win1_3.index t (1 : Fin 2) = 0 :=
  (by decide +kernel : ∀ t : Fin grid1.N, _)

/-- An index of the result is in point t's block iff each coordinate is in the block's range on its axis. -/
theorem arrMem1_3 (t : Fin cfg1.N) (i : S8192x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v2).slice (win1_3.rect t)).set ↔ _
  rw [View.set_slice_whole, Rect.mem_set_unit]
  exact Iff.rfl

/-- Row r of the result is in the block written back at point 8 · (r / 2048) + 7. -/
theorem arrCover1_3 (i : S8192x128.Idx) : ∃ t : Fin cfg1.N, (cfg1.win 3).flush t = true ∧ i ∈ ((cfg1.win 3).blk t).view.set := by
  have hi0 : (i 0).val < 8192 := idx2_lt0 i
  have hi1 : (i 1).val < 128 := idx2_lt1 i
  have hN : cfg1.N = 32 := N_1
  let t : Fin cfg1.N := ⟨8 * ((i 0).val / 2048) + 7, by rw [hN]; omega⟩
  have ht : t.val = 8 * ((i 0).val / 2048) + 7 := rfl
  obtain ⟨e0, e1⟩ := arrIdx1_3 t
  refine ⟨t, (flush1_3 t).mpr (by rw [ht]; omega), ?_⟩
  rw [arrMem1_3]
  intro a
  match a with
  | ⟨0, _⟩ => show win1_3.index t (0 : Fin 2) * 2048 ≤ (i 0).val ∧ (i 0).val < win1_3.index t (0 : Fin 2) * 2048 + 2048; rw [e0, ht]; omega
  | ⟨1, _⟩ => show win1_3.index t (1 : Fin 2) * 128 ≤ (i 1).val ∧ (i 1).val < win1_3.index t (1 : Fin 2) * 128 + 128; rw [e1]; omega

/-- THE RESULT ARRAY after the region is G, once every block written back (at the points t with t % 8 = 7) is the
    matching block of G. -/
theorem arrAt1_of_flushed {c : Dev nD} (dat : Dat τ (Elt F) Unit ℕ (UR sig nD τ) ℕ cfg1 c) (G : S8192x128.Idx → Elt F .f32)
    (hfl : ∀ t : Fin cfg1.N, t.val % 8 = 7 → dat.flushed 3 t = ((cfg1.win 3).blk t).view.read (Elt F) G) :
    dat.arrAt 3 cfg1.N = G :=
  dat.arrAt_eq_of_cover 3 G (fun t hf => hfl t ((flush1_3 t).mp hf)) arrCover1_3

end Cert.KernelIdeal.Hand

end
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.KI.Val1Math.lean ====
/-
  The mathematics of a graph-convolution region, away from the schedule.  The region computes, for each of four row
  blocks, the product of a 2048×8192 slab of adj with the 8192×128 matrix xw in eight steps of 1024 columns, adding
  each step's product into an accumulator that starts at zero, and closes with the bias and the cut at zero.  Here:
  each payload of the body at an element; the accumulator after the k-th step of a run as the sum of the first k + 1
  block products; the eight block products of a run as the one sum over all 8192 columns; and the whole-array function
  max(adj · xw + b, 0) as the reference's graph-convolution stage.
-/
import proofs.«167749_j9328668967790_1_alg».proof.Proof.Gen.KernelIdeal.Skeleton
import proofs.«167749_j9328668967790_1_alg».proof.Proof.Stages
import proofs.«167749_j9328668967790_1_alg».proof.Proof.Gen.ReferenceIdeal.Read
import proofs.«167749_j9328668967790_1_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem

section Gcn

/-! ### Sums accumulated over runs of eight points -/

/-- A value that is reset to the point's term at the first point of every run of eight and grows by the point's term
    at the other seven is, after the k-th point of run i, the sum of that run's first k + 1 terms. -/
theorem acc_blocks {β : Type*} [AddCommMonoid β] (A g : ℕ → β) (N : ℕ)
    (h0 : ∀ n, n < N → n % 8 = 0 → A (n + 1) = 0 + g n)
    (hs : ∀ n, n < N → n % 8 ≠ 0 → A (n + 1) = A n + g n) (i : ℕ) :
    ∀ k, k < 8 → 8 * i + k < N → A (8 * i + k + 1) = ∑ s ∈ Finset.range (k + 1), g (8 * i + s)
  | 0, _, hN => by
    rw [h0 (8 * i + 0) hN (by omega), zero_add, Finset.sum_range_one]
  | k + 1, hk, hN => by
    have ih := acc_blocks A g N h0 hs i k (by omega) (by omega)
    rw [hs (8 * i + (k + 1)) hN (by omega), Finset.sum_range_succ, ← ih]
    rfl

/-- A matrix read at natural-number coordinates: zero outside its extent. -/
def ext2 {n0 n1 : ℕ} (x : (⟨2, ![n0, n1]⟩ : Shape).Idx → Elt Ideal .f32) (r j : ℕ) : Elt Ideal .f32 :=
  if h : r < n0 ∧ j < n1 then x (ValueIdx.ix2 ⟨r, h.1⟩ ⟨j, h.2⟩) else 0

theorem ext2_of_idx {n0 n1 : ℕ} (x : (⟨2, ![n0, n1]⟩ : Shape).Idx → Elt Ideal .f32) (i : (⟨2, ![n0, n1]⟩ : Shape).Idx)
    (r j : ℕ) (hr : (i 0).val = r) (hj : (i 1).val = j) : ext2 x r j = x i := by
  subst hr; subst hj
  unfold ext2
  rw [dif_pos ⟨ValueIdx.idx2_lt0 i, ValueIdx.idx2_lt1 i⟩]
  exact congrArg x (ValueIdx.eq_ix2 i).symm

/-- Point n's term at row j0 of its row block and column j1: the product of the n-th adj block's row with the n-th
    xw block's column, n / 8 the row block and n % 8 the column block. -/
def gblk (adj : Cert.ReferenceIdeal.S8192x8192.Idx → Elt Ideal .f32) (xw : Cert.ReferenceIdeal.S8192x128.Idx → Elt Ideal .f32)
    (j0 j1 : ℕ) (n : ℕ) : Elt Ideal .f32 :=
  ∑ l : Fin 1024, ext2 adj (2048 * (n / 8) + j0) (1024 * (n % 8) + l.val) * ext2 xw (1024 * (n % 8) + l.val) j1

/-- The eight column blocks of a row make up the whole contraction. -/
theorem sum_blocks (adj : Cert.ReferenceIdeal.S8192x8192.Idx → Elt Ideal .f32) (xw : Cert.ReferenceIdeal.S8192x128.Idx → Elt Ideal .f32)
    (i : Cert.ReferenceIdeal.S8192x128.Idx) :
    ∑ s ∈ Finset.range 8, ∑ l : Fin 1024, ext2 adj (i 0).val (1024 * s + l.val) * ext2 xw (1024 * s + l.val) (i 1).val
      = ∑ k : Fin 8192, adj (Cert.ReferenceIdeal.Read.lidx_main_v1 i k) * xw (Cert.ReferenceIdeal.Read.ridx_main_v1 i k) := by
  rw [← Cert.Lib.sum_fin_blocks (fun n => ext2 adj (i 0).val n * ext2 xw n (i 1).val) 8 1024]
  show ∑ k : Fin 8192, _ = _
  refine Finset.sum_congr rfl fun k _ => ?_
  rw [ext2_of_idx adj (Cert.ReferenceIdeal.Read.lidx_main_v1 i k) _ _ rfl rfl, ext2_of_idx xw (Cert.ReferenceIdeal.Read.ridx_main_v1 i k) _ _ rfl rfl]

/-- THE ACCUMULATOR AT A RUN'S LAST POINT: the full product's element. -/
theorem acc_total (adj : Cert.ReferenceIdeal.S8192x8192.Idx → Elt Ideal .f32) (xw : Cert.ReferenceIdeal.S8192x128.Idx → Elt Ideal .f32)
    (A : ℕ → Elt Ideal .f32) (N j0 j1 : ℕ)
    (h0 : ∀ n, n < N → n % 8 = 0 → A (n + 1) = 0 + gblk adj xw j0 j1 n)
    (hs : ∀ n, n < N → n % 8 ≠ 0 → A (n + 1) = A n + gblk adj xw j0 j1 n)
    (t : ℕ) (ht : t < N) (h7 : t % 8 = 7) (i : Cert.ReferenceIdeal.S8192x128.Idx)
    (hi0 : (i 0).val = 2048 * (t / 8) + j0) (hi1 : (i 1).val = j1) :
    A (t + 1) = ∑ k : Fin 8192, adj (Cert.ReferenceIdeal.Read.lidx_main_v1 i k) * xw (Cert.ReferenceIdeal.Read.ridx_main_v1 i k) := by
  have e : t = 8 * (t / 8) + 7 := by omega
  have h := acc_blocks A (gblk adj xw j0 j1) N h0 hs (t / 8) 7 (by omega) (by omega)
  rw [← e] at h
  rw [h, ← sum_blocks adj xw i]
  refine Finset.sum_congr rfl fun s hs' => ?_
  have hs8 : s < 8 := Finset.mem_range.mp hs'
  unfold gblk
  rw [show (8 * (t / 8) + s) / 8 = t / 8 by omega, show (8 * (t / 8) + s) % 8 = s by omega, hi0, hi1]

/-! ### The dimension numbers of the block product -/

abbrev lbG (j : S2048x128.Idx) (k : Fin 1024) : S2048x1024.Idx := fun a => match a with
  | ⟨0, _⟩ => ⟨(j 0).val, (j 0).isLt⟩
  | ⟨1, _⟩ => ⟨k.val, k.isLt⟩
abbrev rbG (j : S2048x128.Idx) (k : Fin 1024) : S1024x128.Idx := fun a => match a with
  | ⟨0, _⟩ => ⟨k.val, k.isLt⟩
  | ⟨1, _⟩ => ⟨(j 1).val, (j 1).isLt⟩
/-- The bias entry of an element's column. -/
abbrev bbG (j : S2048x128.Idx) : S1x128.Idx := fun a => match a with
  | ⟨0, _⟩ => ⟨0, Nat.one_pos⟩
  | ⟨1, _⟩ => ⟨(j 1).val, (j 1).isLt⟩

theorem lhsG_0 (i : S2048x128.Idx) (q : dot_S2048x1024_S1024x128_S2048x128_1_0_0_1_n_n.contr.Idx) : (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhsG_1 (i : S2048x128.Idx) (q : dot_S2048x1024_S1024x128_S2048x128_1_0_0_1_n_n.contr.Idx) : (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhsG_0 (i : S2048x128.Idx) (q : dot_S2048x1024_S1024x128_S2048x128_1_0_0_1_n_n.contr.Idx) : (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhsG_1 (i : S2048x128.Idx) (q : dot_S2048x1024_S1024x128_S2048x128_1_0_0_1_n_n.contr.Idx) : (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

theorem lhsG_eq (j : S2048x128.Idx) (k : Fin 1024) :
    dot_S2048x1024_S1024x128_S2048x128_1_0_0_1_n_n.lhsIdx j ((ValueIdx.contrEquiv1 dot_S2048x1024_S1024x128_S2048x128_1_0_0_1_n_n 1024 rfl rfl).symm k) = lbG j k :=
  have hk := ValueIdx.contrEquiv1_symm_val dot_S2048x1024_S1024x128_S2048x128_1_0_0_1_n_n 1024 rfl rfl k
  funext fun a => Fin.ext (by
    match a with
    | ⟨0, _⟩ => exact lhsG_0 _ _
    | ⟨1, _⟩ => exact (lhsG_1 _ _).trans hk)
theorem rhsG_eq (j : S2048x128.Idx) (k : Fin 1024) :
    dot_S2048x1024_S1024x128_S2048x128_1_0_0_1_n_n.rhsIdx j ((ValueIdx.contrEquiv1 dot_S2048x1024_S1024x128_S2048x128_1_0_0_1_n_n 1024 rfl rfl).symm k) = rbG j k :=
  have hk := ValueIdx.contrEquiv1_symm_val dot_S2048x1024_S1024x128_S2048x128_1_0_0_1_n_n 1024 rfl rfl k
  funext fun a => Fin.ext (by
    match a with
    | ⟨0, _⟩ => exact (rhsG_0 _ _).trans hk
    | ⟨1, _⟩ => exact rhsG_1 _ _)

/-! ### The three payloads of region 1's body, read at an element -/

/-- The accumulator's reset value is zero. -/
theorem pay1_1_apply (j : S2048x128.Idx) : k1_pay1 (F := Ideal) j = 0 := by
  unfold k1_pay1
  rw [shapeCast_self]
  exact Ideal.ofBits_zero_f32

/-- One accumulation step at an element: what was accumulated plus the sum over the block's 1024 columns of the
    products of row r of the left block and column c of the right block. -/
theorem pay1_2_apply (x : Vec Ideal S2048x1024 .f32) (w : Vec Ideal S1024x128 .f32) (a : Vec Ideal S2048x128 .f32) (j : S2048x128.Idx) :
    k1_pay2 (F := Ideal) x w a j = a j + ∑ k : Fin 1024, x (lbG j k) * w (rbG j k) := by
  unfold k1_pay2
  rw [shapeCast_self, ValueIdx.addf_apply]
  refine congrArg (a j + ·) ?_
  refine (Ideal.matmul_constant_zero_apply dot_S2048x1024_S1024x128_S2048x128_1_0_0_1_n_n none _ _ j).trans ?_
  rw [← Equiv.sum_comp (ValueIdx.contrEquiv1 dot_S2048x1024_S1024x128_S2048x128_1_0_0_1_n_n 1024 rfl rfl).symm]
  refine Finset.sum_congr rfl fun k _ => ?_
  rw [ValueIdx.truncf_apply, ValueIdx.truncf_apply, shapeCast_self, lhsG_eq, rhsG_eq]

/-- The closing step at an element: the accumulated value plus the bias of its column, cut below at zero. -/
theorem pay1_3_apply (a : Vec Ideal S2048x128 .f32) (b : Vec Ideal S1x128 .f32) (j : S2048x128.Idx) :
    k1_pay3 (F := Ideal) a b j = max (a j + b (bbG j)) 0 := by
  unfold k1_pay3
  rw [ValueIdx.maximumf_apply, ValueIdx.addf_apply, shapeCast_self, ValueIdx.broadcast_apply,
    broadcastTo_apply b broadcasts_S1x128_S2048x128 j (bbG j) (fun a => match a with
      | ⟨0, _⟩ => by show 0 = if (1 : Nat) = 1 then 0 else _; rw [if_pos rfl]
      | ⟨1, _⟩ => by show (j 1).val = if (128 : Nat) = 1 then 0 else _; rw [if_neg (by decide)]; rfl)]
  show max _ (Ideal.ofBits .f32 0x00000000#32) = _
  rw [Ideal.ofBits_zero_f32]

/-! ### The whole-array function and the reference's stage -/

/-- Element (r, c) of max(adj · xw + b, 0). -/
abbrev Ggcn (adj : Cert.ReferenceIdeal.S8192x8192.Idx → Elt Ideal .f32) (xw : Cert.ReferenceIdeal.S8192x128.Idx → Elt Ideal .f32)
    (b : Cert.ReferenceIdeal.S1x128.Idx → Elt Ideal .f32) : Cert.ReferenceIdeal.S8192x128.Idx → Elt Ideal .f32 :=
  fun i => max ((∑ k : Fin 8192, adj (Cert.ReferenceIdeal.Read.lidx_main_v1 i k) * xw (Cert.ReferenceIdeal.Read.ridx_main_v1 i k)) + b (Cert.ReferenceIdeal.Read.idx_main_v3 i)) 0

/-- It is the reference's graph-convolution stage of the same three arrays. -/
theorem Ggcn_eq (adj : Cert.ReferenceIdeal.S8192x8192.Idx → Elt Ideal .f32) (xw : Cert.ReferenceIdeal.S8192x128.Idx → Elt Ideal .f32)
    (b : Cert.ReferenceIdeal.S1x128.Idx → Elt Ideal .f32) : Ggcn adj xw b = Cert.Stage.gcn (F := Ideal) adj xw b := by
  funext i
  have hdot : Host.dotGeneral (F := Ideal) (φ₁ := .f32) (φ₂ := .f32) Cert.ReferenceIdeal.dot_S8192x8192_S8192x128_S8192x128_1_0_0_1_n_n none adj xw i
      = ∑ k : Fin 8192, adj (Cert.ReferenceIdeal.Read.lidx_main_v1 i k) * xw (Cert.ReferenceIdeal.Read.ridx_main_v1 i k) := by
    simp only [Host.dotGeneral]
    rw [Ideal.dotGeneral_apply, ← Equiv.sum_comp (ValueIdx.contrEquiv1 Cert.ReferenceIdeal.dot_S8192x8192_S8192x128_S8192x128_1_0_0_1_n_n 8192 rfl rfl).symm]
    refine Finset.sum_congr rfl fun k _ => ?_
    have hk := ValueIdx.contrEquiv1_symm_val Cert.ReferenceIdeal.dot_S8192x8192_S8192x128_S8192x128_1_0_0_1_n_n 8192 rfl rfl k
    have el : Cert.ReferenceIdeal.dot_S8192x8192_S8192x128_S8192x128_1_0_0_1_n_n.lhsIdx i ((ValueIdx.contrEquiv1 Cert.ReferenceIdeal.dot_S8192x8192_S8192x128_S8192x128_1_0_0_1_n_n 8192 rfl rfl).symm k) = Cert.ReferenceIdeal.Read.lidx_main_v1 i k := funext fun a => Fin.ext (by
      match a with
      | ⟨0, _⟩ => exact Cert.ReferenceIdeal.Read.lhs_main_v1_0 _ _
      | ⟨1, _⟩ => exact (Cert.ReferenceIdeal.Read.lhs_main_v1_1 _ _).trans hk)
    have er : Cert.ReferenceIdeal.dot_S8192x8192_S8192x128_S8192x128_1_0_0_1_n_n.rhsIdx i ((ValueIdx.contrEquiv1 Cert.ReferenceIdeal.dot_S8192x8192_S8192x128_S8192x128_1_0_0_1_n_n 8192 rfl rfl).symm k) = Cert.ReferenceIdeal.Read.ridx_main_v1 i k := funext fun a => Fin.ext (by
      match a with
      | ⟨0, _⟩ => exact (Cert.ReferenceIdeal.Read.rhs_main_v1_0 _ _).trans hk
      | ⟨1, _⟩ => exact Cert.ReferenceIdeal.Read.rhs_main_v1_1 _ _)
    rw [el, er]
  have hb : broadcastInDim Cert.ReferenceIdeal.S8192x128 ![0, 1] Cert.ReferenceIdeal.Gen.bcast_S1x128_S8192x128_0_1 b i = b (Cert.ReferenceIdeal.Read.idx_main_v3 i) :=
    broadcastInDim_apply _ Cert.ReferenceIdeal.Gen.bcast_S1x128_S8192x128_0_1 b i (Cert.ReferenceIdeal.Read.idx_main_v3 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  have hz : broadcastInDim Cert.ReferenceIdeal.S8192x128 ![] Cert.ReferenceIdeal.Gen.bcast_S_S8192x128 (constant (F := Ideal) Cert.ReferenceIdeal.S_ .f32 0x00000000#32) i = 0 :=
    (broadcastInDim_apply _ Cert.ReferenceIdeal.Gen.bcast_S_S8192x128 (constant (F := Ideal) Cert.ReferenceIdeal.S_ .f32 0x00000000#32) i (fun a => a.elim0) (fun a => a.elim0)).trans
      Ideal.ofBits_zero_f32
  symm
  unfold Cert.Stage.gcn
  rw [ValueIdx.maximumf_apply, ValueIdx.addf_apply, hdot, hb, hz]

end Gcn

end Cert.KernelIdeal.Hand

end
-- ==== Proof.KI.Val1.lean ====
/-
  The value of region 1: after its thirty-two points the result array holds  max(adj · xw + b, 0)  of the three arrays
  the region reads.  Point t = 8·i + k stages rows 2048·i … of adj at columns 1024·k …, rows 1024·k … of xw, and the
  one bias row; the accumulator, zeroed at k = 0, gains that point's block product; at k = 7 it holds the sum over all
  8192 columns, and the block written back is the bias added and the cut at zero.  The four row blocks tile the array.
-/
import proofs.«167749_j9328668967790_1_alg».proof.Proof.KI.R1
import proofs.«167749_j9328668967790_1_alg».proof.Proof.KI.Cover1
import proofs.«167749_j9328668967790_1_alg».proof.Proof.KI.Val1Math

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

section Value1

/-- The index maps over the grid: point t = 8·i + k reads the adj block (i, k), the xw row block k and the one bias
    block. -/
theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0 :=
  (by decide +kernel : ∀ t : Fin grid1.N, _)

variable (V : (c : Dev nD) → (b : Ref sig .tc) → Buf (Elt Ideal) ((c : Thread nD τ).loc b))

/-- The staged adj block at point t = 8·i + k is rows 2048·i …, columns 1024·k … of adj. -/
theorem iblk1_0_apply (c : Dev nD) (t : Fin cfg1.N) (y : S2048x1024.Idx) (r j : ℕ)
    (hr : r = 2048 * (t.val / 8) + (y 0).val) (hj : j = 1024 * (t.val % 8) + (y 1).val) :
    (iblk1 V c 0 t : Vec Ideal S2048x1024 .f32) y = ext2 (V c main_arg1 : S8192x8192.Idx → Elt Ideal .f32) r j := by
  obtain ⟨e0, e1, -⟩ := idx_facts1 t
  unfold iblk1
  rw [View.read_apply]
  show V c main_arg1 (((cfg1.win 0).blk t).view.emb y) = _
  refine (ext2_of_idx (V c main_arg1 : S8192x8192.Idx → Elt Ideal .f32) (((cfg1.win 0).blk t).view.emb y) r j ?_ ?_).symm
  · show win1_0.index t (0 : Fin 2) * 2048 + 1 * (y 0).val = r; rw [e0, hr]; omega
  · show win1_0.index t (1 : Fin 2) * 1024 + 1 * (y 1).val = j; rw [e1, hj]; omega

/-- The staged xw block at point t = 8·i + k is rows 1024·k … of xw. -/
theorem iblk1_1_apply (c : Dev nD) (t : Fin cfg1.N) (y : S1024x128.Idx) (r j : ℕ)
    (hr : r = 1024 * (t.val % 8) + (y 0).val) (hj : j = (y 1).val) :
    (iblk1 V c 1 t : Vec Ideal S1024x128 .f32) y = ext2 (V c main_v0 : S8192x128.Idx → Elt Ideal .f32) r j := by
  obtain ⟨-, -, e2, e3, -⟩ := idx_facts1 t
  unfold iblk1
  rw [View.read_apply]
  show V c main_v0 (((cfg1.win 1).blk t).view.emb y) = _
  refine (ext2_of_idx (V c main_v0 : S8192x128.Idx → Elt Ideal .f32) (((cfg1.win 1).blk t).view.emb y) r j ?_ ?_).symm
  · show win1_1.index t (0 : Fin 2) * 1024 + 1 * (y 0).val = r; rw [e2, hr]; omega
  · show win1_1.index t (1 : Fin 2) * 128 + 1 * (y 1).val = j; rw [e3, hj]; omega

/-- The staged bias block at any point is the bias row. -/
theorem iblk1_2_apply (c : Dev nD) (t : Fin cfg1.N) (y : S1x128.Idx) (i : S1x128.Idx)
    (h0 : (i 0).val = (y 0).val) (h1 : (i 1).val = (y 1).val) :
    (iblk1 V c 2 t : Vec Ideal S1x128 .f32) y = (V c main_v1 : S1x128.Idx → Elt Ideal .f32) i := by
  obtain ⟨-, -, -, -, e4, e5⟩ := idx_facts1 t
  unfold iblk1
  rw [View.read_apply]
  show V c main_v1 _ = V c main_v1 _
  congr 1
  funext a
  apply Fin.ext
  match a with
  | ⟨0, _⟩ => show win1_2.index t (0 : Fin 2) * 1 + 1 * (y 0).val = (i 0).val; rw [e4, h0]; omega
  | ⟨1, _⟩ => show win1_2.index t (1 : Fin 2) * 128 + 1 * (y 1).val = (i 1).val; rw [e5, h1]; omega

/-- Element i of the product adj · xw. -/
abbrev dot1G (adj : S8192x8192.Idx → Elt Ideal .f32) (xw : S8192x128.Idx → Elt Ideal .f32) (i : S8192x128.Idx) : Elt Ideal .f32 :=
  ∑ k : Fin 8192, adj (Cert.ReferenceIdeal.Read.lidx_main_v1 i k) * xw (Cert.ReferenceIdeal.Read.ridx_main_v1 i k)

/-- The accumulator after a run's last point, at an element: the full product's element. -/
theorem acc1_last (c : Dev nD) (t : Fin cfg1.N) (h7 : t.val % 8 = 7) (j : S2048x128.Idx) (i : S8192x128.Idx)
    (hi0 : (i 0).val = 2048 * (t.val / 8) + (j 0).val) (hi1 : (i 1).val = (j 1).val) :
    acc1 V c (t.val + 1) j = dot1G (V c main_arg1) (V c main_v0) i := by
  refine acc_total (V c main_arg1) (V c main_v0) (fun n => acc1 V c n j) cfg1.N (j 0).val (j 1).val ?_ ?_ t.val t.isLt h7 i hi0 hi1
  · intro n hn h0
    refine (congrFun (acc1_reset V c ⟨n, hn⟩ h0) j).trans ?_
    refine (pay1_2_apply _ _ _ j).trans ?_
    rw [pay1_1_apply]
    refine congrArg (0 + ·) ?_
    unfold gblk
    refine Finset.sum_congr rfl fun l _ => ?_
    exact congrArg₂ (· * ·) (iblk1_0_apply V c ⟨n, hn⟩ _ _ _ rfl rfl) (iblk1_1_apply V c ⟨n, hn⟩ _ _ _ rfl rfl)
  · intro n hn h0
    refine (congrFun (acc1_step V c ⟨n, hn⟩ h0) j).trans ?_
    refine (pay1_2_apply _ _ _ j).trans ?_
    refine congrArg (acc1 V c n j + ·) ?_
    unfold gblk
    refine Finset.sum_congr rfl fun l _ => ?_
    exact congrArg₂ (· * ·) (iblk1_0_apply V c ⟨n, hn⟩ _ _ _ rfl rfl) (iblk1_1_apply V c ⟨n, hn⟩ _ _ _ rfl rfl)

/-- What a run's last point writes back is its row block of max(adj · xw + b, 0). -/
theorem flushed1_eq (c : Dev nD) (t : Fin cfg1.N) (h7 : t.val % 8 = 7) :
    (dat1 (F := Ideal) V c).flushed 3 t
      = ((cfg1.win 3).blk t).view.read (Elt Ideal) (Ggcn (V c main_arg1) (V c main_v0) (V c main_v1)) := by
  show (cfg1.win 3).cut (grid1.coords t) ((dat1 V c).after 3 t) = _
  rw [after1_3]
  obtain ⟨e0, e1⟩ := arrIdx1_3 t
  funext j
  show k1_pay3 (F := Ideal) (acc1 V c (t.val + 1)) (iblk1 V c 2 t) j
    = Ggcn (V c main_arg1) (V c main_v0) (V c main_v1) (((cfg1.win 3).blk t).view.emb j)
  refine (pay1_3_apply _ _ j).trans ?_
  have hi0 : ((((cfg1.win 3).blk t).view.emb j) 0).val = 2048 * (t.val / 8) + (j 0).val := by
    show win1_3.index t (0 : Fin 2) * 2048 + 1 * (j 0).val = _; rw [e0]; omega
  have hi1 : ((((cfg1.win 3).blk t).view.emb j) 1).val = (j 1).val := by
    show win1_3.index t (1 : Fin 2) * 128 + 1 * (j 1).val = _; rw [e1]; omega
  exact congrArg₂ (fun a b => max (a + b) 0) (acc1_last V c t h7 j _ hi0 hi1)
    (iblk1_2_apply V c t (bbG j) (Cert.ReferenceIdeal.Read.idx_main_v3 (((cfg1.win 3).blk t).view.emb j)) rfl hi1)

/-- The result array after region 1 is the reference's graph-convolution stage of the arrays the region reads. -/
theorem val1 (c : Dev nD) :
    (dat1 (F := Ideal) V c).arrAt 3 cfg1.N = Cert.Stage.gcn (F := Ideal) (V c main_arg1) (V c main_v0) (V c main_v1) :=
  (arrAt1_of_flushed (dat1 (F := Ideal) V c) (Ggcn (V c main_arg1) (V c main_v0) (V c main_v1))
    (fun t h7 => flushed1_eq V c t h7)).trans (Ggcn_eq (V c main_arg1) (V c main_v0) (V c main_v1))

end Value1

end Cert.KernelIdeal.Hand

end
-- ==== Proof.KI.Val2.lean ====
/-
  The value of region 2: after its eight points the result array holds the dense product  h · W₂  of the two arrays
  the region reads, element (r, c) being  ∑ₖ h(r, k) · W₂(k, c).  Point t's block is rows 1024·t … 1024·t + 1023 of
  that product: the staged h block holds those rows of h, the staged W₂ block is all of W₂, and at the ideal values the
  change of format is the identity and the product into the zero accumulator is the plain sum over k.  The eight row
  blocks tile the array.
-/
import proofs.«167749_j9328668967790_1_alg».proof.Proof.KI.R2
import proofs.«167749_j9328668967790_1_alg».proof.Proof.Stages
import proofs.«167749_j9328668967790_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

section Value2

/-- Row r, column k of a left operand; row k, column c of a right operand. -/
abbrev lb2 (j : S1024x128.Idx) (k : Fin 128) : S1024x128.Idx := fun a => match a with
  | ⟨0, _⟩ => ⟨(j 0).val, (j 0).isLt⟩
  | ⟨1, _⟩ => ⟨k.val, k.isLt⟩
abbrev rb2 (j : S1024x128.Idx) (k : Fin 128) : S128x128.Idx := fun a => match a with
  | ⟨0, _⟩ => ⟨k.val, k.isLt⟩
  | ⟨1, _⟩ => ⟨(j 1).val, (j 1).isLt⟩

theorem lhs2_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs2_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs2_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs2_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The body's payload at an element: the sum over k of the products of row r of the left block and column c of the
    right block. -/
theorem pay2_apply (x0 : Vec Ideal S1024x128 .f32) (x1 : Vec Ideal S128x128 .f32) (j : S1024x128.Idx) :
    k2_pay1 (F := Ideal) x0 x1 j = ∑ k : Fin 128, x0 (lb2 j k) * x1 (rb2 j k) := by
  unfold k2_pay1
  refine (Ideal.matmul_constant_zero_apply dot_S1024x128_S128x128_S1024x128_1_0_0_1_n_n none _ _ j).trans ?_
  rw [← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx j ((ValueIdx.contrEquiv1 dot_S1024x128_S128x128_S1024x128_1_0_0_1_n_n 128 rfl rfl).symm k) = lb2 j k := funext fun a => Fin.ext (by
    match a with
    | ⟨0, _⟩ => exact lhs2_0 _ _
    | ⟨1, _⟩ => exact (lhs2_1 _ _).trans hk)
  have er : dot_S1024x128_S128x128_S1024x128_1_0_0_1_n_n.rhsIdx j ((ValueIdx.contrEquiv1 dot_S1024x128_S128x128_S1024x128_1_0_0_1_n_n 128 rfl rfl).symm k) = rb2 j k := funext fun a => Fin.ext (by
    match a with
    | ⟨0, _⟩ => exact (rhs2_0 _ _).trans hk
    | ⟨1, _⟩ => exact rhs2_1 _ _)
  rw [ValueIdx.truncf_apply, ValueIdx.truncf_apply, shapeCast_self, el, er]

theorem hz2 : (![0, 0] : Fin 2 → Nat) = fun _ => 0 := funext fun a => by fin_cases a <;> rfl

/-- The whole product: element (r, c) is the sum over k of h(r, k) · w(k, c). -/
abbrev G2 (x : Cert.ReferenceIdeal.S8192x128.Idx → Elt Ideal .f32) (w : Cert.ReferenceIdeal.S128x128.Idx → Elt Ideal .f32) :
    Cert.ReferenceIdeal.S8192x128.Idx → Elt Ideal .f32 :=
  fun i => ∑ k : Fin 128, x (Cert.ReferenceIdeal.Read.lidx_main_v6 i k) * w (Cert.ReferenceIdeal.Read.ridx_main_v6 i k)

/-- It is the reference's second dense product of the same two arrays. -/
theorem G2_eq (x : Cert.ReferenceIdeal.S8192x128.Idx → Elt Ideal .f32) (w : Cert.ReferenceIdeal.S128x128.Idx → Elt Ideal .f32) :
    G2 x w = Cert.Stage.mmB (F := Ideal) x w := by
  funext i
  symm
  unfold Cert.Stage.mmB
  simp only [Host.dotGeneral]
  rw [Ideal.dotGeneral_apply, ← Equiv.sum_comp (ValueIdx.contrEquiv1 Cert.ReferenceIdeal.dot_S8192x128_S128x128_S8192x128_1_0_0_1_n_n 128 rfl rfl).symm]
  refine Finset.sum_congr rfl fun k _ => ?_
  have hk := ValueIdx.contrEquiv1_symm_val Cert.ReferenceIdeal.dot_S8192x128_S128x128_S8192x128_1_0_0_1_n_n 128 rfl rfl k
  have el : Cert.ReferenceIdeal.dot_S8192x128_S128x128_S8192x128_1_0_0_1_n_n.lhsIdx i ((ValueIdx.contrEquiv1 Cert.ReferenceIdeal.dot_S8192x128_S128x128_S8192x128_1_0_0_1_n_n 128 rfl rfl).symm k) = Cert.ReferenceIdeal.Read.lidx_main_v6 i k := funext fun a => Fin.ext (by
    match a with
    | ⟨0, _⟩ => exact Cert.ReferenceIdeal.Read.lhs_main_v6_0 _ _
    | ⟨1, _⟩ => exact (Cert.ReferenceIdeal.Read.lhs_main_v6_1 _ _).trans hk)
  have er : Cert.ReferenceIdeal.dot_S8192x128_S128x128_S8192x128_1_0_0_1_n_n.rhsIdx i ((ValueIdx.contrEquiv1 Cert.ReferenceIdeal.dot_S8192x128_S128x128_S8192x128_1_0_0_1_n_n 128 rfl rfl).symm k) = Cert.ReferenceIdeal.Read.ridx_main_v6 i k := funext fun a => Fin.ext (by
    match a with
    | ⟨0, _⟩ => exact (Cert.ReferenceIdeal.Read.rhs_main_v6_0 _ _).trans hk
    | ⟨1, _⟩ => exact Cert.ReferenceIdeal.Read.rhs_main_v6_1 _ _)
  rw [el, er]

/-- The index maps over the grid: the h block and the result block are at row block t, the W₂ block is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The staged h block at point t is rows 1024·t … of h. -/
theorem iblk2_0_apply (c : Dev nD) (t : Fin cfg2.N) (y : S1024x128.Idx) (i : S8192x128.Idx)
    (h0 : (i 0).val = t.val * 1024 + (y 0).val) (h1 : (i 1).val = (y 1).val) :
    (iblk2 V c 0 t : Vec Ideal S1024x128 .f32) y = (V c main_v2 : S8192x128.Idx → Elt Ideal .f32) i := by
  obtain ⟨e0, e1, -⟩ := idx_facts2 t
  unfold iblk2
  rw [View.read_apply]
  show V c main_v2 _ = V c main_v2 _
  congr 1
  funext a
  apply Fin.ext
  match a with
  | ⟨0, _⟩ => show win2_0.index t (0 : Fin 2) * 1024 + 1 * (y 0).val = (i 0).val; rw [e0, h0]; omega
  | ⟨1, _⟩ => show win2_0.index t (1 : Fin 2) * 128 + 1 * (y 1).val = (i 1).val; rw [e1, h1]; omega

/-- The staged W₂ block at any point is W₂. -/
theorem iblk2_1_apply (c : Dev nD) (t : Fin cfg2.N) (y : S128x128.Idx) (i : S128x128.Idx)
    (h0 : (i 0).val = (y 0).val) (h1 : (i 1).val = (y 1).val) :
    (iblk2 V c 1 t : Vec Ideal S128x128 .f32) y = (V c main_arg4 : S128x128.Idx → Elt Ideal .f32) i := by
  obtain ⟨-, -, e2, e3, -⟩ := idx_facts2 t
  unfold iblk2
  rw [View.read_apply]
  show V c main_arg4 _ = V c main_arg4 _
  congr 1
  funext a
  apply Fin.ext
  match a with
  | ⟨0, _⟩ => show win2_1.index t (0 : Fin 2) * 128 + 1 * (y 0).val = (i 0).val; rw [e2, h0]; omega
  | ⟨1, _⟩ => show win2_1.index t (1 : Fin 2) * 128 + 1 * (y 1).val = (i 1).val; rw [e3, h1]; omega

/-- What point t writes back is block t of the product of the two arrays as the region finds them. -/
theorem flushed2_eq (c : Dev nD) (t : Fin cfg2.N) :
    (dat2 (F := Ideal) V c).flushed 2 t = ((cfg2.win 2).blk t).view.read (Elt Ideal) (G2 (V c main_v2) (V c main_arg4)) := by
  show (cfg2.win 2).cut (grid2.coords t) ((dat2 V c).after 2 t) = _
  rw [after2_2]
  unfold out2_2
  rw [View.canon_unit_zero hz2]
  simp only [View.ld_unit_zero (S := S1024x128) hz2, View.ld_unit_zero (S := S128x128) hz2]
  obtain ⟨-, -, -, -, e4, e5⟩ := idx_facts2 t
  funext j
  show k2_pay1 (F := Ideal) (iblk2 V c 0 t) (iblk2 V c 1 t) j = G2 (V c main_v2) (V c main_arg4) (((cfg2.win 2).blk t).view.emb j)
  refine (pay2_apply _ _ j).trans ?_
  refine Finset.sum_congr rfl fun k _ => ?_
  refine congrArg₂ (· * ·) (iblk2_0_apply V c t _ _ ?_ ?_) (iblk2_1_apply V c t _ _ ?_ ?_)
  · show win2_2.index t (0 : Fin 2) * 1024 + 1 * (j 0).val = t.val * 1024 + (j 0).val; rw [e4]; omega
  · rfl
  · rfl
  · show win2_2.index t (1 : Fin 2) * 128 + 1 * (j 1).val = (j 1).val; rw [e5]; omega

/-- An index of the result array is in point t's block iff each coordinate is in the block's range on its axis. -/
theorem mem_blk2 (t : Fin cfg2.N) (i : S8192x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v3).slice (win2_2.rect t)).set ↔ _
  rw [View.set_slice_whole, Rect.mem_set_unit]
  exact Iff.rfl

/-- Row r is in the block of point r / 1024: the eight row blocks tile the result array. -/
theorem cover2 (i : S8192x128.Idx) : ∃ t : Fin cfg2.N, (cfg2.win 2).flush t = true ∧ i ∈ ((cfg2.win 2).blk t).view.set := by
  have hi0 : (i 0).val < 8192 := ValueIdx.idx2_lt0 i
  have hi1 : (i 1).val < 128 := ValueIdx.idx2_lt1 i
  have hN : cfg2.N = 8 := N_2
  let t : Fin cfg2.N := ⟨(i 0).val / 1024, by rw [hN]; omega⟩
  obtain ⟨-, -, -, -, e4, e5⟩ := idx_facts2 t
  have ht : t.val = (i 0).val / 1024 := rfl
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; rw [e4, ht]; omega
  | ⟨1, _⟩ => show win2_2.index t (1 : Fin 2) * 128 ≤ (i 1).val ∧ (i 1).val < win2_2.index t (1 : Fin 2) * 128 + 128; rw [e5]; omega

/-- The result array after region 0 is the reference's second dense product of the arrays the region reads. -/
theorem val2 (c : Dev nD) :
    (dat2 (F := Ideal) V c).arrAt 2 cfg2.N = Cert.Stage.mmB (F := Ideal) (V c main_v2) (V c main_arg4) :=
  ((dat2 (F := Ideal) V c).arrAt_eq_of_cover 2 (G2 (V c main_v2) (V c main_arg4)) (fun t _ => flushed2_eq V c t) cover2).trans
    (G2_eq (V c main_v2) (V c main_arg4))

end Value2

end Cert.KernelIdeal.Hand

end
-- ==== Proof.KI.Cover3.lean ====
/-
  Region 3, from the blocks to the array: the result [8192,128] is written back in four row blocks of 2048 rows, block i
  at the last point of grid row i (point 8·i + 7) and at no other point.  Row r of the array lies in row block
  r / 2048; so if every written-back block is the matching block of ONE whole-array function G, the array ends holding G.
  Stated for any proof data of the pipeline and any float instance.
-/
import proofs.«167749_j9328668967790_1_alg».proof.Proof.Gen.KernelIdeal.Launch
import proofs.«167749_j9328668967790_1_alg».proof.Proof.Gen.KernelIdeal.Points
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

/-- The result window's index map over the grid: row block t / 8, the one column block. -/
theorem arrIdx3_3 : ∀ t : Fin cfg3.N, win3_3.index t (0 : Fin 2) = t.val / 8 ∧ win3_3.index t (1 : Fin 2) = 0 :=
  (by decide +kernel : ∀ t : Fin grid3.N, _)

/-- An index of the result is in point t's block iff each coordinate is in the block's range on its axis. -/
theorem arrMem3_3 (t : Fin cfg3.N) (i : S8192x128.Idx) :
    i ∈ ((cfg3.win 3).blk t).view.set ↔ ∀ a : Fin 2, win3_3.index t a * S2048x128.size a ≤ (i a).val ∧ (i a).val < win3_3.index t a * S2048x128.size a + S2048x128.size a := by
  show i ∈ ((View.whole main_v5).slice (win3_3.rect t)).set ↔ _
  rw [View.set_slice_whole, Rect.mem_set_unit]
  exact Iff.rfl

/-- Row r of the result is in the block written back at point 8 · (r / 2048) + 7. -/
theorem arrCover3_3 (i : S8192x128.Idx) : ∃ t : Fin cfg3.N, (cfg3.win 3).flush t = true ∧ i ∈ ((cfg3.win 3).blk t).view.set := by
  have hi0 : (i 0).val < 8192 := idx2_lt0 i
  have hi1 : (i 1).val < 128 := idx2_lt1 i
  have hN : cfg3.N = 32 := N_3
  let t : Fin cfg3.N := ⟨8 * ((i 0).val / 2048) + 7, by rw [hN]; omega⟩
  have ht : t.val = 8 * ((i 0).val / 2048) + 7 := rfl
  obtain ⟨e0, e1⟩ := arrIdx3_3 t
  refine ⟨t, (flush3_3 t).mpr (by rw [ht]; omega), ?_⟩
  rw [arrMem3_3]
  intro a
  match a with
  | ⟨0, _⟩ => show win3_3.index t (0 : Fin 2) * 2048 ≤ (i 0).val ∧ (i 0).val < win3_3.index t (0 : Fin 2) * 2048 + 2048; rw [e0, ht]; omega
  | ⟨1, _⟩ => show win3_3.index t (1 : Fin 2) * 128 ≤ (i 1).val ∧ (i 1).val < win3_3.index t (1 : Fin 2) * 128 + 128; rw [e1]; omega

/-- THE RESULT ARRAY after the region is G, once every block written back (at the points t with t % 8 = 7) is the
    matching block of G. -/
theorem arrAt3_of_flushed {c : Dev nD} (dat : Dat τ (Elt F) Unit ℕ (UR sig nD τ) ℕ cfg3 c) (G : S8192x128.Idx → Elt F .f32)
    (hfl : ∀ t : Fin cfg3.N, t.val % 8 = 7 → dat.flushed 3 t = ((cfg3.win 3).blk t).view.read (Elt F) G) :
    dat.arrAt 3 cfg3.N = G :=
  dat.arrAt_eq_of_cover 3 G (fun t hf => hfl t ((flush3_3 t).mp hf)) arrCover3_3

end Cert.KernelIdeal.Hand

end
-- ==== Proof.KI.Val3Math.lean ====
/-
  The payloads of region 3's body at an element: the second graph-convolution region runs the same three operations as
  the first (zero the accumulator; add a block product; add the bias and cut at zero), so only these three readings are
  restated; the sums over runs of eight points and the reference's stage are shared.
-/
import proofs.«167749_j9328668967790_1_alg».proof.Proof.KI.Val1Math

set_option maxRecDepth 16384

noncomputable section

namespace Cert.KernelIdeal.Hand

open Cert.KernelIdeal Cert.KernelIdeal.Gen
open Idealize.ShloMosaic Idealize.ShloMosaic.TcCoe
open Idealize.SL.Sem

section Gcn3

/-! ### The three payloads of region 3's body, read at an element -/

/-- The accumulator's reset value is zero. -/
theorem pay3_1_apply (j : S2048x128.Idx) : k3_pay1 (F := Ideal) j = 0 := by
  unfold k3_pay1
  rw [shapeCast_self]
  exact Ideal.ofBits_zero_f32

/-- One accumulation step at an element: what was accumulated plus the sum over the block's 1024 columns of the
    products of row r of the left block and column c of the right block. -/
theorem pay3_2_apply (x : Vec Ideal S2048x1024 .f32) (w : Vec Ideal S1024x128 .f32) (a : Vec Ideal S2048x128 .f32) (j : S2048x128.Idx) :
    k3_pay2 (F := Ideal) x w a j = a j + ∑ k : Fin 1024, x (lbG j k) * w (rbG j k) := by
  unfold k3_pay2
  rw [shapeCast_self, ValueIdx.addf_apply]
  refine congrArg (a j + ·) ?_
  refine (Ideal.matmul_constant_zero_apply dot_S2048x1024_S1024x128_S2048x128_1_0_0_1_n_n none _ _ j).trans ?_
  rw [← Equiv.sum_comp (ValueIdx.contrEquiv1 dot_S2048x1024_S1024x128_S2048x128_1_0_0_1_n_n 1024 rfl rfl).symm]
  refine Finset.sum_congr rfl fun k _ => ?_
  rw [ValueIdx.truncf_apply, ValueIdx.truncf_apply, shapeCast_self, lhsG_eq, rhsG_eq]

/-- The closing step at an element: the accumulated value plus the bias of its column, cut below at zero. -/
theorem pay3_3_apply (a : Vec Ideal S2048x128 .f32) (b : Vec Ideal S1x128 .f32) (j : S2048x128.Idx) :
    k3_pay3 (F := Ideal) a b j = max (a j + b (bbG j)) 0 := by
  unfold k3_pay3
  rw [ValueIdx.maximumf_apply, ValueIdx.addf_apply, shapeCast_self, ValueIdx.broadcast_apply,
    broadcastTo_apply b broadcasts_S1x128_S2048x128 j (bbG j) (fun a => match a with
      | ⟨0, _⟩ => by show 0 = if (1 : Nat) = 1 then 0 else _; rw [if_pos rfl]
      | ⟨1, _⟩ => by show (j 1).val = if (128 : Nat) = 1 then 0 else _; rw [if_neg (by decide)]; rfl)]
  show max _ (Ideal.ofBits .f32 0x00000000#32) = _
  rw [Ideal.ofBits_zero_f32]

end Gcn3

end Cert.KernelIdeal.Hand

end
-- ==== Proof.KI.Val3.lean ====
/-
  The value of region 3: after its thirty-two points the result array holds  max(adj · xw + b, 0)  of the three arrays
  the region reads.  Point t = 8·i + k stages rows 2048·i … of adj at columns 1024·k …, rows 1024·k … of xw, and the
  one bias row; the accumulator, zeroed at k = 0, gains that point's block product; at k = 7 it holds the sum over all
  8192 columns, and the block written back is the bias added and the cut at zero.  The four row blocks tile the array.
-/
import proofs.«167749_j9328668967790_1_alg».proof.Proof.KI.R3
import proofs.«167749_j9328668967790_1_alg».proof.Proof.KI.Cover3
import proofs.«167749_j9328668967790_1_alg».proof.Proof.KI.Val3Math

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

section Value3

/-- The index maps over the grid: point t = 8·i + k reads the adj block (i, k), the xw row block k and the one bias
    block. -/
theorem idx_facts3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0 :=
  (by decide +kernel : ∀ t : Fin grid3.N, _)

variable (V : (c : Dev nD) → (b : Ref sig .tc) → Buf (Elt Ideal) ((c : Thread nD τ).loc b))

/-- The staged adj block at point t = 8·i + k is rows 2048·i …, columns 1024·k … of adj. -/
theorem iblk3_0_apply (c : Dev nD) (t : Fin cfg3.N) (y : S2048x1024.Idx) (r j : ℕ)
    (hr : r = 2048 * (t.val / 8) + (y 0).val) (hj : j = 1024 * (t.val % 8) + (y 1).val) :
    (iblk3 V c 0 t : Vec Ideal S2048x1024 .f32) y = ext2 (V c main_arg1 : S8192x8192.Idx → Elt Ideal .f32) r j := by
  obtain ⟨e0, e1, -⟩ := idx_facts3 t
  unfold iblk3
  rw [View.read_apply]
  show V c main_arg1 (((cfg3.win 0).blk t).view.emb y) = _
  refine (ext2_of_idx (V c main_arg1 : S8192x8192.Idx → Elt Ideal .f32) (((cfg3.win 0).blk t).view.emb y) r j ?_ ?_).symm
  · show win3_0.index t (0 : Fin 2) * 2048 + 1 * (y 0).val = r; rw [e0, hr]; omega
  · show win3_0.index t (1 : Fin 2) * 1024 + 1 * (y 1).val = j; rw [e1, hj]; omega

/-- The staged xw block at point t = 8·i + k is rows 1024·k … of xw. -/
theorem iblk3_1_apply (c : Dev nD) (t : Fin cfg3.N) (y : S1024x128.Idx) (r j : ℕ)
    (hr : r = 1024 * (t.val % 8) + (y 0).val) (hj : j = (y 1).val) :
    (iblk3 V c 1 t : Vec Ideal S1024x128 .f32) y = ext2 (V c main_v3 : S8192x128.Idx → Elt Ideal .f32) r j := by
  obtain ⟨-, -, e2, e3, -⟩ := idx_facts3 t
  unfold iblk3
  rw [View.read_apply]
  show V c main_v3 (((cfg3.win 1).blk t).view.emb y) = _
  refine (ext2_of_idx (V c main_v3 : S8192x128.Idx → Elt Ideal .f32) (((cfg3.win 1).blk t).view.emb y) r j ?_ ?_).symm
  · show win3_1.index t (0 : Fin 2) * 1024 + 1 * (y 0).val = r; rw [e2, hr]; omega
  · show win3_1.index t (1 : Fin 2) * 128 + 1 * (y 1).val = j; rw [e3, hj]; omega

/-- The staged bias block at any point is the bias row. -/
theorem iblk3_2_apply (c : Dev nD) (t : Fin cfg3.N) (y : S1x128.Idx) (i : S1x128.Idx)
    (h0 : (i 0).val = (y 0).val) (h1 : (i 1).val = (y 1).val) :
    (iblk3 V c 2 t : Vec Ideal S1x128 .f32) y = (V c main_v4 : S1x128.Idx → Elt Ideal .f32) i := by
  obtain ⟨-, -, -, -, e4, e5⟩ := idx_facts3 t
  unfold iblk3
  rw [View.read_apply]
  show V c main_v4 _ = V c main_v4 _
  congr 1
  funext a
  apply Fin.ext
  match a with
  | ⟨0, _⟩ => show win3_2.index t (0 : Fin 2) * 1 + 1 * (y 0).val = (i 0).val; rw [e4, h0]; omega
  | ⟨1, _⟩ => show win3_2.index t (1 : Fin 2) * 128 + 1 * (y 1).val = (i 1).val; rw [e5, h1]; omega

/-- Element i of the product adj · xw. -/
abbrev dot3G (adj : S8192x8192.Idx → Elt Ideal .f32) (xw : S8192x128.Idx → Elt Ideal .f32) (i : S8192x128.Idx) : Elt Ideal .f32 :=
  ∑ k : Fin 8192, adj (Cert.ReferenceIdeal.Read.lidx_main_v1 i k) * xw (Cert.ReferenceIdeal.Read.ridx_main_v1 i k)

/-- The accumulator after a run's last point, at an element: the full product's element. -/
theorem acc3_last (c : Dev nD) (t : Fin cfg3.N) (h7 : t.val % 8 = 7) (j : S2048x128.Idx) (i : S8192x128.Idx)
    (hi0 : (i 0).val = 2048 * (t.val / 8) + (j 0).val) (hi1 : (i 1).val = (j 1).val) :
    acc3 V c (t.val + 1) j = dot3G (V c main_arg1) (V c main_v3) i := by
  refine acc_total (V c main_arg1) (V c main_v3) (fun n => acc3 V c n j) cfg3.N (j 0).val (j 1).val ?_ ?_ t.val t.isLt h7 i hi0 hi1
  · intro n hn h0
    refine (congrFun (acc3_reset V c ⟨n, hn⟩ h0) j).trans ?_
    refine (pay3_2_apply _ _ _ j).trans ?_
    rw [pay3_1_apply]
    refine congrArg (0 + ·) ?_
    unfold gblk
    refine Finset.sum_congr rfl fun l _ => ?_
    exact congrArg₂ (· * ·) (iblk3_0_apply V c ⟨n, hn⟩ _ _ _ rfl rfl) (iblk3_1_apply V c ⟨n, hn⟩ _ _ _ rfl rfl)
  · intro n hn h0
    refine (congrFun (acc3_step V c ⟨n, hn⟩ h0) j).trans ?_
    refine (pay3_2_apply _ _ _ j).trans ?_
    refine congrArg (acc3 V c n j + ·) ?_
    unfold gblk
    refine Finset.sum_congr rfl fun l _ => ?_
    exact congrArg₂ (· * ·) (iblk3_0_apply V c ⟨n, hn⟩ _ _ _ rfl rfl) (iblk3_1_apply V c ⟨n, hn⟩ _ _ _ rfl rfl)

/-- What a run's last point writes back is its row block of max(adj · xw + b, 0). -/
theorem flushed3_eq (c : Dev nD) (t : Fin cfg3.N) (h7 : t.val % 8 = 7) :
    (dat3 (F := Ideal) V c).flushed 3 t
      = ((cfg3.win 3).blk t).view.read (Elt Ideal) (Ggcn (V c main_arg1) (V c main_v3) (V c main_v4)) := by
  show (cfg3.win 3).cut (grid3.coords t) ((dat3 V c).after 3 t) = _
  rw [after3_3]
  obtain ⟨e0, e1⟩ := arrIdx3_3 t
  funext j
  show k3_pay3 (F := Ideal) (acc3 V c (t.val + 1)) (iblk3 V c 2 t) j
    = Ggcn (V c main_arg1) (V c main_v3) (V c main_v4) (((cfg3.win 3).blk t).view.emb j)
  refine (pay3_3_apply _ _ j).trans ?_
  have hi0 : ((((cfg3.win 3).blk t).view.emb j) 0).val = 2048 * (t.val / 8) + (j 0).val := by
    show win3_3.index t (0 : Fin 2) * 2048 + 1 * (j 0).val = _; rw [e0]; omega
  have hi1 : ((((cfg3.win 3).blk t).view.emb j) 1).val = (j 1).val := by
    show win3_3.index t (1 : Fin 2) * 128 + 1 * (j 1).val = _; rw [e1]; omega
  exact congrArg₂ (fun a b => max (a + b) 0) (acc3_last V c t h7 j _ hi0 hi1)
    (iblk3_2_apply V c t (bbG j) (Cert.ReferenceIdeal.Read.idx_main_v3 (((cfg3.win 3).blk t).view.emb j)) rfl hi1)

/-- The result array after region 3 is the reference's graph-convolution stage of the arrays the region reads. -/
theorem val3 (c : Dev nD) :
    (dat3 (F := Ideal) V c).arrAt 3 cfg3.N = Cert.Stage.gcn (F := Ideal) (V c main_arg1) (V c main_v3) (V c main_v4) :=
  (arrAt3_of_flushed (dat3 (F := Ideal) V c) (Ggcn (V c main_arg1) (V c main_v3) (V c main_v4))
    (fun t h7 => flushed3_eq V c t h7)).trans (Ggcn_eq (V c main_arg1) (V c main_v3) (V c main_v4))

end Value3

end Cert.KernelIdeal.Hand

end
-- ==== Proof.KI.Val4.lean ====
/-
  The value of region 4: after the region the array z holds, at every (r, q),
      (Σ_k h[r,k]·W_μ[k,q] + b_μ[0,q]) + ε[r,q] · exp(½ · (Σ_k h[r,k]·W_σ[k,q] + b_σ[0,q])),
  the reparametrisation stage of the arrays the region reads, as a whole-array function spelt with the reference's host
  operations.  At the ideal values a format change is the identity, a block product into the zero accumulator is the
  plain sum over the contracted coordinate, and so is the host's product; the kernel's exponential and the host's are one
  function; a one-row bias broadcast down the rows reads the bias at (0, q) on both sides.  Point t's block is rows
  1024·t … 1024·t+1023 of h, ε and z and the whole of the weights and biases, so the block it writes back is block t of
  the stage; row r of z lies in the block of point r / 1024, so the eight blocks cover z.
-/
import proofs.«167749_j9328668967790_1_alg».proof.Proof.KI.R4
import proofs.«167749_j9328668967790_1_alg».proof.Proof.Stages
import proofs.«167749_j9328668967790_1_alg».proof.Proof.Gen.ReferenceIdeal.Read
import Idealize.ShloMosaic.Lib.Pipeline.Value
import Idealize.ShloMosaic.Lib.ValueIdx
import Idealize.ShloMosaic.Lib.KernelVsHost
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-! ## The block product and the host product at an index -/

theorem klhs4_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem klhs4_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem krhs4_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem krhs4_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- A block product into the zero accumulator, at (p, q): the sum over the contracted coordinate. -/
theorem kmm4_apply {φ₁ φ₂ : FTy} (a : FVec Ideal S1024x128 φ₁) (b : FVec Ideal S128x64 φ₂) (p : Fin 1024) (q : Fin 64) :
    matmul dot_S1024x128_S128x64_S1024x64_1_0_0_1_n_n none a b (constant (F := Ideal) S1024x64 .f32 0x00000000#32) (ix2 p q)
      = ∑ k : Fin 128, a (ix2 p k) * b (ix2 k q) := by
  simp only [matmul]
  rw [Ideal.matmul_constant_zero_apply, ← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 p q) ((contrEquiv1 dot_S1024x128_S128x64_S1024x64_1_0_0_1_n_n 128 rfl rfl).symm k) = ix2 p k := funext fun a => Fin.ext (by
    match a with
    | ⟨0, _⟩ => exact klhs4_0 _ _
    | ⟨1, _⟩ => exact (klhs4_1 _ _).trans hk)
  have er : dot_S1024x128_S128x64_S1024x64_1_0_0_1_n_n.rhsIdx (ix2 p q) ((contrEquiv1 dot_S1024x128_S128x64_S1024x64_1_0_0_1_n_n 128 rfl rfl).symm k) = ix2 k q := funext fun a => Fin.ext (by
    match a with
    | ⟨0, _⟩ => exact (krhs4_0 _ _).trans hk
    | ⟨1, _⟩ => exact krhs4_1 _ _)
  rw [el, er]

/-- The host's product of the whole arrays, at (r, q): the same sum. -/
theorem hmm4_apply (h : FVec Ideal S8192x128 .f32) (w : FVec Ideal S128x64 .f32) (r : Fin 8192) (q : Fin 64) :
    Host.dotGeneral Cert.ReferenceIdeal.dot_S8192x128_S128x64_S8192x64_1_0_0_1_n_n none h w (ix2 r q)
      = ∑ k : Fin 128, h (ix2 r k) * w (ix2 k q) := by
  simp only [Host.dotGeneral]
  rw [Ideal.dotGeneral_apply, ← Equiv.sum_comp (contrEquiv1 Cert.ReferenceIdeal.dot_S8192x128_S128x64_S8192x64_1_0_0_1_n_n 128 rfl rfl).symm]
  refine Finset.sum_congr rfl fun k _ => ?_
  have hk := contrEquiv1_symm_val Cert.ReferenceIdeal.dot_S8192x128_S128x64_S8192x64_1_0_0_1_n_n 128 rfl rfl k
  have el : Cert.ReferenceIdeal.dot_S8192x128_S128x64_S8192x64_1_0_0_1_n_n.lhsIdx (ix2 r q) ((contrEquiv1 Cert.ReferenceIdeal.dot_S8192x128_S128x64_S8192x64_1_0_0_1_n_n 128 rfl rfl).symm k) = ix2 r k := funext fun a => Fin.ext (by
    match a with
    | ⟨0, _⟩ => exact Cert.ReferenceIdeal.Read.lhs_main_v12_0 _ _
    | ⟨1, _⟩ => exact (Cert.ReferenceIdeal.Read.lhs_main_v12_1 _ _).trans hk)
  have er : Cert.ReferenceIdeal.dot_S8192x128_S128x64_S8192x64_1_0_0_1_n_n.rhsIdx (ix2 r q) ((contrEquiv1 Cert.ReferenceIdeal.dot_S8192x128_S128x64_S8192x64_1_0_0_1_n_n 128 rfl rfl).symm k) = ix2 k q := funext fun a => Fin.ext (by
    match a with
    | ⟨0, _⟩ => exact (Cert.ReferenceIdeal.Read.rhs_main_v12_0 _ _).trans hk
    | ⟨1, _⟩ => exact Cert.ReferenceIdeal.Read.rhs_main_v12_1 _ _)
  rw [el, er]

/-! ## The payload and the stage at an index -/

/-- The one-row bias broadcast down the block's rows, at (p, q): the bias at (0, q). -/
theorem kbias4_apply (b : Vec Ideal S1x64 .f32) (p : Fin 1024) (q : Fin 64) :
    broadcastTo S1024x64 (shapeCast S1x64 b shapeCasts_S1x64_S1x64) broadcasts_S1x64_S1024x64 (ix2 p q) = b (ix2 (0 : Fin 1) q) := by
  rw [shapeCast_self]
  refine broadcastTo_apply b broadcasts_S1x64_S1024x64 (ix2 p q) (ix2 (0 : Fin 1) q) fun a => ?_
  match a with
  | ⟨0, _⟩ => show 0 = if (1 : Nat) = 1 then 0 else p.val; rw [if_pos rfl]
  | ⟨1, _⟩ => show q.val = if (64 : Nat) = 1 then 0 else q.val; rw [if_neg (by decide)]

/-- The payload at (p, q). -/
theorem pay4_apply (x0 : Vec Ideal S1024x128 .f32) (x1 x3 : Vec Ideal S128x64 .f32) (x2 x4 : Vec Ideal S1x64 .f32)
    (x5 : Vec Ideal S1024x64 .f32) (p : Fin 1024) (q : Fin 64) :
    k4_pay1 x0 x1 x3 x2 x4 x5 (ix2 p q)
      = ((∑ k : Fin 128, x0 (ix2 p k) * x1 (ix2 k q)) + x2 (ix2 (0 : Fin 1) q))
        + x5 (ix2 p q) * Ideal.exp (Ideal.ofBits .f32 0x3F000000#32
            * ((∑ k : Fin 128, x0 (ix2 p k) * x3 (ix2 k q)) + x4 (ix2 (0 : Fin 1) q))) := by
  have e1 := kmm4_apply (truncf .bf16 (shapeCast S1024x128 x0 shapeCasts_S1024x128_S1024x128) bitsLt_bf16_f32) (truncf .bf16 x1 bitsLt_bf16_f32) p q
  have e3 := kmm4_apply (truncf .bf16 (shapeCast S1024x128 x0 shapeCasts_S1024x128_S1024x128) bitsLt_bf16_f32) (truncf .bf16 x3 bitsLt_bf16_f32) p q
  have b2 := kbias4_apply x2 p q
  have b4 := kbias4_apply x4 p q
  rw [shapeCast_self] at e1 e3
  unfold k4_pay1
  show (matmul (F := Ideal) dot_S1024x128_S128x64_S1024x64_1_0_0_1_n_n none _ _ _ (ix2 p q) + broadcastTo S1024x64 _ _ (ix2 p q))
      + x5 (ix2 p q) * Ideal.exp (Ideal.ofBits .f32 0x3F000000#32
          * (matmul (F := Ideal) dot_S1024x128_S128x64_S1024x64_1_0_0_1_n_n none _ _ _ (ix2 p q) + broadcastTo S1024x64 _ _ (ix2 p q))) = _
  rw [shapeCast_self, e1, e3, b2, b4]
  rfl

/-- The stage at (r, q). -/
theorem reparam_apply (h : FVec Ideal S8192x128 .f32) (mw : FVec Ideal S128x64 .f32) (mb : FVec Ideal S1x64 .f32)
    (lw : FVec Ideal S128x64 .f32) (lb : FVec Ideal S1x64 .f32) (e : FVec Ideal S8192x64 .f32) (r : Fin 8192) (q : Fin 64) :
    Cert.Stage.reparam h mw mb lw lb e (ix2 r q)
      = ((∑ k : Fin 128, h (ix2 r k) * mw (ix2 k q)) + mb (ix2 (0 : Fin 1) q))
        + e (ix2 r q) * Ideal.exp (Ideal.ofBits .f32 0x3F000000#32
            * ((∑ k : Fin 128, h (ix2 r k) * lw (ix2 k q)) + lb (ix2 (0 : Fin 1) q))) := by
  have e1 := hmm4_apply h mw r q
  have e3 := hmm4_apply h lw r q
  have b2 := broadcastInDim_oneRow_apply (α := Ideal .f32) (m := 8192) (n := 64) Cert.ReferenceIdeal.Gen.bcast_S1x64_S8192x64_0_1 mb r q
  have b4 := broadcastInDim_oneRow_apply (α := Ideal .f32) (m := 8192) (n := 64) Cert.ReferenceIdeal.Gen.bcast_S1x64_S8192x64_0_1 lb r q
  have hc : broadcastInDim Cert.ReferenceIdeal.S8192x64 ![] Cert.ReferenceIdeal.Gen.bcast_S_S8192x64 (constant (F := Ideal) Cert.ReferenceIdeal.S_ .f32 0x3F000000#32) (ix2 r q)
      = Ideal.ofBits .f32 0x3F000000#32 :=
    broadcastInDim_apply _ Cert.ReferenceIdeal.Gen.bcast_S_S8192x64 _ (ix2 r q) (fun a => a.elim0) (fun a => a.elim0)
  unfold Cert.Stage.reparam
  show (Host.dotGeneral (F := Ideal) _ none h mw (ix2 r q) + broadcastInDim _ _ _ mb (ix2 r q))
      + e (ix2 r q) * Ideal.exp (broadcastInDim _ _ _ (constant (F := Ideal) _ .f32 0x3F000000#32) (ix2 r q)
          * (Host.dotGeneral (F := Ideal) _ none h lw (ix2 r q) + broadcastInDim _ _ _ lb (ix2 r q))) = _
  rw [e1, e3, b2, b4, hc]

/-! ## From the blocks to the array -/

section Region4Value
variable (V : (c : Dev nD) → (b : Ref sig .tc) → Buf (Elt Ideal) ((c : Thread nD τ).loc b))

/-- The reparametrisation stage of the arrays region 4 reads, as core c finds them. -/
abbrev z4 (c : Dev nD) : S8192x64.Idx → Elt Ideal .f32 :=
  Cert.Stage.reparam (F := Ideal) (V c main_v5 : S8192x128.Idx → Elt Ideal .f32) (V c main_arg6 : S128x64.Idx → Elt Ideal .f32)
    (V c main_v6 : S1x64.Idx → Elt Ideal .f32) (V c main_arg8 : S128x64.Idx → Elt Ideal .f32) (V c main_v7 : S1x64.Idx → Elt Ideal .f32)
    (V c main_arg18 : S8192x64.Idx → Elt Ideal .f32)

theorem hz4 : (![0, 0] : Fin 2 → Nat) = fun _ => 0 := funext fun a => by fin_cases a <;> rfl

/-- The index maps over the grid: the row-blocked windows (h, ε, z) move with the point, down the rows; the weights
    and biases stand still. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Block t of h is rows 1024·t … of the array. -/
theorem iblk4_0_apply (c : Dev nD) (t : Fin cfg4.N) (y : S1024x128.Idx) (k : S8192x128.Idx)
    (hk0 : (k 0).val = 1024 * t.val + (y 0).val) (hk1 : (k 1).val = (y 1).val) :
    (iblk4 V c 0 t : Vec Ideal S1024x128 .f32) y = (V c main_v5 : S8192x128.Idx → Elt Ideal .f32) k := by
  obtain ⟨e0, e1, -⟩ := idx_facts4 t
  unfold iblk4
  rw [View.read_apply]
  show V c main_v5 _ = V c main_v5 _
  congr 1
  funext a
  apply Fin.ext
  match a with
  | ⟨0, _⟩ => show win4_0.index t 0 * 1024 + 1 * (y 0).val = (k 0).val; rw [e0, hk0]; omega
  | ⟨1, _⟩ => show win4_0.index t 1 * 128 + 1 * (y 1).val = (k 1).val; rw [e1, hk1]; omega

/-- Block t of ε is rows 1024·t … of the array. -/
theorem iblk4_5_apply (c : Dev nD) (t : Fin cfg4.N) (y : S1024x64.Idx) (k : S8192x64.Idx)
    (hk0 : (k 0).val = 1024 * t.val + (y 0).val) (hk1 : (k 1).val = (y 1).val) :
    (iblk4 V c 5 t : Vec Ideal S1024x64 .f32) y = (V c main_arg18 : S8192x64.Idx → Elt Ideal .f32) k := by
  obtain ⟨-, -, -, -, -, -, -, -, -, -, e0, e1, -⟩ := idx_facts4 t
  unfold iblk4
  rw [View.read_apply]
  show V c main_arg18 _ = V c main_arg18 _
  congr 1
  funext a
  apply Fin.ext
  match a with
  | ⟨0, _⟩ => show win4_5.index t 0 * 1024 + 1 * (y 0).val = (k 0).val; rw [e0, hk0]; omega
  | ⟨1, _⟩ => show win4_5.index t 1 * 64 + 1 * (y 1).val = (k 1).val; rw [e1, hk1]; omega

/-- The weights' and biases' blocks are their whole arrays. -/
theorem iblk4_1_eq (c : Dev nD) (t : Fin cfg4.N) : (iblk4 V c 1 t : Vec Ideal S128x64 .f32) = (V c main_arg6 : S128x64.Idx → Elt Ideal .f32) := by
  obtain ⟨-, -, e0, e1, -⟩ := idx_facts4 t
  funext y
  unfold iblk4
  rw [View.read_apply]
  show V c main_arg6 _ = V c main_arg6 _
  congr 1
  funext a
  apply Fin.ext
  match a with
  | ⟨0, _⟩ => show win4_1.index t 0 * 128 + 1 * (y 0).val = (y 0).val; rw [e0]; omega
  | ⟨1, _⟩ => show win4_1.index t 1 * 64 + 1 * (y 1).val = (y 1).val; rw [e1]; omega
theorem iblk4_2_eq (c : Dev nD) (t : Fin cfg4.N) : (iblk4 V c 2 t : Vec Ideal S1x64 .f32) = (V c main_v6 : S1x64.Idx → Elt Ideal .f32) := by
  obtain ⟨-, -, -, -, e0, e1, -⟩ := idx_facts4 t
  funext y
  unfold iblk4
  rw [View.read_apply]
  show V c main_v6 _ = V c main_v6 _
  congr 1
  funext a
  apply Fin.ext
  match a with
  | ⟨0, _⟩ => show win4_2.index t 0 * 1 + 1 * (y 0).val = (y 0).val; rw [e0]; omega
  | ⟨1, _⟩ => show win4_2.index t 1 * 64 + 1 * (y 1).val = (y 1).val; rw [e1]; omega
theorem iblk4_3_eq (c : Dev nD) (t : Fin cfg4.N) : (iblk4 V c 3 t : Vec Ideal S128x64 .f32) = (V c main_arg8 : S128x64.Idx → Elt Ideal .f32) := by
  obtain ⟨-, -, -, -, -, -, e0, e1, -⟩ := idx_facts4 t
  funext y
  unfold iblk4
  rw [View.read_apply]
  show V c main_arg8 _ = V c main_arg8 _
  congr 1
  funext a
  apply Fin.ext
  match a with
  | ⟨0, _⟩ => show win4_3.index t 0 * 128 + 1 * (y 0).val = (y 0).val; rw [e0]; omega
  | ⟨1, _⟩ => show win4_3.index t 1 * 64 + 1 * (y 1).val = (y 1).val; rw [e1]; omega
theorem iblk4_4_eq (c : Dev nD) (t : Fin cfg4.N) : (iblk4 V c 4 t : Vec Ideal S1x64 .f32) = (V c main_v7 : S1x64.Idx → Elt Ideal .f32) := by
  obtain ⟨-, -, -, -, -, -, -, -, e0, e1, -⟩ := idx_facts4 t
  funext y
  unfold iblk4
  rw [View.read_apply]
  show V c main_v7 _ = V c main_v7 _
  congr 1
  funext a
  apply Fin.ext
  match a with
  | ⟨0, _⟩ => show win4_4.index t 0 * 1 + 1 * (y 0).val = (y 0).val; rw [e0]; omega
  | ⟨1, _⟩ => show win4_4.index t 1 * 64 + 1 * (y 1).val = (y 1).val; rw [e1]; omega

/-- The payload of blocks that are rows 1024·T … of h and of ε, at a block index j, is the stage of the whole arrays at
    the array index i under it. -/
theorem pay4_eq_stage (x0 : Vec Ideal S1024x128 .f32) (x5 : Vec Ideal S1024x64 .f32)
    (h : FVec Ideal S8192x128 .f32) (mw : FVec Ideal S128x64 .f32) (mb : FVec Ideal S1x64 .f32)
    (lw : FVec Ideal S128x64 .f32) (lb : FVec Ideal S1x64 .f32) (e : FVec Ideal S8192x64 .f32) (T : Nat)
    (h0 : ∀ (y : S1024x128.Idx) (k : S8192x128.Idx), (k 0).val = 1024 * T + (y 0).val → (k 1).val = (y 1).val → x0 y = h k)
    (h5 : ∀ (y : S1024x64.Idx) (k : S8192x64.Idx), (k 0).val = 1024 * T + (y 0).val → (k 1).val = (y 1).val → x5 y = e k)
    (j : S1024x64.Idx) (i : S8192x64.Idx) (hi0 : (i 0).val = 1024 * T + (j 0).val) (hi1 : (i 1).val = (j 1).val) :
    k4_pay1 x0 mw lw mb lb x5 j = Cert.Stage.reparam h mw mb lw lb e i := by
  obtain ⟨p, q, rfl⟩ : ∃ (p : Fin 1024) (q : Fin 64), j = ix2 p q := ⟨j 0, j 1, eq_ix2 j⟩
  obtain ⟨r, q', rfl⟩ : ∃ (r : Fin 8192) (q' : Fin 64), i = ix2 r q' := ⟨i 0, i 1, eq_ix2 i⟩
  have hr : r.val = 1024 * T + p.val := hi0
  have hq : q = q' := Fin.ext (Eq.symm hi1)
  subst hq
  rw [pay4_apply, reparam_apply]
  have a0 : ∀ k : Fin 128, x0 (ix2 p k) = h (ix2 r k) := fun k => h0 _ _ hr rfl
  have a5 : x5 (ix2 p q) = e (ix2 r q) := h5 _ _ hr rfl
  simp only [a0, a5]

/-- What point t writes back is block t of the stage of the arrays the region reads. -/
theorem flushed4_eq (c : Dev nD) (t : Fin cfg4.N) :
    (dat4 (F := Ideal) V c).flushed 6 t = ((cfg4.win 6).blk t).view.read (Elt Ideal) (z4 V c) := by
  show (cfg4.win 6).cut (grid4.coords t) ((dat4 V c).after 6 t) = _
  rw [after4_6]
  unfold out4_6
  rw [View.canon_unit_zero hz4]
  simp only [View.ld_unit_zero (S := S1024x128) hz4, View.ld_unit_zero (S := S128x64) hz4, View.ld_unit_zero (S := S1x64) hz4,
    View.ld_unit_zero (S := S1024x64) hz4]
  rw [iblk4_1_eq, iblk4_2_eq, iblk4_3_eq, iblk4_4_eq]
  obtain ⟨-, -, -, -, -, -, -, -, -, -, -, -, e0, e1⟩ := idx_facts4 t
  funext j
  rw [View.read_apply]
  refine pay4_eq_stage (iblk4 V c 0 t) (iblk4 V c 5 t) _ _ _ _ _ _ t.val (iblk4_0_apply V c t) (iblk4_5_apply V c t) j _ ?_ ?_
  · show win4_6.index t 0 * 1024 + 1 * (j 0).val = 1024 * t.val + (j 0).val; rw [e0]; omega
  · show win4_6.index t 1 * 64 + 1 * (j 1).val = (j 1).val; rw [e1]; omega

/-- An index of z is in point t's block iff each coordinate is in the block's range on its axis. -/
theorem mem_blk4 (t : Fin cfg4.N) (i : S8192x64.Idx) :
    i ∈ ((cfg4.win 6).blk t).view.set ↔ ∀ a : Fin 2, win4_6.index t a * S1024x64.size a ≤ (i a).val ∧ (i a).val < win4_6.index t a * S1024x64.size a + S1024x64.size a := by
  show i ∈ ((View.whole main_v8).slice (win4_6.rect t)).set ↔ _
  rw [View.set_slice_whole, Rect.mem_set_unit]
  exact Iff.rfl

/-- Row r of z is in the block of point r / 1024. -/
theorem cover4 (i : S8192x64.Idx) : ∃ t : Fin cfg4.N, (cfg4.win 6).flush t = true ∧ i ∈ ((cfg4.win 6).blk t).view.set := by
  have hi0 : (i 0).val < 8192 := idx2_lt0 i
  have hi1 : (i 1).val < 64 := idx2_lt1 i
  have hN : cfg4.N = 8 := N_4
  let t : Fin cfg4.N := ⟨(i 0).val / 1024, by rw [hN]; omega⟩
  have ht : t.val = (i 0).val / 1024 := rfl
  obtain ⟨-, -, -, -, -, -, -, -, -, -, -, -, e0, e1⟩ := idx_facts4 t
  refine ⟨t, flush4_6 t, ?_⟩
  rw [mem_blk4]
  intro a
  match a with
  | ⟨0, _⟩ => show win4_6.index t (0 : Fin 2) * 1024 ≤ (i 0).val ∧ (i 0).val < win4_6.index t (0 : Fin 2) * 1024 + 1024; rw [e0, ht]; omega
  | ⟨1, _⟩ => show win4_6.index t (1 : Fin 2) * 64 ≤ (i 1).val ∧ (i 1).val < win4_6.index t (1 : Fin 2) * 64 + 64; rw [e1]; omega

/-- THE ARRAY z after the region: the reparametrisation stage of the arrays the region reads. -/
theorem val4 (c : Dev nD) : (dat4 (F := Ideal) V c).arrAt 6 cfg4.N
    = Cert.Stage.reparam (F := Ideal) (V c main_v5 : S8192x128.Idx → Elt Ideal .f32) (V c main_arg6 : S128x64.Idx → Elt Ideal .f32)
        (V c main_v6 : S1x64.Idx → Elt Ideal .f32) (V c main_arg8 : S128x64.Idx → Elt Ideal .f32) (V c main_v7 : S1x64.Idx → Elt Ideal .f32)
        (V c main_arg18 : S8192x64.Idx → Elt Ideal .f32) :=
  (dat4 (F := Ideal) V c).arrAt_eq_of_cover 6 (z4 V c) (fun t _ => flushed4_eq V c t) cover4

end Region4Value

end Cert.KernelIdeal.Hand

end
-- ==== Proof.KI.Val5.lean ====
/-
  The value of region 5 at the ideal floats.  The result array after the region's 8 points is ONE whole-array function
  of the arrays the region reads: the attribute decoder  relu(z · W₁ + b₁) · W₂ + b₂  of the stage functions.  First one
  entry: the block the body stores, read at (p, q), is a sum over the hidden coordinate of the rectified first-layer sum
  (the format changes are the identity on the extended reals, a product into the zero accumulator is the plain sum), and
  the stage function read at (P, q) is the same expression of the whole arrays; they agree when row p of the z block is
  row P of z.  Then the blocks: point t's z block is rows 1024·t … of z, its parameter blocks are the whole parameter
  arrays, what it writes back is block t of the stage function, and the 8 blocks tile the result array.
-/
import proofs.«167749_j9328668967790_1_alg».proof.Proof.KI.R5
import proofs.«167749_j9328668967790_1_alg».proof.Proof.Stages
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

/-! ## One entry of the block the body stores, and one entry of the stage function -/

section Pointwise
open Idealize.ShloMosaic.ValueIdx

/-- A one-row matrix repeated down 1024 rows (the body's bias of the first layer), read at (p, c): the row at c. -/
theorem biasRow5_1 (x : Vec Ideal S1x64 .f32) (p : Fin 1024) (c : Fin 64) :
    broadcastTo S1024x64 (shapeCast S1x64 x shapeCasts_S1x64_S1x64) broadcasts_S1x64_S1024x64 (ix2 p c) = x (ix2 (0 : Fin 1) c) := by
  rw [shapeCast_self]
  exact broadcastTo_apply x broadcasts_S1x64_S1024x64 (ix2 p c) (ix2 (0 : Fin 1) c) (fun a => match a with
    | ⟨0, _⟩ => by show (0 : ℕ) = if (1 : ℕ) = 1 then 0 else p.val; rw [if_pos rfl]
    | ⟨1, _⟩ => by show c.val = if (64 : ℕ) = 1 then 0 else c.val; rw [if_neg (by decide)])

/-- The same for the second layer's bias, a one-row matrix of 512 entries. -/
theorem biasRow5_2 (x : Vec Ideal S1x512 .f32) (p : Fin 1024) (q : Fin 512) :
    broadcastTo S1024x512 (shapeCast S1x512 x shapeCasts_S1x512_S1x512) broadcasts_S1x512_S1024x512 (ix2 p q) = x (ix2 (0 : Fin 1) q) := by
  rw [shapeCast_self]
  exact broadcastTo_apply x broadcasts_S1x512_S1024x512 (ix2 p q) (ix2 (0 : Fin 1) q) (fun a => match a with
    | ⟨0, _⟩ => by show (0 : ℕ) = if (1 : ℕ) = 1 then 0 else p.val; rw [if_pos rfl]
    | ⟨1, _⟩ => by show q.val = if (512 : ℕ) = 1 then 0 else q.val; rw [if_neg (by decide)])

/-- The body's first product into the zero accumulator, read at (p, c): the sum over the contracted coordinate. -/
theorem mm5_1 {φ₁ φ₂ : FTy} (A : FVec Ideal S1024x64 φ₁) (B : FVec Ideal S64x64 φ₂) (p : Fin 1024) (c : Fin 64) :
    matmul dot_S1024x64_S64x64_S1024x64_1_0_0_1_n_n none A B (constant S1024x64 .f32 0x00000000#32) (ix2 p c)
      = ∑ c' : Fin 64, A (ix2 p c') * B (ix2 c' c) := by
  rw [matmul_zero_eq_dotGeneral]
  exact StackMember.dotGeneral_plain_apply (m := 1024) (n := 64) (k := 64) none A B p c

/-- The body's second product, read at (p, q). -/
theorem mm5_2 {φ₁ φ₂ : FTy} (A : FVec Ideal S1024x64 φ₁) (B : FVec Ideal S64x512 φ₂) (p : Fin 1024) (q : Fin 512) :
    matmul dot_S1024x64_S64x512_S1024x512_1_0_0_1_n_n none A B (constant S1024x512 .f32 0x00000000#32) (ix2 p q)
      = ∑ c : Fin 64, A (ix2 p c) * B (ix2 c q) := by
  rw [matmul_zero_eq_dotGeneral]
  exact StackMember.dotGeneral_plain_apply (m := 1024) (n := 512) (k := 64) none A B p q

/-- The payload the body stores, as the tree of operations of the five loaded blocks. -/
theorem pay5_eq (x0 : Vec Ideal S1024x64 .f32) (x1 : Vec Ideal S64x64 .f32) (x2 : Vec Ideal S1x64 .f32) (x3 : Vec Ideal S64x512 .f32) (x4 : Vec Ideal S1x512 .f32) :
    k5_pay1 (F := Ideal) x0 x1 x2 x3 x4
      = addf (matmul dot_S1024x64_S64x512_S1024x512_1_0_0_1_n_n none
          (truncf .bf16 (maximumf (addf (matmul dot_S1024x64_S64x64_S1024x64_1_0_0_1_n_n none
              (truncf .bf16 (shapeCast S1024x64 x0 shapeCasts_S1024x64_S1024x64) bitsLt_bf16_f32) (truncf .bf16 x1 bitsLt_bf16_f32)
              (constant S1024x64 .f32 0x00000000#32))
            (broadcastTo S1024x64 (shapeCast S1x64 x2 shapeCasts_S1x64_S1x64) broadcasts_S1x64_S1024x64))
            (broadcast S1024x64 (Scalar.ofBits .f32 0x00000000#32))) bitsLt_bf16_f32)
          (truncf .bf16 x3 bitsLt_bf16_f32) (constant S1024x512 .f32 0x00000000#32))
        (broadcastTo S1024x512 (shapeCast S1x512 x4 shapeCasts_S1x512_S1x512) broadcasts_S1x512_S1024x512) := rfl

/-- One entry of the stored block: the second layer's sum over the hidden coordinate of the rectified first layer's
    sum plus its bias, times the second weight, plus the second bias.  The format changes are the identity on the
    extended reals. -/
theorem pay5_apply (x0 : Vec Ideal S1024x64 .f32) (x1 : Vec Ideal S64x64 .f32) (x2 : Vec Ideal S1x64 .f32) (x3 : Vec Ideal S64x512 .f32) (x4 : Vec Ideal S1x512 .f32)
    (p : Fin 1024) (q : Fin 512) :
    k5_pay1 (F := Ideal) x0 x1 x2 x3 x4 (ix2 p q)
      = (∑ c : Fin 64, max ((∑ c' : Fin 64, x0 (ix2 p c') * x1 (ix2 c' c)) + x2 (ix2 (0 : Fin 1) c))
            (Scalar.ofBits (F := Ideal) .f32 0x00000000#32) * x3 (ix2 c q))
          + x4 (ix2 (0 : Fin 1) q) := by
  rw [pay5_eq, addf_apply, mm5_2, biasRow5_2]
  refine congrArg (· + x4 (ix2 (0 : Fin 1) q)) (Finset.sum_congr rfl fun c _ => ?_)
  rw [truncf_apply, truncf_apply, maximumf_apply, addf_apply, mm5_1, biasRow5_1, shapeCast_self]
  rfl

/-- One entry of the stage function: the same expression of the whole arrays, the row of z being the entry's row. -/
theorem decA_apply (z : FVec Ideal S8192x64 .f32) (w1 : FVec Ideal S64x64 .f32) (b1 : FVec Ideal S1x64 .f32)
    (w2 : FVec Ideal S64x512 .f32) (b2 : FVec Ideal S1x512 .f32) (P : Fin 8192) (q : Fin 512) :
    Cert.Stage.decA z w1 b1 w2 b2 (ix2 P q)
      = (∑ c : Fin 64, max ((∑ c' : Fin 64, z (ix2 P c') * w1 (ix2 c' c)) + b1 (ix2 (0 : Fin 1) c))
            (Scalar.ofBits (F := Ideal) .f32 0x00000000#32) * w2 (ix2 c q))
          + b2 (ix2 (0 : Fin 1) q) := by
  unfold Cert.Stage.decA
  rw [addf_apply]
  rw [show Host.dotGeneral Cert.ReferenceIdeal.dot_S8192x64_S64x512_S8192x512_1_0_0_1_n_n none (Cert.Stage.hidden z w1 b1) w2 (ix2 P q)
      = ∑ c : Fin 64, Cert.Stage.hidden z w1 b1 (ix2 P c) * w2 (ix2 c q) from
    StackMember.dotGeneral_plain_apply (m := 8192) (n := 512) (k := 64) none (Cert.Stage.hidden z w1 b1) w2 P q]
  rw [broadcastInDim_oneRow_apply (m := 8192) (n := 512)]
  refine congrArg (· + b2 (ix2 (0 : Fin 1) q)) (Finset.sum_congr rfl fun c _ => ?_)
  unfold Cert.Stage.hidden
  rw [maximumf_apply, addf_apply, broadcastInDim_constant, broadcast_apply]
  rw [show Host.dotGeneral Cert.ReferenceIdeal.dot_S8192x64_S64x64_S8192x64_1_0_0_1_n_n none z w1 (ix2 P c)
      = ∑ c' : Fin 64, z (ix2 P c') * w1 (ix2 c' c) from
    StackMember.dotGeneral_plain_apply (m := 8192) (n := 64) (k := 64) none z w1 P c]
  rw [broadcastInDim_oneRow_apply (m := 8192) (n := 64)]

/-- An entry of the stored block is the entry of the stage function in the row of z the block's row is, the four
    parameter blocks being the whole parameter arrays. -/
theorem pay5_eq_decA (z : FVec Ideal S8192x64 .f32) (w1 : FVec Ideal S64x64 .f32) (b1 : FVec Ideal S1x64 .f32)
    (w2 : FVec Ideal S64x512 .f32) (b2 : FVec Ideal S1x512 .f32)
    (x0 : Vec Ideal S1024x64 .f32) (x1 : Vec Ideal S64x64 .f32) (x2 : Vec Ideal S1x64 .f32) (x3 : Vec Ideal S64x512 .f32) (x4 : Vec Ideal S1x512 .f32)
    (p : Fin 1024) (P : Fin 8192) (q : Fin 512)
    (h0 : ∀ c' : Fin 64, x0 (ix2 p c') = z (ix2 P c'))
    (h1 : ∀ (a b : Fin 64), x1 (ix2 a b) = w1 (ix2 a b))
    (h2 : ∀ b : Fin 64, x2 (ix2 (0 : Fin 1) b) = b1 (ix2 (0 : Fin 1) b))
    (h3 : ∀ (a : Fin 64) (b : Fin 512), x3 (ix2 a b) = w2 (ix2 a b))
    (h4 : ∀ b : Fin 512, x4 (ix2 (0 : Fin 1) b) = b2 (ix2 (0 : Fin 1) b)) :
    k5_pay1 (F := Ideal) x0 x1 x2 x3 x4 (ix2 p q) = Cert.Stage.decA z w1 b1 w2 b2 (ix2 P q) := by
  rw [pay5_apply, decA_apply]
  simp only [h0, h1, h2, h3, h4]

end Pointwise

/-! ## From the blocks to the array -/

section Array
open Idealize.ShloMosaic.ValueIdx
variable (V : (c : Dev nD) → (b : Ref sig .tc) → Buf (Elt Ideal) ((c : Thread nD τ).loc b))

theorem hz5 : (![0, 0] : Fin 2 → Nat) = fun _ => 0 := funext fun a => by fin_cases a <;> rfl

/-- The printed index maps, decided over the grid: the z window and the result window are at block row t, column
    block 0; the four parameter windows stand at block (0, 0); and there are 8 points. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 ∧ t.val < 8 :=
  (by decide +kernel : ∀ t : Fin grid5.N, _)

/-- Every block row of the result is some point's. -/
theorem idx_onto5 : ∀ r : Fin 8, ∃ t : Fin cfg5.N, t.val = r.val :=
  (by decide +kernel : ∀ r : Fin 8, ∃ t : Fin grid5.N, t.val = r.val)

/-- WHAT POINT t WRITES BACK is block t of the stage function of the arrays as the region finds them. -/
theorem flushed5_eq (c : Dev nD) (t : Fin cfg5.N) :
    (dat5 (F := Ideal) V c).flushed 5 t = ((cfg5.win 5).blk t).view.read (Elt Ideal) (Cert.Stage.decA (F := Ideal) (V c main_v8) (V c main_arg10) (V c main_v9) (V c main_arg12) (V c main_v10)) := by
  show (cfg5.win 5).cut (grid5.coords t) ((dat5 (F := Ideal) V c).after 5 t) = _
  rw [after5_5]
  unfold out5_5
  rw [View.canon_unit_zero hz5]
  simp only [View.ld_unit_zero (S := S1024x64) hz5, View.ld_unit_zero (S := S64x64) hz5, View.ld_unit_zero (S := S1x64) hz5, View.ld_unit_zero (S := S64x512) hz5, View.ld_unit_zero (S := S1x512) hz5]
  obtain ⟨e00, e01, e10, e11, e20, e21, e30, e31, e40, e41, e50, e51, ht⟩ := idx_facts5 t
  funext j
  obtain ⟨p, q, rfl⟩ : ∃ (p : Fin 1024) (q : Fin 512), j = ix2 p q := ⟨j 0, j 1, eq_ix2 j⟩
  rw [View.read_apply]
  have hi : ((cfg5.win 5).blk t).view.emb (ix2 p q) = ix2 (⟨t.val * 1024 + p.val, by have := p.isLt; omega⟩ : Fin 8192) q := by
    funext ax; apply Fin.ext
    match ax with
    | ⟨0, _⟩ => show win5_5.index t (0 : Fin 2) * 1024 + 1 * p.val = t.val * 1024 + p.val; omega
    | ⟨1, _⟩ => show win5_5.index t (1 : Fin 2) * 512 + 1 * q.val = q.val; omega
  rw [hi]
  refine pay5_eq_decA (V c main_v8) (V c main_arg10) (V c main_v9) (V c main_arg12) (V c main_v10)
    (iblk5 V c 0 t) (iblk5 V c 1 t) (iblk5 V c 2 t) (iblk5 V c 3 t) (iblk5 V c 4 t) p _ q ?_ ?_ ?_ ?_ ?_
  · intro c'
    unfold iblk5
    rw [View.read_apply]
    show V c main_v8 (((cfg5.win 0).blk t).view.emb _) = V c main_v8 _
    refine congrArg _ (funext fun ax => Fin.ext ?_)
    match ax with
    | ⟨0, _⟩ => show win5_0.index t (0 : Fin 2) * 1024 + 1 * p.val = t.val * 1024 + p.val; omega
    | ⟨1, _⟩ => show win5_0.index t (1 : Fin 2) * 64 + 1 * c'.val = c'.val; omega
  · intro a b
    unfold iblk5
    rw [View.read_apply]
    show V c main_arg10 (((cfg5.win 1).blk t).view.emb _) = V c main_arg10 _
    refine congrArg _ (funext fun ax => Fin.ext ?_)
    match ax with
    | ⟨0, _⟩ => show win5_1.index t (0 : Fin 2) * 64 + 1 * a.val = a.val; omega
    | ⟨1, _⟩ => show win5_1.index t (1 : Fin 2) * 64 + 1 * b.val = b.val; omega
  · intro b
    unfold iblk5
    rw [View.read_apply]
    show V c main_v9 (((cfg5.win 2).blk t).view.emb _) = V c main_v9 _
    refine congrArg _ (funext fun ax => Fin.ext ?_)
    match ax with
    | ⟨0, _⟩ => show win5_2.index t (0 : Fin 2) * 1 + 1 * (0 : Fin 1).val = (0 : Fin 1).val; omega
    | ⟨1, _⟩ => show win5_2.index t (1 : Fin 2) * 64 + 1 * b.val = b.val; omega
  · intro a b
    unfold iblk5
    rw [View.read_apply]
    show V c main_arg12 (((cfg5.win 3).blk t).view.emb _) = V c main_arg12 _
    refine congrArg _ (funext fun ax => Fin.ext ?_)
    match ax with
    | ⟨0, _⟩ => show win5_3.index t (0 : Fin 2) * 64 + 1 * a.val = a.val; omega
    | ⟨1, _⟩ => show win5_3.index t (1 : Fin 2) * 512 + 1 * b.val = b.val; omega
  · intro b
    unfold iblk5
    rw [View.read_apply]
    show V c main_v10 (((cfg5.win 4).blk t).view.emb _) = V c main_v10 _
    refine congrArg _ (funext fun ax => Fin.ext ?_)
    match ax with
    | ⟨0, _⟩ => show win5_4.index t (0 : Fin 2) * 1 + 1 * (0 : Fin 1).val = (0 : Fin 1).val; omega
    | ⟨1, _⟩ => show win5_4.index t (1 : Fin 2) * 512 + 1 * b.val = b.val; omega

/-- An index of the result array is in point t's block iff each coordinate is in the block's range on its axis. -/
theorem mem_blk5 (t : Fin cfg5.N) (i : S8192x512.Idx) :
    i ∈ ((cfg5.win 5).blk t).view.set ↔ ∀ a : Fin 2, win5_5.index t a * S1024x512.size a ≤ (i a).val ∧ (i a).val < win5_5.index t a * S1024x512.size a + S1024x512.size a := by
  show i ∈ ((View.whole main_v11).slice (win5_5.rect t)).set ↔ _
  rw [View.set_slice_whole, Rect.mem_set_unit]
  exact Iff.rfl

/-- The 8 blocks tile the result array: row r is in the block of point r / 1024. -/
theorem cover5 (i : S8192x512.Idx) : ∃ t : Fin cfg5.N, (cfg5.win 5).flush t = true ∧ i ∈ ((cfg5.win 5).blk t).view.set := by
  have hi0 : (i 0).val < 8192 := (i 0).isLt
  have hi1 : (i 1).val < 512 := (i 1).isLt
  obtain ⟨t, ht⟩ := idx_onto5 ⟨(i 0).val / 1024, by omega⟩
  have ht' : t.val = (i 0).val / 1024 := ht
  obtain ⟨-, -, -, -, -, -, -, -, -, -, e50, e51, -⟩ := idx_facts5 t
  refine ⟨t, flush5_5 t, ?_⟩
  rw [mem_blk5]
  intro a
  match a with
  | ⟨0, _⟩ => show win5_5.index t (0 : Fin 2) * 1024 ≤ (i 0).val ∧ (i 0).val < win5_5.index t (0 : Fin 2) * 1024 + 1024; omega
  | ⟨1, _⟩ => show win5_5.index t (1 : Fin 2) * 512 ≤ (i 1).val ∧ (i 1).val < win5_5.index t (1 : Fin 2) * 512 + 512; omega

/-- THE RESULT ARRAY after the region is the stage function of the arrays the region reads. -/
theorem val5 (c : Dev nD) :
    (dat5 (F := Ideal) V c).arrAt 5 cfg5.N = Cert.Stage.decA (F := Ideal) (V c main_v8) (V c main_arg10) (V c main_v9) (V c main_arg12) (V c main_v10) :=
  (dat5 (F := Ideal) V c).arrAt_eq_of_cover 5 (Cert.Stage.decA (F := Ideal) (V c main_v8) (V c main_arg10) (V c main_v9) (V c main_arg12) (V c main_v10)) (fun t _ => flushed5_eq V c t) (cover5)

end Array

end Cert.KernelIdeal.Hand

end
-- ==== Proof.KI.Val6.lean ====
/-
  The value of region 6 at the ideal floats.  The result array after the region's 8 points is ONE whole-array function
  of the arrays the region reads: the structure decoder  relu(z · W₁ + b₁) · W₂ + b₂  of the stage functions.  First one
  entry: the block the body stores, read at (p, q), is a sum over the hidden coordinate of the rectified first-layer sum
  (the format changes are the identity on the extended reals, a product into the zero accumulator is the plain sum), and
  the stage function read at (P, q) is the same expression of the whole arrays; they agree when row p of the z block is
  row P of z.  Then the blocks: point t's z block is rows 1024·t … of z, its parameter blocks are the whole parameter
  arrays, what it writes back is block t of the stage function, and the 8 blocks tile the result array.
-/
import proofs.«167749_j9328668967790_1_alg».proof.Proof.KI.R6
import proofs.«167749_j9328668967790_1_alg».proof.Proof.Stages
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

/-! ## One entry of the block the body stores, and one entry of the stage function -/

section Pointwise
open Idealize.ShloMosaic.ValueIdx

/-- A one-row matrix repeated down 1024 rows (the body's bias of the first layer), read at (p, c): the row at c. -/
theorem biasRow6_1 (x : Vec Ideal S1x64 .f32) (p : Fin 1024) (c : Fin 64) :
    broadcastTo S1024x64 (shapeCast S1x64 x shapeCasts_S1x64_S1x64) broadcasts_S1x64_S1024x64 (ix2 p c) = x (ix2 (0 : Fin 1) c) := by
  rw [shapeCast_self]
  exact broadcastTo_apply x broadcasts_S1x64_S1024x64 (ix2 p c) (ix2 (0 : Fin 1) c) (fun a => match a with
    | ⟨0, _⟩ => by show (0 : ℕ) = if (1 : ℕ) = 1 then 0 else p.val; rw [if_pos rfl]
    | ⟨1, _⟩ => by show c.val = if (64 : ℕ) = 1 then 0 else c.val; rw [if_neg (by decide)])

/-- The body's first product into the zero accumulator, read at (p, c): the sum over the contracted coordinate. -/
theorem mm6_1 {φ₁ φ₂ : FTy} (A : FVec Ideal S1024x64 φ₁) (B : FVec Ideal S64x64 φ₂) (p : Fin 1024) (c : Fin 64) :
    matmul dot_S1024x64_S64x64_S1024x64_1_0_0_1_n_n none A B (constant S1024x64 .f32 0x00000000#32) (ix2 p c)
      = ∑ c' : Fin 64, A (ix2 p c') * B (ix2 c' c) := by
  rw [matmul_zero_eq_dotGeneral]
  exact StackMember.dotGeneral_plain_apply (m := 1024) (n := 64) (k := 64) none A B p c

/-- The payload the body stores, as the tree of operations of the five loaded blocks. -/
theorem pay6_eq (x0 : Vec Ideal S1024x64 .f32) (x1 : Vec Ideal S64x64 .f32) (x2 : Vec Ideal S1x64 .f32) (x3 : Vec Ideal S64x64 .f32) (x4 : Vec Ideal S1x64 .f32) :
    k6_pay1 (F := Ideal) x0 x1 x2 x3 x4
      = addf (matmul dot_S1024x64_S64x64_S1024x64_1_0_0_1_n_n none
          (truncf .bf16 (maximumf (addf (matmul dot_S1024x64_S64x64_S1024x64_1_0_0_1_n_n none
              (truncf .bf16 (shapeCast S1024x64 x0 shapeCasts_S1024x64_S1024x64) bitsLt_bf16_f32) (truncf .bf16 x1 bitsLt_bf16_f32)
              (constant S1024x64 .f32 0x00000000#32))
            (broadcastTo S1024x64 (shapeCast S1x64 x2 shapeCasts_S1x64_S1x64) broadcasts_S1x64_S1024x64))
            (broadcast S1024x64 (Scalar.ofBits .f32 0x00000000#32))) bitsLt_bf16_f32)
          (truncf .bf16 x3 bitsLt_bf16_f32) (constant S1024x64 .f32 0x00000000#32))
        (broadcastTo S1024x64 (shapeCast S1x64 x4 shapeCasts_S1x64_S1x64) broadcasts_S1x64_S1024x64) := rfl

/-- One entry of the stored block: the second layer's sum over the hidden coordinate of the rectified first layer's
    sum plus its bias, times the second weight, plus the second bias.  The format changes are the identity on the
    extended reals. -/
theorem pay6_apply (x0 : Vec Ideal S1024x64 .f32) (x1 : Vec Ideal S64x64 .f32) (x2 : Vec Ideal S1x64 .f32) (x3 : Vec Ideal S64x64 .f32) (x4 : Vec Ideal S1x64 .f32)
    (p : Fin 1024) (q : Fin 64) :
    k6_pay1 (F := Ideal) x0 x1 x2 x3 x4 (ix2 p q)
      = (∑ c : Fin 64, max ((∑ c' : Fin 64, x0 (ix2 p c') * x1 (ix2 c' c)) + x2 (ix2 (0 : Fin 1) c))
            (Scalar.ofBits (F := Ideal) .f32 0x00000000#32) * x3 (ix2 c q))
          + x4 (ix2 (0 : Fin 1) q) := by
  rw [pay6_eq, addf_apply, mm6_1, biasRow6_1]
  refine congrArg (· + x4 (ix2 (0 : Fin 1) q)) (Finset.sum_congr rfl fun c _ => ?_)
  rw [truncf_apply, truncf_apply, maximumf_apply, addf_apply, mm6_1, biasRow6_1, shapeCast_self]
  rfl

/-- One entry of the stage function: the same expression of the whole arrays, the row of z being the entry's row. -/
theorem decB_apply (z : FVec Ideal S8192x64 .f32) (w1 : FVec Ideal S64x64 .f32) (b1 : FVec Ideal S1x64 .f32)
    (w2 : FVec Ideal S64x64 .f32) (b2 : FVec Ideal S1x64 .f32) (P : Fin 8192) (q : Fin 64) :
    Cert.Stage.decB z w1 b1 w2 b2 (ix2 P q)
      = (∑ c : Fin 64, max ((∑ c' : Fin 64, z (ix2 P c') * w1 (ix2 c' c)) + b1 (ix2 (0 : Fin 1) c))
            (Scalar.ofBits (F := Ideal) .f32 0x00000000#32) * w2 (ix2 c q))
          + b2 (ix2 (0 : Fin 1) q) := by
  unfold Cert.Stage.decB
  rw [addf_apply]
  rw [show Host.dotGeneral Cert.ReferenceIdeal.dot_S8192x64_S64x64_S8192x64_1_0_0_1_n_n none (Cert.Stage.hidden z w1 b1) w2 (ix2 P q)
      = ∑ c : Fin 64, Cert.Stage.hidden z w1 b1 (ix2 P c) * w2 (ix2 c q) from
    StackMember.dotGeneral_plain_apply (m := 8192) (n := 64) (k := 64) none (Cert.Stage.hidden z w1 b1) w2 P q]
  rw [broadcastInDim_oneRow_apply (m := 8192) (n := 64)]
  refine congrArg (· + b2 (ix2 (0 : Fin 1) q)) (Finset.sum_congr rfl fun c _ => ?_)
  unfold Cert.Stage.hidden
  rw [maximumf_apply, addf_apply, broadcastInDim_constant, broadcast_apply]
  rw [show Host.dotGeneral Cert.ReferenceIdeal.dot_S8192x64_S64x64_S8192x64_1_0_0_1_n_n none z w1 (ix2 P c)
      = ∑ c' : Fin 64, z (ix2 P c') * w1 (ix2 c' c) from
    StackMember.dotGeneral_plain_apply (m := 8192) (n := 64) (k := 64) none z w1 P c]
  rw [broadcastInDim_oneRow_apply (m := 8192) (n := 64)]

/-- An entry of the stored block is the entry of the stage function in the row of z the block's row is, the four
    parameter blocks being the whole parameter arrays. -/
theorem pay6_eq_decB (z : FVec Ideal S8192x64 .f32) (w1 : FVec Ideal S64x64 .f32) (b1 : FVec Ideal S1x64 .f32)
    (w2 : FVec Ideal S64x64 .f32) (b2 : FVec Ideal S1x64 .f32)
    (x0 : Vec Ideal S1024x64 .f32) (x1 : Vec Ideal S64x64 .f32) (x2 : Vec Ideal S1x64 .f32) (x3 : Vec Ideal S64x64 .f32) (x4 : Vec Ideal S1x64 .f32)
    (p : Fin 1024) (P : Fin 8192) (q : Fin 64)
    (h0 : ∀ c' : Fin 64, x0 (ix2 p c') = z (ix2 P c'))
    (h1 : ∀ (a b : Fin 64), x1 (ix2 a b) = w1 (ix2 a b))
    (h2 : ∀ b : Fin 64, x2 (ix2 (0 : Fin 1) b) = b1 (ix2 (0 : Fin 1) b))
    (h3 : ∀ (a : Fin 64) (b : Fin 64), x3 (ix2 a b) = w2 (ix2 a b))
    (h4 : ∀ b : Fin 64, x4 (ix2 (0 : Fin 1) b) = b2 (ix2 (0 : Fin 1) b)) :
    k6_pay1 (F := Ideal) x0 x1 x2 x3 x4 (ix2 p q) = Cert.Stage.decB z w1 b1 w2 b2 (ix2 P q) := by
  rw [pay6_apply, decB_apply]
  simp only [h0, h1, h2, h3, h4]

end Pointwise

/-! ## From the blocks to the array -/

section Array
open Idealize.ShloMosaic.ValueIdx
variable (V : (c : Dev nD) → (b : Ref sig .tc) → Buf (Elt Ideal) ((c : Thread nD τ).loc b))

theorem hz6 : (![0, 0] : Fin 2 → Nat) = fun _ => 0 := funext fun a => by fin_cases a <;> rfl

/-- The printed index maps, decided over the grid: the z window and the result window are at block row t, column
    block 0; the four parameter windows stand at block (0, 0); and there are 8 points. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 ∧ t.val < 8 :=
  (by decide +kernel : ∀ t : Fin grid6.N, _)

/-- Every block row of the result is some point's. -/
theorem idx_onto6 : ∀ r : Fin 8, ∃ t : Fin cfg6.N, t.val = r.val :=
  (by decide +kernel : ∀ r : Fin 8, ∃ t : Fin grid6.N, t.val = r.val)

/-- WHAT POINT t WRITES BACK is block t of the stage function of the arrays as the region finds them. -/
theorem flushed6_eq (c : Dev nD) (t : Fin cfg6.N) :
    (dat6 (F := Ideal) V c).flushed 5 t = ((cfg6.win 5).blk t).view.read (Elt Ideal) (Cert.Stage.decB (F := Ideal) (V c main_v8) (V c main_arg14) (V c main_v12) (V c main_arg16) (V c main_v13)) := by
  show (cfg6.win 5).cut (grid6.coords t) ((dat6 (F := Ideal) V c).after 5 t) = _
  rw [after6_5]
  unfold out6_5
  rw [View.canon_unit_zero hz6]
  simp only [View.ld_unit_zero (S := S1024x64) hz6, View.ld_unit_zero (S := S64x64) hz6, View.ld_unit_zero (S := S1x64) hz6]
  obtain ⟨e00, e01, e10, e11, e20, e21, e30, e31, e40, e41, e50, e51, ht⟩ := idx_facts6 t
  funext j
  obtain ⟨p, q, rfl⟩ : ∃ (p : Fin 1024) (q : Fin 64), j = ix2 p q := ⟨j 0, j 1, eq_ix2 j⟩
  rw [View.read_apply]
  have hi : ((cfg6.win 5).blk t).view.emb (ix2 p q) = ix2 (⟨t.val * 1024 + p.val, by have := p.isLt; omega⟩ : Fin 8192) q := by
    funext ax; apply Fin.ext
    match ax with
    | ⟨0, _⟩ => show win6_5.index t (0 : Fin 2) * 1024 + 1 * p.val = t.val * 1024 + p.val; omega
    | ⟨1, _⟩ => show win6_5.index t (1 : Fin 2) * 64 + 1 * q.val = q.val; omega
  rw [hi]
  refine pay6_eq_decB (V c main_v8) (V c main_arg14) (V c main_v12) (V c main_arg16) (V c main_v13)
    (iblk6 V c 0 t) (iblk6 V c 1 t) (iblk6 V c 2 t) (iblk6 V c 3 t) (iblk6 V c 4 t) p _ q ?_ ?_ ?_ ?_ ?_
  · intro c'
    unfold iblk6
    rw [View.read_apply]
    show V c main_v8 (((cfg6.win 0).blk t).view.emb _) = V c main_v8 _
    refine congrArg _ (funext fun ax => Fin.ext ?_)
    match ax with
    | ⟨0, _⟩ => show win6_0.index t (0 : Fin 2) * 1024 + 1 * p.val = t.val * 1024 + p.val; omega
    | ⟨1, _⟩ => show win6_0.index t (1 : Fin 2) * 64 + 1 * c'.val = c'.val; omega
  · intro a b
    unfold iblk6
    rw [View.read_apply]
    show V c main_arg14 (((cfg6.win 1).blk t).view.emb _) = V c main_arg14 _
    refine congrArg _ (funext fun ax => Fin.ext ?_)
    match ax with
    | ⟨0, _⟩ => show win6_1.index t (0 : Fin 2) * 64 + 1 * a.val = a.val; omega
    | ⟨1, _⟩ => show win6_1.index t (1 : Fin 2) * 64 + 1 * b.val = b.val; omega
  · intro b
    unfold iblk6
    rw [View.read_apply]
    show V c main_v12 (((cfg6.win 2).blk t).view.emb _) = V c main_v12 _
    refine congrArg _ (funext fun ax => Fin.ext ?_)
    match ax with
    | ⟨0, _⟩ => show win6_2.index t (0 : Fin 2) * 1 + 1 * (0 : Fin 1).val = (0 : Fin 1).val; omega
    | ⟨1, _⟩ => show win6_2.index t (1 : Fin 2) * 64 + 1 * b.val = b.val; omega
  · intro a b
    unfold iblk6
    rw [View.read_apply]
    show V c main_arg16 (((cfg6.win 3).blk t).view.emb _) = V c main_arg16 _
    refine congrArg _ (funext fun ax => Fin.ext ?_)
    match ax with
    | ⟨0, _⟩ => show win6_3.index t (0 : Fin 2) * 64 + 1 * a.val = a.val; omega
    | ⟨1, _⟩ => show win6_3.index t (1 : Fin 2) * 64 + 1 * b.val = b.val; omega
  · intro b
    unfold iblk6
    rw [View.read_apply]
    show V c main_v13 (((cfg6.win 4).blk t).view.emb _) = V c main_v13 _
    refine congrArg _ (funext fun ax => Fin.ext ?_)
    match ax with
    | ⟨0, _⟩ => show win6_4.index t (0 : Fin 2) * 1 + 1 * (0 : Fin 1).val = (0 : Fin 1).val; omega
    | ⟨1, _⟩ => show win6_4.index t (1 : Fin 2) * 64 + 1 * b.val = b.val; omega

/-- An index of the result array is in point t's block iff each coordinate is in the block's range on its axis. -/
theorem mem_blk6 (t : Fin cfg6.N) (i : S8192x64.Idx) :
    i ∈ ((cfg6.win 5).blk t).view.set ↔ ∀ a : Fin 2, win6_5.index t a * S1024x64.size a ≤ (i a).val ∧ (i a).val < win6_5.index t a * S1024x64.size a + S1024x64.size a := by
  show i ∈ ((View.whole main_v14).slice (win6_5.rect t)).set ↔ _
  rw [View.set_slice_whole, Rect.mem_set_unit]
  exact Iff.rfl

/-- The 8 blocks tile the result array: row r is in the block of point r / 1024. -/
theorem cover6 (i : S8192x64.Idx) : ∃ t : Fin cfg6.N, (cfg6.win 5).flush t = true ∧ i ∈ ((cfg6.win 5).blk t).view.set := by
  have hi0 : (i 0).val < 8192 := (i 0).isLt
  have hi1 : (i 1).val < 64 := (i 1).isLt
  obtain ⟨t, ht⟩ := idx_onto6 ⟨(i 0).val / 1024, by omega⟩
  have ht' : t.val = (i 0).val / 1024 := ht
  obtain ⟨-, -, -, -, -, -, -, -, -, -, e50, e51, -⟩ := idx_facts6 t
  refine ⟨t, flush6_5 t, ?_⟩
  rw [mem_blk6]
  intro a
  match a with
  | ⟨0, _⟩ => show win6_5.index t (0 : Fin 2) * 1024 ≤ (i 0).val ∧ (i 0).val < win6_5.index t (0 : Fin 2) * 1024 + 1024; omega
  | ⟨1, _⟩ => show win6_5.index t (1 : Fin 2) * 64 ≤ (i 1).val ∧ (i 1).val < win6_5.index t (1 : Fin 2) * 64 + 64; omega

/-- THE RESULT ARRAY after the region is the stage function of the arrays the region reads. -/
theorem val6 (c : Dev nD) :
    (dat6 (F := Ideal) V c).arrAt 5 cfg6.N = Cert.Stage.decB (F := Ideal) (V c main_v8) (V c main_arg14) (V c main_v12) (V c main_arg16) (V c main_v13) :=
  (dat6 (F := Ideal) V c).arrAt_eq_of_cover 5 (Cert.Stage.decB (F := Ideal) (V c main_v8) (V c main_arg14) (V c main_v12) (V c main_arg16) (V c main_v13)) (fun t _ => flushed6_eq V c t) (cover6)

end Array

end Cert.KernelIdeal.Hand

end
-- ==== Proof.KI.Val7.lean ====
/-
  The value of region 7: after its 64 points the result array holds  1 / (1 + exp(−(s · sᵀ)))  of the array s the
  region reads through both input windows, element (a, b) being the logistic of  ∑ₖ s(a, k) · s(b, k).  Point
  t = 8·i + j writes block (i, j): the first staged block holds rows 1024·i … of s, the second rows 1024·j … of s; the
  body contracts the two blocks along their second axes, which is the product of the first with the transpose of
  the second; at the ideal values the change of format is the identity, the product into the zero accumulator is
  the plain sum over k, and the logistic is 1 / (1 + exp(−x)).  The 64 blocks tile the array.
-/
import proofs.«167749_j9328668967790_1_alg».proof.Proof.KI.R7
import proofs.«167749_j9328668967790_1_alg».proof.Proof.Stages
import proofs.«167749_j9328668967790_1_alg».proof.Proof.Gen.ReferenceIdeal.Read
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

section Value7

/-- Row r of the first block at column k; row c of the second block at column k. -/
abbrev lb7 (j : S1024x1024.Idx) (k : Fin 64) : S1024x64.Idx := fun a => match a with
  | ⟨0, _⟩ => ⟨(j 0).val, (j 0).isLt⟩
  | ⟨1, _⟩ => ⟨k.val, k.isLt⟩
abbrev rb7 (j : S1024x1024.Idx) (k : Fin 64) : S1024x64.Idx := fun a => match a with
  | ⟨0, _⟩ => ⟨(j 1).val, (j 1).isLt⟩
  | ⟨1, _⟩ => ⟨k.val, k.isLt⟩

theorem lhs7_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs7_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs7_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs7_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The body's payload at an element: the logistic of the sum over k of the products of row r of the first block and
    row c of the second. -/
theorem pay7_apply (x0 x1 : Vec Ideal S1024x64 .f32) (j : S1024x1024.Idx) :
    k7_pay1 (F := Ideal) x0 x1 j = Ideal.logistic (∑ k : Fin 64, x0 (lb7 j k) * x1 (rb7 j k)) := by
  unfold k7_pay1
  rw [shapeCast_self, shapeCast_self]
  refine congrArg Ideal.logistic ?_
  refine (Ideal.matmul_constant_zero_apply dot_S1024x64_S1024x64_S1024x1024_1_1_0_0_n_n none _ _ j).trans ?_
  rw [← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx j ((ValueIdx.contrEquiv1 dot_S1024x64_S1024x64_S1024x1024_1_1_0_0_n_n 64 rfl rfl).symm k) = lb7 j k := funext fun a => Fin.ext (by
    match a with
    | ⟨0, _⟩ => exact lhs7_0 _ _
    | ⟨1, _⟩ => exact (lhs7_1 _ _).trans hk)
  have er : dot_S1024x64_S1024x64_S1024x1024_1_1_0_0_n_n.rhsIdx j ((ValueIdx.contrEquiv1 dot_S1024x64_S1024x64_S1024x1024_1_1_0_0_n_n 64 rfl rfl).symm k) = rb7 j k := funext fun a => Fin.ext (by
    match a with
    | ⟨0, _⟩ => exact rhs7_0 _ _
    | ⟨1, _⟩ => exact (rhs7_1 _ _).trans hk)
  rw [ValueIdx.truncf_apply, ValueIdx.truncf_apply, el, er]

theorem hz7 : (![0, 0] : Fin 2 → Nat) = fun _ => 0 := funext fun a => by fin_cases a <;> rfl

/-- The whole result: element (a, b) is the logistic of the sum over k of s(a, k) · s(b, k). -/
abbrev G7 (s : FVec Ideal Cert.ReferenceIdeal.S8192x64 .f32) : FVec Ideal Cert.ReferenceIdeal.S8192x8192 .f32 :=
  fun i => Ideal.logistic (∑ k : Fin 64, s (Cert.ReferenceIdeal.Read.lidx_main_v44 i k) * s (Cert.ReferenceIdeal.Read.idx_main_v43 (Cert.ReferenceIdeal.Read.ridx_main_v44 i k)))

/-- The reference's product of s with its transpose, read at an element. -/
theorem gram_apply (s : FVec Ideal Cert.ReferenceIdeal.S8192x64 .f32) (i : Cert.ReferenceIdeal.S8192x8192.Idx) :
    Host.dotGeneral (F := Ideal) Cert.ReferenceIdeal.dot_S8192x64_S64x8192_S8192x8192_1_0_0_1_n_n none s
        (transpose Cert.ReferenceIdeal.S64x8192 [1, 0] s Cert.ReferenceIdeal.Facts₀.transposes_S8192x64_S64x8192_1_0) i
      = ∑ k : Fin 64, s (Cert.ReferenceIdeal.Read.lidx_main_v44 i k) * s (Cert.ReferenceIdeal.Read.idx_main_v43 (Cert.ReferenceIdeal.Read.ridx_main_v44 i k)) := by
  simp only [Host.dotGeneral]
  rw [Ideal.dotGeneral_apply, ← Equiv.sum_comp (ValueIdx.contrEquiv1 Cert.ReferenceIdeal.dot_S8192x64_S64x8192_S8192x8192_1_0_0_1_n_n 64 rfl rfl).symm]
  refine Finset.sum_congr rfl fun k _ => ?_
  have hk := ValueIdx.contrEquiv1_symm_val Cert.ReferenceIdeal.dot_S8192x64_S64x8192_S8192x8192_1_0_0_1_n_n 64 rfl rfl k
  have el : Cert.ReferenceIdeal.dot_S8192x64_S64x8192_S8192x8192_1_0_0_1_n_n.lhsIdx i ((ValueIdx.contrEquiv1 Cert.ReferenceIdeal.dot_S8192x64_S64x8192_S8192x8192_1_0_0_1_n_n 64 rfl rfl).symm k) = Cert.ReferenceIdeal.Read.lidx_main_v44 i k := funext fun a => Fin.ext (by
    match a with
    | ⟨0, _⟩ => exact Cert.ReferenceIdeal.Read.lhs_main_v44_0 _ _
    | ⟨1, _⟩ => exact (Cert.ReferenceIdeal.Read.lhs_main_v44_1 _ _).trans hk)
  have er : Cert.ReferenceIdeal.dot_S8192x64_S64x8192_S8192x8192_1_0_0_1_n_n.rhsIdx i ((ValueIdx.contrEquiv1 Cert.ReferenceIdeal.dot_S8192x64_S64x8192_S8192x8192_1_0_0_1_n_n 64 rfl rfl).symm k) = Cert.ReferenceIdeal.Read.ridx_main_v44 i k := funext fun a => Fin.ext (by
    match a with
    | ⟨0, _⟩ => exact (Cert.ReferenceIdeal.Read.rhs_main_v44_0 _ _).trans hk
    | ⟨1, _⟩ => exact Cert.ReferenceIdeal.Read.rhs_main_v44_1 _ _)
  rw [el, er]
  exact congrArg (s (Cert.ReferenceIdeal.Read.lidx_main_v44 i k) * ·)
    (transpose_apply [1, 0] s Cert.ReferenceIdeal.Facts₀.transposes_S8192x64_S64x8192_1_0 (Cert.ReferenceIdeal.Read.ridx_main_v44 i k) (Cert.ReferenceIdeal.Read.idx_main_v43 (Cert.ReferenceIdeal.Read.ridx_main_v44 i k)) (fun b => match b with
      | ⟨0, _⟩ => rfl
      | ⟨1, _⟩ => rfl))

/-- It is the reference's logistic of the Gram matrix of the same array. -/
theorem G7_eq (s : FVec Ideal Cert.ReferenceIdeal.S8192x64 .f32) : G7 s = Cert.Stage.sig (F := Ideal) s := by
  funext i
  unfold Cert.Stage.sig
  rw [ValueIdx.hostDivf_apply]
  show Ideal.logistic _ = Ideal.div _ (_ + Ideal.exp (- (Host.dotGeneral (F := Ideal) Cert.ReferenceIdeal.dot_S8192x64_S64x8192_S8192x8192_1_0_0_1_n_n none s _ i)))
  rw [gram_apply, ValueIdx.broadcastInDim_scalar_apply, ValueIdx.constant_apply, Ideal.ofBits_one_f32]
  rfl

/-- The index maps over the grid, point t = 8·i + j: the first input block is row block i of s, the second row block
    j of s, the result block is block (i, j). -/
theorem idx_facts7 : ∀ t : Fin cfg7.N, win7_0.index t (0 : Fin 2) = t.val / 8 ∧ win7_0.index t (1 : Fin 2) = 0
    ∧ win7_1.index t (0 : Fin 2) = t.val % 8 ∧ win7_1.index t (1 : Fin 2) = 0
    ∧ win7_2.index t (0 : Fin 2) = t.val / 8 ∧ win7_2.index t (1 : Fin 2) = t.val % 8 :=
  (by decide +kernel : ∀ t : Fin grid7.N, _)

variable (V : (c : Dev nD) → (b : Ref sig .tc) → Buf (Elt Ideal) ((c : Thread nD τ).loc b))

/-- The first staged block at point t is rows 1024·(t / 8) … of s. -/
theorem iblk7_0_apply (c : Dev nD) (t : Fin cfg7.N) (y : S1024x64.Idx) (i : S8192x64.Idx)
    (h0 : (i 0).val = t.val / 8 * 1024 + (y 0).val) (h1 : (i 1).val = (y 1).val) :
    (iblk7 V c 0 t : Vec Ideal S1024x64 .f32) y = (V c main_v14 : S8192x64.Idx → Elt Ideal .f32) i := by
  obtain ⟨e0, e1, -⟩ := idx_facts7 t
  unfold iblk7
  rw [View.read_apply]
  show V c main_v14 _ = V c main_v14 _
  congr 1
  funext a
  apply Fin.ext
  match a with
  | ⟨0, _⟩ => show win7_0.index t (0 : Fin 2) * 1024 + 1 * (y 0).val = (i 0).val; rw [e0, h0]; omega
  | ⟨1, _⟩ => show win7_0.index t (1 : Fin 2) * 64 + 1 * (y 1).val = (i 1).val; rw [e1, h1]; omega

/-- The second staged block at point t is rows 1024·(t mod 8) … of s. -/
theorem iblk7_1_apply (c : Dev nD) (t : Fin cfg7.N) (y : S1024x64.Idx) (i : S8192x64.Idx)
    (h0 : (i 0).val = t.val % 8 * 1024 + (y 0).val) (h1 : (i 1).val = (y 1).val) :
    (iblk7 V c 1 t : Vec Ideal S1024x64 .f32) y = (V c main_v14 : S8192x64.Idx → Elt Ideal .f32) i := by
  obtain ⟨-, -, e2, e3, -⟩ := idx_facts7 t
  unfold iblk7
  rw [View.read_apply]
  show V c main_v14 _ = V c main_v14 _
  congr 1
  funext a
  apply Fin.ext
  match a with
  | ⟨0, _⟩ => show win7_1.index t (0 : Fin 2) * 1024 + 1 * (y 0).val = (i 0).val; rw [e2, h0]; omega
  | ⟨1, _⟩ => show win7_1.index t (1 : Fin 2) * 64 + 1 * (y 1).val = (i 1).val; rw [e3, h1]; omega

/-- What point t writes back is block t of the logistic of the Gram matrix of s as the region finds it. -/
theorem flushed7_eq (c : Dev nD) (t : Fin cfg7.N) :
    (dat7 (F := Ideal) V c).flushed 2 t = ((cfg7.win 2).blk t).view.read (Elt Ideal) (G7 (V c main_v14)) := by
  show (cfg7.win 2).cut (grid7.coords t) ((dat7 V c).after 2 t) = _
  rw [after7_2]
  unfold out7_2
  rw [View.canon_unit_zero hz7]
  simp only [View.ld_unit_zero (S := S1024x64) hz7]
  obtain ⟨-, -, -, -, e4, e5⟩ := idx_facts7 t
  funext j
  show k7_pay1 (F := Ideal) (iblk7 V c 0 t) (iblk7 V c 1 t) j = G7 (V c main_v14) (((cfg7.win 2).blk t).view.emb j)
  refine (pay7_apply _ _ j).trans ?_
  refine congrArg Ideal.logistic ?_
  refine Finset.sum_congr rfl fun k _ => ?_
  refine congrArg₂ (· * ·) (iblk7_0_apply V c t _ _ ?_ ?_) (iblk7_1_apply V c t _ _ ?_ ?_)
  · show win7_2.index t (0 : Fin 2) * 1024 + 1 * (j 0).val = t.val / 8 * 1024 + (j 0).val; rw [e4]; omega
  · rfl
  · show win7_2.index t (1 : Fin 2) * 1024 + 1 * (j 1).val = t.val % 8 * 1024 + (j 1).val; rw [e5]; omega
  · rfl

/-- An index of the result array is in point t's block iff each coordinate is in the block's range on its axis. -/
theorem mem_blk7 (t : Fin cfg7.N) (i : S8192x8192.Idx) :
    i ∈ ((cfg7.win 2).blk t).view.set ↔ ∀ a : Fin 2, win7_2.index t a * S1024x1024.size a ≤ (i a).val ∧ (i a).val < win7_2.index t a * S1024x1024.size a + S1024x1024.size a := by
  show i ∈ ((View.whole main_v15).slice (win7_2.rect t)).set ↔ _
  rw [View.set_slice_whole, Rect.mem_set_unit]
  exact Iff.rfl

/-- Element (a, b) is in the block of point 8·(a / 1024) + b / 1024: the 64 blocks tile the result array. -/
theorem cover7 (i : S8192x8192.Idx) : ∃ t : Fin cfg7.N, (cfg7.win 2).flush t = true ∧ i ∈ ((cfg7.win 2).blk t).view.set := by
  have hi0 : (i 0).val < 8192 := ValueIdx.idx2_lt0 i
  have hi1 : (i 1).val < 8192 := ValueIdx.idx2_lt1 i
  have hN : cfg7.N = 64 := N_7
  let t : Fin cfg7.N := ⟨8 * ((i 0).val / 1024) + (i 1).val / 1024, by rw [hN]; omega⟩
  obtain ⟨-, -, -, -, e4, e5⟩ := idx_facts7 t
  have ht : t.val = 8 * ((i 0).val / 1024) + (i 1).val / 1024 := rfl
  refine ⟨t, flush7_2 t, ?_⟩
  rw [mem_blk7]
  intro a
  match a with
  | ⟨0, _⟩ => show win7_2.index t (0 : Fin 2) * 1024 ≤ (i 0).val ∧ (i 0).val < win7_2.index t (0 : Fin 2) * 1024 + 1024; rw [e4, ht]; omega
  | ⟨1, _⟩ => show win7_2.index t (1 : Fin 2) * 1024 ≤ (i 1).val ∧ (i 1).val < win7_2.index t (1 : Fin 2) * 1024 + 1024; rw [e5, ht]; omega

/-- The result array after region 7 is the reference's logistic of the Gram matrix of the array the region reads. -/
theorem val7 (c : Dev nD) :
    (dat7 (F := Ideal) V c).arrAt 2 cfg7.N = Cert.Stage.sig (F := Ideal) (V c main_v14) :=
  ((dat7 (F := Ideal) V c).arrAt_eq_of_cover 2 (G7 (V c main_v14)) (fun t _ => flushed7_eq V c t) cover7).trans
    (G7_eq (V c main_v14))

end Value7

end Cert.KernelIdeal.Hand

end
-- ==== Proof.Glue.lean ====
/-
  The one-row matrix of a bias vector, made two ways.  The kernel program reshapes the vector [n] to [1, n]; the reference
  program broadcasts it along axis 1 of [1, n].  Both arrays read, at index (0, c), the vector at c: a reshape keeps the
  row-major position, which at (0, c) is 0 · n + c = c, and a broadcast along axis 1 reads the operand at the coordinate
  on that axis (at 0 when n = 1, where c = 0 as well).  So they are the same array, whatever the element type.
-/
import proofs.«167749_j9328668967790_1_alg».proof.Proof.Gen.KernelIdeal
import proofs.«167749_j9328668967790_1_alg».proof.Proof.Gen.ReferenceIdeal
import proofs.«167749_j9328668967790_1_alg».proof.Proof.Stages
import Idealize.ShloMosaic.Lib.Pipeline.Value

noncomputable section

namespace Cert.Glue

open Idealize.ShloMosaic Idealize.SL.Sem

/-- A vector of length n reshaped to one row is the vector broadcast along axis 1 of [1, n], for any evidence of the two
    shape facts. -/
theorem shapeCast_row_eq_broadcastInDim {α : Type} {n : Nat}
    (hc : (⟨1, ![n]⟩ : Shape).ShapeCasts ⟨2, ![1, n]⟩)
    (hb : (⟨1, ![n]⟩ : Shape).BroadcastsInDim ⟨2, ![1, n]⟩ (![1] : Fin 1 → Fin 2))
    (b : (⟨1, ![n]⟩ : Shape).Idx → α) :
    shapeCast ⟨2, ![1, n]⟩ b hc = broadcastInDim ⟨2, ![1, n]⟩ ![1] hb b := by
  funext i
  -- the row coordinate is 0, the column coordinate c is below n
  have h0 : (i 0).val = 0 := by
    have h : (i 0).val < 1 := (i 0).isLt
    omega
  have h1 : (i 1).val < n := (i 1).isLt
  -- the operand's index: c on its one axis
  let k : (⟨1, ![n]⟩ : Shape).Idx := fun a => ⟨(i 1).val, by obtain rfl : a = 0 := Subsingleton.elim _ _; exact h1⟩
  have hk0 : (k 0).val = (i 1).val := rfl
  rw [shapeCast_apply b hc i k (by
        rw [Shape.rowMajor_val_one, Shape.rowMajor_val_two, hk0, h0]
        show (i 1).val = 0 * n + (i 1).val
        omega),
    broadcastInDim_apply ![1] hb b i k (by
        intro a
        obtain rfl : a = 0 := Subsingleton.elim _ _
        show (i 1).val = if n = 1 then 0 else (i 1).val
        split
        · omega
        · rfl)]

variable {F : FTy → Type} [FloatOps F]

/-- The kernel program's reshape [128] → [1,128] of a bias is the reference program's one-row broadcast of it. -/
theorem reshape128' (h : Cert.KernelIdeal.S128.ShapeCasts Cert.KernelIdeal.S1x128) (b : FVec F Cert.KernelIdeal.S128 .f32) :
    shapeCast Cert.KernelIdeal.S1x128 b h = Cert.Stage.row128 b :=
  shapeCast_row_eq_broadcastInDim h _ b

/-- The same for [64] → [1,64]. -/
theorem reshape64' (h : Cert.KernelIdeal.S64.ShapeCasts Cert.KernelIdeal.S1x64) (b : FVec F Cert.KernelIdeal.S64 .f32) :
    shapeCast Cert.KernelIdeal.S1x64 b h = Cert.Stage.row64 b :=
  shapeCast_row_eq_broadcastInDim h _ b

/-- The same for [512] → [1,512]. -/
theorem reshape512' (h : Cert.KernelIdeal.S512.ShapeCasts Cert.KernelIdeal.S1x512) (b : FVec F Cert.KernelIdeal.S512 .f32) :
    shapeCast Cert.KernelIdeal.S1x512 b h = Cert.Stage.row512 b :=
  shapeCast_row_eq_broadcastInDim h _ b

/-- At the kernel program's own evidence for the reshape. -/
theorem reshape128 (b : FVec F Cert.KernelIdeal.S128 .f32) :
    shapeCast Cert.KernelIdeal.S1x128 b Cert.KernelIdeal.Facts₀.shapeCasts_S128_S1x128 = Cert.Stage.row128 b :=
  reshape128' _ b

theorem reshape64 (b : FVec F Cert.KernelIdeal.S64 .f32) :
    shapeCast Cert.KernelIdeal.S1x64 b Cert.KernelIdeal.Facts₀.shapeCasts_S64_S1x64 = Cert.Stage.row64 b :=
  reshape64' _ b

theorem reshape512 (b : FVec F Cert.KernelIdeal.S512 .f32) :
    shapeCast Cert.KernelIdeal.S1x512 b Cert.KernelIdeal.Facts₀.shapeCasts_S512_S1x512 = Cert.Stage.row512 b :=
  reshape512' _ b

/-- The form the reshape operation's result takes: the cast of the element type along `rfl` is the identity. -/
theorem reshape128_result (h : Cert.KernelIdeal.S128.ShapeCasts Cert.KernelIdeal.S1x128) (b : FVec F Cert.KernelIdeal.S128 .f32) :
    (fun i => (rfl : FTy.f32 = FTy.f32) ▸ shapeCast Cert.KernelIdeal.S1x128 b h i) = Cert.Stage.row128 b :=
  reshape128' h b

theorem reshape64_result (h : Cert.KernelIdeal.S64.ShapeCasts Cert.KernelIdeal.S1x64) (b : FVec F Cert.KernelIdeal.S64 .f32) :
    (fun i => (rfl : FTy.f32 = FTy.f32) ▸ shapeCast Cert.KernelIdeal.S1x64 b h i) = Cert.Stage.row64 b :=
  reshape64' h b

theorem reshape512_result (h : Cert.KernelIdeal.S512.ShapeCasts Cert.KernelIdeal.S1x512) (b : FVec F Cert.KernelIdeal.S512 .f32) :
    (fun i => (rfl : FTy.f32 = FTy.f32) ▸ shapeCast Cert.KernelIdeal.S1x512 b h i) = Cert.Stage.row512 b :=
  reshape512' h b

end Cert.Glue

end
-- ==== Proof.KI.Chain.lean ====
/-
  The contents of the buffers the regions pass to one another, followed through @main at the exact reals: after each
  item the buffer it writes holds the matching stage of the network applied to the launch contents of the arguments.
  Region 0 leaves  x · W₁ ; region 1 the first graph-convolution layer; region 2 its product with W₂; region 3 the
  second layer; region 4 the latent code; regions 5 and 6 the two decoders of it; region 7 the logistic of the Gram
  matrix of the structure decoder's output.  The bias rows the host reshapes make are the one-row matrices the stages
  take.
-/
import proofs.«167749_j9328668967790_1_alg».proof.Proof.KI.Keep
import proofs.«167749_j9328668967790_1_alg».proof.Proof.KI.Val0
import proofs.«167749_j9328668967790_1_alg».proof.Proof.KI.Val1
import proofs.«167749_j9328668967790_1_alg».proof.Proof.KI.Val2
import proofs.«167749_j9328668967790_1_alg».proof.Proof.KI.Val3
import proofs.«167749_j9328668967790_1_alg».proof.Proof.KI.Val4
import proofs.«167749_j9328668967790_1_alg».proof.Proof.KI.Val5
import proofs.«167749_j9328668967790_1_alg».proof.Proof.KI.Val6
import proofs.«167749_j9328668967790_1_alg».proof.Proof.KI.Val7
import proofs.«167749_j9328668967790_1_alg».proof.Proof.Glue
import proofs.«167749_j9328668967790_1_alg».proof.Proof.Stages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-- Region 0 leaves x · W₁. -/
theorem at1_v0 : W1 m c (Proc.devRef .tc main_v0) = Cert.Stage.mmA (F := Ideal) (m ((c : Thread nD τ).loc main_arg0)) (m ((c : Thread nD τ).loc main_arg2)) :=
  (W1_arr m c 2).trans (val0 (V0 m) c)

theorem at2_v1 : W2 m c (Proc.devRef .tc main_v1) = Cert.Stage.row128 (F := Ideal) (m ((c : Thread nD τ).loc main_arg3)) := by
  show StableHlo.after hostOps1 (W1 m c) (Proc.devRef .tc main_v1) = _
  after_results
  rw [W1_arg m c main_arg3 (by decide)]
  exact Cert.Glue.reshape128' (F := Ideal) _ _

/-- Region 1 leaves the first layer relu(adj · (x · W₁) + b₁). -/
theorem at3_v2 : W3 m c (Proc.devRef .tc main_v2) = (Cert.Stage.gcn (F := Ideal) (m ((c : Thread nD τ).loc main_arg1)) (Cert.Stage.mmA (F := Ideal) (m ((c : Thread nD τ).loc main_arg0)) (m ((c : Thread nD τ).loc main_arg2))) (Cert.Stage.row128 (F := Ideal) (m ((c : Thread nD τ).loc main_arg3)))) := by
  refine (W3_arr m c 3).trans ((val1 (V2 m) c).trans ?_)
  have h1 : V2 m c main_arg1 = (m ((c : Thread nD τ).loc main_arg1)) := W2_arg m c main_arg1 (by decide)
  have h2 : V2 m c main_v0 = Cert.Stage.mmA (F := Ideal) (m ((c : Thread nD τ).loc main_arg0)) (m ((c : Thread nD τ).loc main_arg2)) := (W2_keep m c main_v0 (by decide)).trans (at1_v0 m c)
  have h3 : V2 m c main_v1 = Cert.Stage.row128 (F := Ideal) (m ((c : Thread nD τ).loc main_arg3)) := at2_v1 m c
  rw [h1, h2, h3]

/-- Region 2 leaves its product with W₂. -/
theorem at4_v3 : W4 m c (Proc.devRef .tc main_v3) = (Cert.Stage.mmB (F := Ideal) (Cert.Stage.gcn (F := Ideal) (m ((c : Thread nD τ).loc main_arg1)) (Cert.Stage.mmA (F := Ideal) (m ((c : Thread nD τ).loc main_arg0)) (m ((c : Thread nD τ).loc main_arg2))) (Cert.Stage.row128 (F := Ideal) (m ((c : Thread nD τ).loc main_arg3)))) (m ((c : Thread nD τ).loc main_arg4))) := by
  refine (W4_arr m c 2).trans ((val2 (V3 m) c).trans ?_)
  have h1 : V3 m c main_v2 = (Cert.Stage.gcn (F := Ideal) (m ((c : Thread nD τ).loc main_arg1)) (Cert.Stage.mmA (F := Ideal) (m ((c : Thread nD τ).loc main_arg0)) (m ((c : Thread nD τ).loc main_arg2))) (Cert.Stage.row128 (F := Ideal) (m ((c : Thread nD τ).loc main_arg3)))) := at3_v2 m c
  have h2 : V3 m c main_arg4 = (m ((c : Thread nD τ).loc main_arg4)) := W3_arg m c main_arg4 (by decide)
  rw [h1, h2]

theorem at5_v4 : W5 m c (Proc.devRef .tc main_v4) = Cert.Stage.row128 (F := Ideal) (m ((c : Thread nD τ).loc main_arg5)) := by
  show StableHlo.after hostOps3 (W4 m c) (Proc.devRef .tc main_v4) = _
  after_results
  rw [W4_arg m c main_arg5 (by decide)]
  exact Cert.Glue.reshape128' (F := Ideal) _ _

/-- Region 3 leaves the second layer. -/
theorem at6_v5 : W6 m c (Proc.devRef .tc main_v5) = (Cert.Stage.gcn (F := Ideal) (m ((c : Thread nD τ).loc main_arg1)) (Cert.Stage.mmB (F := Ideal) (Cert.Stage.gcn (F := Ideal) (m ((c : Thread nD τ).loc main_arg1)) (Cert.Stage.mmA (F := Ideal) (m ((c : Thread nD τ).loc main_arg0)) (m ((c : Thread nD τ).loc main_arg2))) (Cert.Stage.row128 (F := Ideal) (m ((c : Thread nD τ).loc main_arg3)))) (m ((c : Thread nD τ).loc main_arg4))) (Cert.Stage.row128 (F := Ideal) (m ((c : Thread nD τ).loc main_arg5)))) := by
  refine (W6_arr m c 3).trans ((val3 (V5 m) c).trans ?_)
  have h1 : V5 m c main_arg1 = (m ((c : Thread nD τ).loc main_arg1)) := W5_arg m c main_arg1 (by decide)
  have h2 : V5 m c main_v3 = (Cert.Stage.mmB (F := Ideal) (Cert.Stage.gcn (F := Ideal) (m ((c : Thread nD τ).loc main_arg1)) (Cert.Stage.mmA (F := Ideal) (m ((c : Thread nD τ).loc main_arg0)) (m ((c : Thread nD τ).loc main_arg2))) (Cert.Stage.row128 (F := Ideal) (m ((c : Thread nD τ).loc main_arg3)))) (m ((c : Thread nD τ).loc main_arg4))) := (W5_keep m c main_v3 (by decide)).trans (at4_v3 m c)
  have h3 : V5 m c main_v4 = Cert.Stage.row128 (F := Ideal) (m ((c : Thread nD τ).loc main_arg5)) := at5_v4 m c
  rw [h1, h2, h3]

theorem at7_v6 : W7 m c (Proc.devRef .tc main_v6) = Cert.Stage.row64 (F := Ideal) (m ((c : Thread nD τ).loc main_arg7)) := by
  show StableHlo.after hostOps4 (W6 m c) (Proc.devRef .tc main_v6) = _
  after_results
  rw [W6_arg m c main_arg7 (by decide)]
  exact Cert.Glue.reshape64' (F := Ideal) _ _

theorem at7_v7 : W7 m c (Proc.devRef .tc main_v7) = Cert.Stage.row64 (F := Ideal) (m ((c : Thread nD τ).loc main_arg9)) := by
  show StableHlo.after hostOps4 (W6 m c) (Proc.devRef .tc main_v7) = _
  after_results
  rw [W6_arg m c main_arg9 (by decide)]
  exact Cert.Glue.reshape64' (F := Ideal) _ _

/-- Region 4 leaves the latent code. -/
theorem at8_v8 : W8 m c (Proc.devRef .tc main_v8) = (Cert.Stage.latent (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18))) := by
  refine (W8_arr m c 6).trans ((val4 (V7 m) c).trans ?_)
  have h0 : V7 m c main_v5 = (Cert.Stage.gcn (F := Ideal) (m ((c : Thread nD τ).loc main_arg1)) (Cert.Stage.mmB (F := Ideal) (Cert.Stage.gcn (F := Ideal) (m ((c : Thread nD τ).loc main_arg1)) (Cert.Stage.mmA (F := Ideal) (m ((c : Thread nD τ).loc main_arg0)) (m ((c : Thread nD τ).loc main_arg2))) (Cert.Stage.row128 (F := Ideal) (m ((c : Thread nD τ).loc main_arg3)))) (m ((c : Thread nD τ).loc main_arg4))) (Cert.Stage.row128 (F := Ideal) (m ((c : Thread nD τ).loc main_arg5)))) := (W7_keep m c main_v5 (by decide)).trans (at6_v5 m c)
  have h1 : V7 m c main_arg6 = (m ((c : Thread nD τ).loc main_arg6)) := W7_arg m c main_arg6 (by decide)
  have h2 : V7 m c main_v6 = Cert.Stage.row64 (F := Ideal) (m ((c : Thread nD τ).loc main_arg7)) := at7_v6 m c
  have h3 : V7 m c main_arg8 = (m ((c : Thread nD τ).loc main_arg8)) := W7_arg m c main_arg8 (by decide)
  have h4 : V7 m c main_v7 = Cert.Stage.row64 (F := Ideal) (m ((c : Thread nD τ).loc main_arg9)) := at7_v7 m c
  have h5 : V7 m c main_arg18 = (m ((c : Thread nD τ).loc main_arg18)) := W7_arg m c main_arg18 (by decide)
  rw [h0, h1, h2, h3, h4, h5]
  rfl

theorem at9_v9 : W9 m c (Proc.devRef .tc main_v9) = Cert.Stage.row64 (F := Ideal) (m ((c : Thread nD τ).loc main_arg11)) := by
  show StableHlo.after hostOps5 (W8 m c) (Proc.devRef .tc main_v9) = _
  after_results
  rw [W8_arg m c main_arg11 (by decide)]
  exact Cert.Glue.reshape64' (F := Ideal) _ _

theorem at9_v10 : W9 m c (Proc.devRef .tc main_v10) = Cert.Stage.row512 (F := Ideal) (m ((c : Thread nD τ).loc main_arg13)) := by
  show StableHlo.after hostOps5 (W8 m c) (Proc.devRef .tc main_v10) = _
  after_results
  rw [W8_arg m c main_arg13 (by decide)]
  exact Cert.Glue.reshape512' (F := Ideal) _ _

theorem at9_v8 : W9 m c (Proc.devRef .tc main_v8) = (Cert.Stage.latent (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18))) := (W9_keep m c main_v8 (by decide)).trans (at8_v8 m c)

/-- Region 5 leaves the attribute decoder's output, the second result. -/
theorem at10_v11 : W10 m c (Proc.devRef .tc main_v11) = Cert.Stage.decA (F := Ideal) (Cert.Stage.latent (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18))) (m ((c : Thread nD τ).loc main_arg10)) (Cert.Stage.row64 (F := Ideal) (m ((c : Thread nD τ).loc main_arg11))) (m ((c : Thread nD τ).loc main_arg12)) (Cert.Stage.row512 (F := Ideal) (m ((c : Thread nD τ).loc main_arg13))) := by
  refine (W10_arr m c 5).trans ((val5 (V9 m) c).trans ?_)
  have h0 : V9 m c main_v8 = (Cert.Stage.latent (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18))) := at9_v8 m c
  have h1 : V9 m c main_arg10 = (m ((c : Thread nD τ).loc main_arg10)) := W9_arg m c main_arg10 (by decide)
  have h2 : V9 m c main_v9 = Cert.Stage.row64 (F := Ideal) (m ((c : Thread nD τ).loc main_arg11)) := at9_v9 m c
  have h3 : V9 m c main_arg12 = (m ((c : Thread nD τ).loc main_arg12)) := W9_arg m c main_arg12 (by decide)
  have h4 : V9 m c main_v10 = Cert.Stage.row512 (F := Ideal) (m ((c : Thread nD τ).loc main_arg13)) := at9_v10 m c
  rw [h0, h1, h2, h3, h4]

theorem at11_v12 : W11 m c (Proc.devRef .tc main_v12) = Cert.Stage.row64 (F := Ideal) (m ((c : Thread nD τ).loc main_arg15)) := by
  show StableHlo.after hostOps6 (W10 m c) (Proc.devRef .tc main_v12) = _
  after_results
  rw [W10_arg m c main_arg15 (by decide)]
  exact Cert.Glue.reshape64' (F := Ideal) _ _

theorem at11_v13 : W11 m c (Proc.devRef .tc main_v13) = Cert.Stage.row64 (F := Ideal) (m ((c : Thread nD τ).loc main_arg17)) := by
  show StableHlo.after hostOps6 (W10 m c) (Proc.devRef .tc main_v13) = _
  after_results
  rw [W10_arg m c main_arg17 (by decide)]
  exact Cert.Glue.reshape64' (F := Ideal) _ _

theorem at11_v8 : W11 m c (Proc.devRef .tc main_v8) = (Cert.Stage.latent (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18))) :=
  (W11_keep m c main_v8 (by decide)).trans ((W10_keep m c main_v8 (by decide)).trans (at9_v8 m c))

/-- Region 6 leaves the structure decoder's output. -/
theorem at12_v14 : W12 m c (Proc.devRef .tc main_v14) = Cert.Stage.decB (F := Ideal) (Cert.Stage.latent (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18))) (m ((c : Thread nD τ).loc main_arg14)) (Cert.Stage.row64 (F := Ideal) (m ((c : Thread nD τ).loc main_arg15))) (m ((c : Thread nD τ).loc main_arg16)) (Cert.Stage.row64 (F := Ideal) (m ((c : Thread nD τ).loc main_arg17))) := by
  refine (W12_arr m c 5).trans ((val6 (V11 m) c).trans ?_)
  have h0 : V11 m c main_v8 = (Cert.Stage.latent (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18))) := at11_v8 m c
  have h1 : V11 m c main_arg14 = (m ((c : Thread nD τ).loc main_arg14)) := W11_arg m c main_arg14 (by decide)
  have h2 : V11 m c main_v12 = Cert.Stage.row64 (F := Ideal) (m ((c : Thread nD τ).loc main_arg15)) := at11_v12 m c
  have h3 : V11 m c main_arg16 = (m ((c : Thread nD τ).loc main_arg16)) := W11_arg m c main_arg16 (by decide)
  have h4 : V11 m c main_v13 = Cert.Stage.row64 (F := Ideal) (m ((c : Thread nD τ).loc main_arg17)) := at11_v13 m c
  rw [h0, h1, h2, h3, h4]

/-- The first result: the logistic of the Gram matrix of the structure decoder's output. -/
theorem out15 : W13 m c (Proc.devRef .tc main_v15) = Cert.Stage.sig (F := Ideal) (Cert.Stage.decB (F := Ideal) (Cert.Stage.latent (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18))) (m ((c : Thread nD τ).loc main_arg14)) (Cert.Stage.row64 (F := Ideal) (m ((c : Thread nD τ).loc main_arg15))) (m ((c : Thread nD τ).loc main_arg16)) (Cert.Stage.row64 (F := Ideal) (m ((c : Thread nD τ).loc main_arg17)))) := by
  refine (W13_out m c).trans ((val7 (V12 m) c).trans ?_)
  have h0 : V12 m c main_v14 = _ := at12_v14 m c
  rw [h0]

/-- The second result: the attribute decoder's output, untouched by the last three items. -/
theorem out11 : W13 m c (Proc.devRef .tc main_v11) = Cert.Stage.decA (F := Ideal) (Cert.Stage.latent (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18))) (m ((c : Thread nD τ).loc main_arg10)) (Cert.Stage.row64 (F := Ideal) (m ((c : Thread nD τ).loc main_arg11))) (m ((c : Thread nD τ).loc main_arg12)) (Cert.Stage.row512 (F := Ideal) (m ((c : Thread nD τ).loc main_arg13))) :=
  (W13_keep m c main_v11 (by decide)).trans ((W12_keep m c main_v11 (by decide)).trans ((W11_keep m c main_v11 (by decide)).trans (at10_v11 m c)))

end Cert.KernelIdeal.Hand

end
-- ==== Proof.RefFrame.lean ====
/-
  The reference program is host operations only: its run ends with each result at the composed term of its
  operations over the argument arrays, and the argument arrays untouched.  The frame conjunct of the reference
  forgets the two results and keeps the rest.
-/
import proofs.«167749_j9328668967790_1_alg».proof.Defs
import proofs.«167749_j9328668967790_1_alg».proof.Proof.Gen.ReferenceIdeal
import proofs.«167749_j9328668967790_1_alg».proof.Proof.Gen.Pre_finite_inputs
import proofs.«167749_j9328668967790_1_alg».proof.Proof.Gen.ReferenceIdeal.Run
import proofs.«167749_j9328668967790_1_alg».proof.Proof.Gen.ReferenceIdeal.Read

noncomputable section

namespace Cert.Proof.RefFrame

open Idealize.ShloMosaic Idealize.SL.Sem

/-- Every weakly fair execution of the reference terminates without a fault and leaves its arguments as launched. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.RefStages.lean ====
/-
  The reference program's run, restated with its two results spelt by the stage functions: the Gram-matrix logistic of
  the structure decoder of the latent code, and the attribute decoder of the latent code, the latent code being the
  encoder's two graph-convolution layers and the reparameterisation of the argument arrays.  Each stage function is a
  name for a composition of the reference's own host operations, so each result term is the run's term, unfolded.
-/
import proofs.«167749_j9328668967790_1_alg».proof.Proof.Gen.ReferenceIdeal.Run
import proofs.«167749_j9328668967790_1_alg».proof.Proof.Gen.ReferenceIdeal
import proofs.«167749_j9328668967790_1_alg».proof.Proof.Stages
import Idealize.ShloMosaic.PureOps.Ideal

set_option maxRecDepth 16384

noncomputable section

namespace Cert.Proof.RefStages

open Cert.ReferenceIdeal Cert.ReferenceIdeal.Gen Idealize.ShloMosaic Idealize.ShloMosaic.TcCoe Idealize.SL.Sem Idealize.ShloMosaic.StableHlo

set_option maxHeartbeats 4000000 in
/-- Every weakly fair execution of the reference's @main terminates with the first result at the logistic of the Gram
    matrix of the structure decoder's output, the second at the attribute decoder's output, both of the latent code of
    the argument arrays, and the arguments unchanged. -/
theorem run_stages (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v50)
        = Cert.Stage.sig (F := Ideal) (Cert.Stage.decB (F := Ideal) (Cert.Stage.latent (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg18))) (m' ((c.tc : Thread nD τ).loc main_arg14)) (Cert.Stage.row64 (F := Ideal) (m' ((c.tc : Thread nD τ).loc main_arg15))) (m' ((c.tc : Thread nD τ).loc main_arg16)) (Cert.Stage.row64 (F := Ideal) (m' ((c.tc : Thread nD τ).loc main_arg17))))
      ∧ r.2.mem ((c.tc : Thread nD τ).loc main_v33)
        = Cert.Stage.decA (F := Ideal) (Cert.Stage.latent (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg18))) (m' ((c.tc : Thread nD τ).loc main_arg10)) (Cert.Stage.row64 (F := Ideal) (m' ((c.tc : Thread nD τ).loc main_arg11))) (m' ((c.tc : Thread nD τ).loc main_arg12)) (Cert.Stage.row512 (F := Ideal) (m' ((c.tc : Thread nD τ).loc main_arg13)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18) :=
  (θ_run defs _ _).mono (fun _ h c => ⟨(h c).1.trans (by
      unfold Cert.ReferenceIdeal.Value.res_main_v50 Cert.Stage.sig Cert.Stage.decB Cert.Stage.hidden Cert.Stage.latent Cert.Stage.reparam Cert.Stage.gcn
        Cert.Stage.mmA Cert.Stage.mmB Cert.Stage.row128 Cert.Stage.row64
      rfl),
    (h c).2.1.trans (by
      unfold Cert.Stage.decA Cert.Stage.hidden Cert.Stage.latent Cert.Stage.reparam Cert.Stage.gcn
        Cert.Stage.mmA Cert.Stage.mmB Cert.Stage.row128 Cert.Stage.row64 Cert.Stage.row512
      rfl),
    (h c).2.2⟩)
    (Cert.ReferenceIdeal.Value.run (F := Ideal) m' ρ')

end Cert.Proof.RefStages

end
-- ==== Proof.lean ====
/-
  The certificate of the graph auto-encoder kernel against its jnp reference.
  The kernel program runs eight pallas_call regions (two dense products, two graph-convolution layers accumulated
  over blocks of the contracted axis, the reparameterisation, two fused decoders and the logistic of a Gram matrix)
  among host reshapes of the bias vectors.  Both programs terminate without a fault and leave their arguments
  untouched (the frames); the ideal pass rewrote nothing, so there is nothing to preserve; and at the exact reals
  the kernel's two results are, region by region, the same stages of the network the reference spells with host
  operations: a blocked contraction is the whole contraction (sums on the extended reals commute and associate),
  a change of float format is the identity, and the logistic is 1 / (1 + exp(−x)) on both sides.
-/
import proofs.«167749_j9328668967790_1_alg».proof.Defs
import proofs.«167749_j9328668967790_1_alg».proof.Proof.Gen.Kernel
import proofs.«167749_j9328668967790_1_alg».proof.Proof.Gen.KernelIdeal
import proofs.«167749_j9328668967790_1_alg».proof.Proof.Gen.ReferenceIdeal
import proofs.«167749_j9328668967790_1_alg».proof.Proof.Gen.Pre_finite_inputs
import proofs.«167749_j9328668967790_1_alg».proof.Proof.Gen.ReferenceIdeal.Run
import proofs.«167749_j9328668967790_1_alg».proof.Proof.K.Keep
import proofs.«167749_j9328668967790_1_alg».proof.Proof.KI.Keep
import proofs.«167749_j9328668967790_1_alg».proof.Proof.KI.Chain
import proofs.«167749_j9328668967790_1_alg».proof.Proof.RefFrame
import proofs.«167749_j9328668967790_1_alg».proof.Proof.RefStages
import proofs.«167749_j9328668967790_1_alg».proof.Proof.Stages

set_option maxRecDepth 16384

noncomputable section

namespace Cert.Proof

open Idealize.ShloMosaic Idealize.ShloMosaic.TcCoe Idealize.SL.Sem

/-- The word-level kernel program terminates, faults nowhere and keeps its arguments. -/
theorem frame_p : Cert.frame_Kernel := fun m ρ _ => Cert.Kernel.Hand.frame m ρ

/-- So does the idealized kernel program. -/
theorem frame_pi : Cert.frame_KernelIdeal := fun m ρ _ => Cert.KernelIdeal.Hand.frame m ρ

/-- At the exact reals the two programs, run from memories that agree on the arguments, end with equal results. -/
theorem algebraic : Cert.algebraic_KernelIdeal_ReferenceIdeal := by
  intro m ρ m' ρ' _ hagree
  refine ⟨fun c => Cert.KernelIdeal.Hand.W13 m c (Proc.devRef .tc Cert.KernelIdeal.main_v15),
    fun c => Cert.KernelIdeal.Hand.W13 m c (Proc.devRef .tc Cert.KernelIdeal.main_v11),
    Cert.KernelIdeal.Hand.run_out m ρ, ?_⟩
  refine (θ_run Cert.ReferenceIdeal.defs _ _).mono (fun _ h c => ⟨(h c).1.trans ?_, (h c).2.1.trans ?_, (h c).2.2⟩)
    (Cert.Proof.RefStages.run_stages m' ρ')
  · obtain ⟨h0, h1, h2, h3, h4, h5, h6, h7, h8, h9, h10, h11, h12, h13, h14, h15, h16, h17, h18⟩ := hagree c
    refine Eq.trans ?_ (Cert.KernelIdeal.Hand.out15 m c).symm
    rw [h0, h1, h2, h3, h4, h5, h6, h7, h8, h9, h14, h15, h16, h17, h18]
  · obtain ⟨h0, h1, h2, h3, h4, h5, h6, h7, h8, h9, h10, h11, h12, h13, h14, h15, h16, h17, h18⟩ := hagree c
    refine Eq.trans ?_ (Cert.KernelIdeal.Hand.out11 m c).symm
    rw [h0, h1, h2, h3, h4, h5, h6, h7, h8, h9, h10, h11, h12, h13, h18]

theorem claim : Cert.Claim :=
  ⟨Cert.Kernel.Gen.facts, Cert.KernelIdeal.Gen.facts, Cert.ReferenceIdeal.Gen.facts, Cert.Pre_finite_inputs.Gen.facts,
    frame_p, frame_pi, Cert.Proof.RefFrame.frame_ri, trivial, algebraic⟩

end Cert.Proof

end
